-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S8192x2 : Shape := ⟨2, ![8192, 2]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_arg2 : IVec S262144 32) (main_v15 : IVec S_ 1) (main_c_5 : IVec S_ 32) : IVec S_ 1 :=
  let main_v16 : IVec S262144 32 := broadcastInDim S262144 ![] bcast_S_S262144 main_c_5
  let main_v17 : IVec S262144 1 := cmpi .sge main_arg2 main_v16
  let main_c_6 : IVec S_ 32 := constantI S_ 32 8192#32
  let main_v18 : IVec S262144 32 := broadcastInDim S262144 ![] bcast_S_S262144 main_c_6
  let main_v19 : IVec S262144 1 := cmpi .slt main_arg2 main_v18
  let main_v20 : IVec S262144 1 := andi main_v17 main_v19
  let main_c_7 : IVec S_ 1 := constantI S_ 1 1#1
  let main_v21 : IVec S_ 1 := (fun x v => Host.reduce IntOp.andi x v reducesTo_S262144_S_d0 h_S_) main_v20 main_c_7
  let main_v22 : IVec S_ 1 := andi main_v15 main_v21
  main_v22

def fn {F : FTy → Type} [FloatOps F] (main_arg0 : FVec F S262144 .f32) (main_arg1 : IVec S262144 32) (main_arg2 : IVec S262144 32) (main_arg3 : FVec F S8192x2 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S8192x2 .f32 := Host.absf main_arg3
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_c_2 : IVec S_ 32 := constantI S_ 32 4294959104#32
  let main_v9 : IVec S262144 32 := broadcastInDim S262144 ![] bcast_S_S262144 main_c_2
  let main_v10 : IVec S262144 1 := cmpi .sge main_arg1 main_v9
  let main_c_3 : IVec S_ 32 := constantI S_ 32 8192#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  let main_c_5 : IVec S_ 32 := constantI S_ 32 4294959104#32
  fn_part1 (F := F) main_arg2 main_v15 main_c_5
-- ==== Kernel.lean ====
abbrev S262144 : Shape := ⟨1, ![262144]⟩
abbrev S8192x2 : Shape := ⟨2, ![8192, 2]⟩
abbrev S1x1 : Shape := ⟨2, ![1, 1]⟩
abbrev S1024x2 : Shape := ⟨2, ![1024, 2]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩
abbrev S262144x1 : Shape := ⟨2, ![262144, 1]⟩
abbrev S262144x2 : Shape := ⟨2, ![262144, 2]⟩
abbrev S2x262144 : Shape := ⟨2, ![2, 262144]⟩
abbrev S2x16384 : Shape := ⟨2, ![2, 16384]⟩
abbrev S16384 : Shape := ⟨1, ![16384]⟩
abbrev S1x16384 : Shape := ⟨2, ![1, 16384]⟩

abbrev nBuf : Space → Nat
  | .hbm => 59
  | .vmem => 15
  | .smem => 0
  | _ => 0

abbrev bufTy : (tb : Table) → Fin (tcTables nBuf tb) → BufTy
  | .hbm, ⟨0, _⟩ => ⟨S262144, .f32⟩
  | .hbm, ⟨1, _⟩ => ⟨S262144, .i32⟩
  | .hbm, ⟨2, _⟩ => ⟨S262144, .i32⟩
  | .hbm, ⟨3, _⟩ => ⟨S8192x2, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S1, .i32⟩
  | .hbm, ⟨17, _⟩ => ⟨S_, .i32⟩
  | .hbm, ⟨18, _⟩ => ⟨S262144x1, .i32⟩
  | .hbm, ⟨19, _⟩ => ⟨S262144x1, .i1⟩
  | .hbm, ⟨20, _⟩ => ⟨S1x1, .i32⟩
  | .hbm, ⟨21, _⟩ => ⟨S262144x1, .i32⟩
  | .hbm, ⟨22, _⟩ => ⟨S262144x1, .i1⟩
  | .hbm, ⟨23, _⟩ => ⟨S262144x1, .i1⟩
  | .hbm, ⟨24, _⟩ => ⟨S_, .i1⟩
  | .hbm, ⟨25, _⟩ => ⟨S262144, .i1⟩
  | .hbm, ⟨26, _⟩ => ⟨S262144x2, .f32⟩
  | .hbm, ⟨27, _⟩ => ⟨S262144x2, .i1⟩
  | .hbm, ⟨28, _⟩ => ⟨S_, .f32⟩
  | .hbm, ⟨29, _⟩ => ⟨S262144x2, .f32⟩
  | .hbm, ⟨30, _⟩ => ⟨S262144x2, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S1, .i32⟩
  | .hbm, ⟨40, _⟩ => ⟨S_, .i32⟩
  | .hbm, ⟨41, _⟩ => ⟨S262144x1, .i32⟩
  | .hbm, ⟨42, _⟩ => ⟨S262144x1, .i1⟩
  | .hbm, ⟨43, _⟩ => ⟨S1x1, .i32⟩
  | .hbm, ⟨44, _⟩ => ⟨S262144x1, .i32⟩
  | .hbm, ⟨45, _⟩ => ⟨S262144x1, .i1⟩
  | .hbm, ⟨46, _⟩ => ⟨S262144x1, .i1⟩
  | .hbm, ⟨47, _⟩ => ⟨S_, .i1⟩
  | .hbm, ⟨48, _⟩ => ⟨S262144, .i1⟩
  | .hbm, ⟨49, _⟩ => ⟨S262144x2, .f32⟩
  | .hbm, ⟨50, _⟩ => ⟨S262144x2, .i1⟩
  | .hbm, ⟨51, _⟩ => ⟨S_, .f32⟩
  | .hbm, ⟨52, _⟩ => ⟨S262144x2, .f32⟩
  | .hbm, ⟨53, _⟩ => ⟨S262144x2, .f32⟩
  | .hbm, ⟨54, _⟩ => ⟨S2x262144, .f32⟩
  | .hbm, ⟨55, _⟩ => ⟨S2x262144, .f32⟩
  | .hbm, ⟨56, _⟩ => ⟨S1x1, .f32⟩
  | .hbm, ⟨57, _⟩ => ⟨S1x1, .f32⟩
  | .hbm, ⟨58, _⟩ => ⟨S_, .f32⟩
  | .local _ .vmem, ⟨0, _⟩ => ⟨S1024x2, .f32⟩
  | .local _ .vmem, ⟨1, _⟩ => ⟨S1024x2, .f32⟩
  | .local _ .vmem, ⟨2, _⟩ => ⟨S1024x2, .f32⟩
  | .local _ .vmem, ⟨3, _⟩ => ⟨S1024x2, .f32⟩
  | .local _ .vmem, ⟨4, _⟩ => ⟨S1x1, .f32⟩
  | .local _ .vmem, ⟨5, _⟩ => ⟨S1x1, .f32⟩
  | .local _ .vmem, ⟨6, _⟩ => ⟨S2x16384, .f32⟩
  | .local _ .vmem, ⟨7, _⟩ => ⟨S2x16384, .f32⟩
  | .local _ .vmem, ⟨8, _⟩ => ⟨S2x16384, .f32⟩
  | .local _ .vmem, ⟨9, _⟩ => ⟨S2x16384, .f32⟩
  | .local _ .vmem, ⟨10, _⟩ => ⟨S16384, .f32⟩
  | .local _ .vmem, ⟨11, _⟩ => ⟨S16384, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let arg1 : BitVec 32 := BitVec.ofNat 32 (i 1).val
  let c7_i32_12 : BitVec 32 := 7#32
  let v48 : BitVec 1 := Scalar.cmpi .eq arg1 c7_i32_12
  let v49 : BitVec 1 := Scalar.andi v47 v48
  let v50 : BitVec 32 := Scalar.extui v49
  let c0_i32_13 : BitVec 32 := 0#32
  let v51 : BitVec 1 := Scalar.cmpi .ne v50 c0_i32_13
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_13 : BitVec 32 := 0#32
  let v39 : BitVec 1 := Scalar.cmpi .ne v38 c0_i32_13
  v39

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x2_0 : S262144.BroadcastsInDim S262144x2 (![0] : Fin 1 → Fin S262144x2.rank)
  bcast_S_S262144x2 : S_.BroadcastsInDim S262144x2 (![] : Fin 0 → Fin S262144x2.rank)
  transposes_S262144x2_S2x262144_1_0 : S262144x2.Transposes [1, 0] S2x262144
  shapeCasts_S_S1x1 : S_.ShapeCasts S1x1
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  slices_S2x16384_o0_0_S1x16384 : S2x16384.Slices ![0, 0] S1x16384
  shapeCasts_S1x16384_S16384 : S1x16384.ShapeCasts S16384
  slices_S2x16384_o1_0_S1x16384 : S2x16384.Slices ![1, 0] S1x16384
  inpos_S1x1_p0_0 : ∀ a, (![0, 0] : Fin 2 → Nat) a < S1x1.size a
  inb_S16384_S16384_0 : ∀ a, (![0] : Fin 1 → Nat) a + S16384.size a ≤ S16384.size a
  h_S16384 : 0 < S16384.numel
  shapeCasts_S16384_S1x16384 : S16384.ShapeCasts S1x16384
  reduces_S1x16384_S1 : S1x16384.Reduces [1] S1
  shapeCasts_S1_S1x1 : S1.ShapeCasts S1x1
  gather_S8192x2_S262144x1_S262144x2_1_0_n_n_0_1_12_wf : GatherDims.WF S8192x2 S262144x1 S262144x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x16384.size a ≤ S2x262144.size a
  hwx1_0 : ∀ i : grid1.Coords, EltTy.bits .f32 = 32 ∨ (Rect.block (s := S2x262144) S2x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x16384.size a ≤ S2x262144.size a
  hwx1_1 : ∀ i : grid1.Coords, EltTy.bits .f32 = 32 ∨ (Rect.block (s := S2x262144) S2x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384.size a ≤ S262144.size a
  hwx1_2 : ∀ i : grid1.Coords, EltTy.bits .f32 = 32 ∨ (Rect.block (s := S262144) S16384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S8192x2_S262144x1_S262144x2_1_0_n_n_0_1_12 : GatherDims S8192x2 S262144x1 S262144x2 where
  offsetDims := [1]
  collapsedSliceDims := [0]
  operandBatchingDims := []
  startIndicesBatchingDims := []
  startIndexMap := [0]
  indexVectorDim := 1
  sliceSizes := ![1, 2]
  wf := gather_S8192x2_S262144x1_S262144x2_1_0_n_n_0_1_12_wf

abbrev win0_0 : Pipeline.Window sig grid0 :=
  Pipeline.Window.ofSpec (Memref.whole main_arg3) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S2x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S262144 : Shape := ⟨1, ![262144]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩
abbrev S262144x1 : Shape := ⟨2, ![262144, 1]⟩
abbrev S262144x2 : Shape := ⟨2, ![262144, 2]⟩

abbrev nBuf : Space → Nat
  | .hbm => 64
  | .vmem => 0
  | .smem => 0
  | _ => 0

abbrev bufTy : (tb : Table) → Fin (tcTables nBuf tb) → BufTy
  | .hbm, ⟨0, _⟩ => ⟨S262144, .f32⟩
  | .hbm, ⟨1, _⟩ => ⟨S262144, .i32⟩
  | .hbm, ⟨2, _⟩ => ⟨S262144, .i32⟩
  | .hbm, ⟨3, _⟩ => ⟨S8192x2, .f32⟩
  | .hbm, ⟨4, _⟩ => ⟨S8192x2, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S2x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x2, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x2, .f32⟩
  | .hbm, ⟨46, _⟩ => ⟨S262144x2, .f32⟩
  | .hbm, ⟨47, _⟩ => ⟨S262144x2, .f32⟩
  | .hbm, ⟨48, _⟩ => ⟨S_, .f32⟩
  | .hbm, ⟨49, _⟩ => ⟨S262144x2, .f32⟩
  | .hbm, ⟨50, _⟩ => ⟨S262144x2, .f32⟩
  | .hbm, ⟨51, _⟩ => ⟨S_, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S262144, .f32⟩
  | .hbm, ⟨57, _⟩ => ⟨S262144, .f32⟩
  | .hbm, ⟨58, _⟩ => ⟨S262144, .f32⟩
  | .hbm, ⟨59, _⟩ => ⟨S262144, .f32⟩
  | .hbm, ⟨60, _⟩ => ⟨S262144, .f32⟩
  | .hbm, ⟨61, _⟩ => ⟨S262144, .f32⟩
  | .hbm, ⟨62, _⟩ => ⟨S_, .f32⟩
  | .hbm, ⟨63, _⟩ => ⟨S_, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  reducesTo_S8192x2_S8192_d1 : S8192x2.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8192_S_d0_1 : S8192x8192.ReducesTo [0, 1] S_
  bcast_S_S262144 : S_.BroadcastsInDim S262144 (![] : Fin 0 → Fin S262144.rank)
  bcast_S262144_S262144x1_0 : S262144.BroadcastsInDim S262144x1 (![0] : Fin 1 → Fin S262144x1.rank)
  bcast_S_S262144x2 : S_.BroadcastsInDim S262144x2 (![] : Fin 0 → Fin S262144x2.rank)
  reducesTo_S262144x2_S262144_d1 : S262144x2.ReducesTo [1] S262144
  reducesTo_S262144_S_d0 : S262144.ReducesTo [0] S_
  dot_S8192x2_S2x8192_S8192x8192_1_0_0_1_n_n_wf : DotDims.WF S8192x2 S2x8192 S8192x8192 [1] [0] [0] [1] [] []
  gather_S8192x2_S262144x1_S262144x2_1_0_n_n_0_1_12_wf : GatherDims.WF S8192x2 S262144x1 S262144x2 [1] [0] [] [0] [] 1 ![1, 2]

variable [Facts₀]

def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def gather_S8192x2_S262144x1_S262144x2_1_0_n_n_0_1_12 : GatherDims S8192x2 S262144x1 S262144x2 where
  offsetDims := [1]
  collapsedSliceDims := [0]
  operandBatchingDims := []
  startIndicesBatchingDims := []
  startIndexMap := [0]
  indexVectorDim := 1
  sliceSizes := ![1, 2]
  wf := gather_S8192x2_S262144x1_S262144x2_1_0_n_n_0_1_12_wf

class Facts : Prop extends Facts₀ where

variable [Facts]
-- ==== Proof.PartBody.lean ====
import proofs.«400394_j48352741818804_1_alg».proof.Proof.Gen.KernelIdeal.Launch
import proofs.«400394_j48352741818804_1_alg».proof.Proof.Gen.KernelIdeal.Skeleton
import proofs.«400394_j48352741818804_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Part

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point

The partition kernel runs on an 8 x 8 grid of tile pairs. Its first conditional (taken at the pair (0, 0)) clears
the running sum; its second (taken at the pair (7, 7)) copies the running sum into the output block. -/

/-- The first conditional's condition: both tile coordinates are zero. -/
abbrev condA (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point of the row-major order and nowhere else. -/
theorem hcondA : ∀ t : Fin cfg0.N, condA (grid0.coords t) ↔ t.val = 0 :=
  (by decide +kernel : ∀ t : Fin grid0.N, condA (grid0.coords t) ↔ t.val = 0)

/-- The second conditional's condition: both tile coordinates are seven. -/
abbrev condC (i : grid0.Coords) : Prop := k0_cond2 i = 1#1
/-- It holds at the last point and nowhere else. -/
theorem hcondC : ∀ t : Fin cfg0.N, condC (grid0.coords t) ↔ t.val = 63 :=
  (by decide +kernel : ∀ t : Fin grid0.N, condC (grid0.coords t) ↔ t.val = 63)

/-! ## Where the windows are idle -/

/-- The two input windows are never idle. -/
theorem liveAt0 : ∀ t : Fin cfg0.N, cfg0.idle 0 (grid0.coords t) = false := by decide +kernel
theorem liveAt1 : ∀ t : Fin cfg0.N, cfg0.idle 1 (grid0.coords t) = false := by decide +kernel
/-- Away from the last point the output window is idle: nothing is stored into it, -/
theorem idleAt2 : ∀ t : Fin cfg0.N, ¬condC (grid0.coords t) → cfg0.idle 2 (grid0.coords t) = true := by decide +kernel
/-- and its block is not written back there. -/
theorem noFlush2 : ∀ t : Fin cfg0.N, ¬condC (grid0.coords t) → (cfg0.win 2).flush t = false := by decide +kernel
/-- At the last point the output window is live. -/
theorem liveAt2 : ∀ t : Fin cfg0.N, condC (grid0.coords t) → cfg0.idle 2 (grid0.coords t) = false := by decide +kernel

/-! ## The memrefs the body is called with -/

/-- Each window's current staging memref at point `t`, and its wholeness. -/
abbrev ms0 (t : Fin cfg0.N) : Memref sig .tc .vmem S1024x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The running sum: a one-element buffer the kernel carries from point to point. -/
abbrev scM : Memref sig .tc .vmem S1x1 .f32 := Memref.whole cc0_scratch0

/-! ## The invariant's shape -/

/-- The nine scoped buffers of the other call, each whole at some contents: this region never touches them. -/
abbrev restNine (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the region is entered with: the running sum's buffer at some contents, the nine other scoped buffers at
    some contents, the generator register at some state. -/
theorem PhiA_eq (c : Dev nD) :
    (Pipeline.ΦA spec0 c : sProp 𝕄)
      = iprop(iprop((∃ d, owns (c : Thread nD τ) scM fullShare d) ∗ restNine c) ∗ (∃ r, prngReg c r)) := by
  unfold Pipeline.ΦA; rw [scopedRest0_eq]; simp only [scM, owns_whole]; try rfl

/-! ## The body's run, case by case -/

/-- The zero offsets of a whole-shape access, however spelt. -/
theorem hz : (![0, 0] : Fin 2 → Nat) = fun _ => 0 := funext fun a => by fin_cases a <;> rfl

set_option maxHeartbeats 1000000 in
/-- THE FIRST POINT (the first conditional taken, the second not). On whole memrefs — the two tiles at `x0`, `x1`, the
    idle output block at `xi`, the running sum's buffer at anything — the body clears the running sum and runs to the
    continuation holding the tiles and the output block as they were and the running sum at zero plus the tile pair's sum. -/
theorem kernelRun_A (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1x1 .f32) (harg4 : arg4.IsWhole) (arg5 : Memref sig .tc .vmem S1x1 .f32) (harg5 : arg5.IsWhole) (hcA : condA i) (hcC : ¬condC i)
    (x0 x1 : Vec F S1024x2 .f32) (xi : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay1 (k0_pay3 x0 x1 (k0_pay2 (F := F))))) -∗ K ⟨⟩))
      ⊢ wp frame (wpE (defs₀ (F := F)) Variants.none c none) E (cc0__part_kernel i arg2 harg2 arg3 harg3 arg4 harg4 arg5 harg5) K := by
  simp only [cc0__part_kernel_eq_skeleton]; unfold cc0__part_kernel_skel
  simp only [k0_part1_eq_skeleton]
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hcA | exact hcC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero (S := S1x1) hz inb_S1x1_S1x1_0_0 y⟩)]
  sl_unfold_words
  rw [View.canon_cons_unit_zero (S := S1x1) hz, View.readCov_unit_zero (S := S1x1) _ hz]
  simp only [View.readAt_eq_ld, harg2.read_unread, harg3.read_unread, View.ld_unit_zero (S := S1024x2) hz]

set_option maxHeartbeats 1000000 in
/-- A MIDDLE POINT (neither conditional taken). On whole memrefs — the two tiles at `x0`, `x1`, the idle output block at
    `xi`, the running sum at `xs` — the body runs to the continuation holding the tiles and the output block as they
    were and the running sum at `xs` plus the tile pair's sum. -/
theorem kernelRun_B (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1x1 .f32) (harg4 : arg4.IsWhole) (arg5 : Memref sig .tc .vmem S1x1 .f32) (harg5 : arg5.IsWhole) (hcA : ¬condA i) (hcC : ¬condC i)
    (x0 x1 : Vec F S1024x2 .f32) (xi : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay1 (k0_pay3 x0 x1 xs))) -∗ K ⟨⟩))
      ⊢ wp frame (wpE (defs₀ (F := F)) Variants.none c none) E (cc0__part_kernel i arg2 harg2 arg3 harg3 arg4 harg4 arg5 harg5) K := by
  simp only [cc0__part_kernel_eq_skeleton]; unfold cc0__part_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hcA | exact hcC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero (S := S1x1) hz inb_S1x1_S1x1_0_0 y⟩)]
  sl_unfold_words
  rw [View.canon_unit_zero hz]
  simp only [View.readAt_eq_ld, harg2.read_unread, harg3.read_unread, harg5.read_unread, View.ld_unit_zero (S := S1024x2) hz, View.ld_unit_zero (S := S1x1) hz]

set_option maxHeartbeats 1000000 in
/-- THE LAST POINT (the first conditional not taken, the second taken). On whole memrefs — the two tiles at `x0`, `x1`,
    the output block at anything, the running sum at `xs` — the body adds the tile pair's sum to the running sum and
    copies it into the output block: both end at `xs` plus the tile pair's sum. -/
theorem kernelRun_C (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1x1 .f32) (harg4 : arg4.IsWhole) (arg5 : Memref sig .tc .vmem S1x1 .f32) (harg5 : arg5.IsWhole) (hcA : ¬condA i) (hcC : condC i)
    (x0 x1 : Vec F S1024x2 .f32) (xs : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay1 (k0_pay3 x0 x1 xs)) ∗ owns (c : Thread nD τ) arg5 fullShare (k0_pay1 (k0_pay3 x0 x1 xs))) -∗ K ⟨⟩))
      ⊢ wp frame (wpE (defs₀ (F := F)) Variants.none c none) E (cc0__part_kernel i arg2 harg2 arg3 harg3 arg4 harg4 arg5 harg5) K := by
  simp only [cc0__part_kernel_eq_skeleton]; unfold cc0__part_kernel_skel
  simp only [k0_part1_eq_skeleton]
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons.mpr (Or.inl rfl), View.mem_set_unit_zero (S := S1x1) hz inb_S1x1_S1x1_0_0 y⟩)]
    sl_unfold_words
    rw [View.canon_unit_zero hz, View.readCov_unit_zero (S := S1x1) _ hz]
    simp only [View.readAt_eq_ld, harg2.read_unread, harg3.read_unread, harg5.read_unread, View.ld_unit_zero (S := S1024x2) hz, View.ld_unit_zero (S := S1x1) hz]
  iexists _; isplitr
  swap; · iexact HS
  ipureintro
  sl_unfold_words
  rw [View.read_writes_eq_canon _ _ _ (fun y => ⟨_, List.mem_cons.mpr (Or.inl rfl), View.mem_set_unit_zero (S := S1x1) hz inb_S1x1_S1x1_0_0 y⟩)]
  rw [View.canon_unit_zero hz]
  simp only [View.readAt_eq_ld, harg2.read_unread, harg3.read_unread, harg5.read_unread, View.ld_unit_zero (S := S1024x2) hz, View.ld_unit_zero (S := S1x1) hz]

end Cert.KernelIdeal.Part

end
-- ==== Proof.PartData.lean ====
import proofs.«400394_j48352741818804_1_alg».proof.Proof.PartBody

set_option maxRecDepth 16384

noncomputable section

namespace Cert.KernelIdeal.Part

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. Windows 0 and 1 read the SAME
    array of 8192 points in the plane: window 0 its row tile, window 1 its column tile. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running sum -/

/-- The running sum after point `n`: at the first point the tile pair's sum of 1 / (1 + squared distance) added to
    zero, at every later point the tile pair's sum added to what the point before left. -/
def acc (c : Dev nD) : (n : ℕ) → n < cfg0.N → Vec F S1x1 .f32
  | 0, h => k0_pay1 (k0_pay3 (iblk V c 0 ⟨0, h⟩) (iblk V c 1 ⟨0, h⟩) (k0_pay2 (F := F)))
  | n + 1, h => k0_pay1 (k0_pay3 (iblk V c 0 ⟨n + 1, h⟩) (iblk V c 1 ⟨n + 1, h⟩) (acc c n (Nat.lt_of_succ_lt h)))

theorem acc_zero (c : Dev nD) (h : 0 < cfg0.N) :
    acc V c 0 h = k0_pay1 (k0_pay3 (iblk V c 0 ⟨0, h⟩) (iblk V c 1 ⟨0, h⟩) (k0_pay2 (F := F))) := rfl

theorem acc_succ (c : Dev nD) (n : ℕ) (h : n + 1 < cfg0.N) :
    acc V c (n + 1) h = k0_pay1 (k0_pay3 (iblk V c 0 ⟨n + 1, h⟩) (iblk V c 1 ⟨n + 1, h⟩) (acc V c n (Nat.lt_of_succ_lt h))) := rfl

/-! ## The invariant -/

/-- Before position `n`: at the region's entry what the launch hands over; afterwards the running sum's buffer at what
    the point before left, the nine other scoped buffers and the generator register at anything. -/
def PhiS (c : Dev nD) : (n : ℕ) → n ≤ cfg0.N → sProp 𝕄
  | 0, _ => Pipeline.ΦA spec0 c
  | n + 1, hn => iprop(iprop(owns (c : Thread nD τ) scM fullShare (acc V c n hn) ∗ restNine c) ∗ (∃ r, prngReg c r))

/-! ## The proof data -/

/-- The proof data of the region on core `c`: the arrays as the region finds them; after the body at point `t` each
    input's buffer at its block and the output's at the running sum (read only at the last point: elsewhere the window
    is idle and not written back); the invariant above; windows 0 and 1 each hold their common array at a half share;
    nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q := fun w => match w with
    | ⟨0, _⟩ => PosShare.left fullShare
    | ⟨1, _⟩ => PosShare.right fullShare
    | ⟨2, _⟩ => fullShare
  owed _ := 0

theorem A_eq (c : Dev nD) (w : Fin cfg0.W) : (dat V c).A w = V c (Pipeline.arrRef spec0 w) := by
  dsimp only [dat]

theorem after_out (c : Dev nD) (t : Fin cfg0.N) : (dat V c).after 2 t = acc V c t.val t.isLt := by dsimp only [dat]

theorem PhiS_zero (c : Dev nD) (n : ℕ) (h : n ≤ cfg0.N) (hz : n = 0) : PhiS V c n h = Pipeline.ΦA spec0 c := by
  subst hz; rfl

/-- After point `n`: the running sum's buffer at that point's sum. -/
theorem PhiS_succ (c : Dev nD) (n : ℕ) (hn : n < cfg0.N) :
    PhiS V c (n + 1) hn = iprop(iprop(owns (c : Thread nD τ) scM fullShare (acc V c n hn) ∗ restNine c) ∗ (∃ r, prngReg c r)) := rfl

/-- Before a point that is not the first: the running sum's buffer at what the point before left. -/
theorem PhiS_pos (c : Dev nD) (n : ℕ) (h : n ≤ cfg0.N) (hz : n ≠ 0) :
    PhiS V c n h = iprop(iprop(owns (c : Thread nD τ) scM fullShare (acc V c (n - 1) (by omega)) ∗ restNine c) ∗ (∃ r, prngReg c r)) := by
  cases n with
  | zero => exact absurd rfl hz
  | succ n => rfl

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the running sum's value is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

theorem hout (c : Dev nD) : (dat V c).Φ (Fin.last cfg0.N) ⊢ Pipeline.ΦA spec0 c :=
  Phi_out V c _ (by rw [Fin.val_last]; have : cfg0.N = 64 := N_0; omega)

/-! ## What the body finds in the input windows -/

theorem after0 (c : Dev nD) (t : Fin cfg0.N) : (dat V c).after 0 t = iblk V c 0 t := by dsimp only [dat]
theorem after1 (c : Dev nD) (t : Fin cfg0.N) : (dat V c).after 1 t = iblk V c 1 t := by dsimp only [dat]

/-- The row tile's staging buffer holds its block at every point, fetched there or not: it is fetched only when the row
    tile changes, and between fetches the block index does not move. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- The column tile's staging buffer holds its block at every point. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The running sum, point by point -/

/-- At the first point: zero plus the tile pair's sum. -/
theorem acc_first (c : Dev nD) (t : Fin cfg0.N) (h0 : t.val = 0) :
    acc V c t.val t.isLt = k0_pay1 (k0_pay3 (iblk V c 0 t) (iblk V c 1 t) (k0_pay2 (F := F))) := by
  obtain ⟨n, hn⟩ := t
  cases n with
  | zero => rfl
  | succ n => exact absurd h0 (Nat.succ_ne_zero n)

/-- At a later point: what the point before left plus the tile pair's sum. -/
theorem acc_later (c : Dev nD) (t : Fin cfg0.N) (h0 : t.val ≠ 0) :
    acc V c t.val t.isLt = k0_pay1 (k0_pay3 (iblk V c 0 t) (iblk V c 1 t) (acc V c (t.val - 1) (Nat.lt_of_le_of_lt (Nat.sub_le _ _) t.isLt))) := by
  obtain ⟨n, hn⟩ := t
  cases n with
  | zero => exact absurd rfl h0
  | succ n => rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The two tiles' memrefs hold their blocks; the position says which of the three cases the
    point is in. At the first point the running sum's buffer comes at anything and is cleared; at a later point it comes
    at what the point before left. Away from the last point the output block is handed back as it was found; at the last
    point it leaves at the running sum. The nine buffers of the other call and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [liveAt0 t], after0]
  rw [show (dat V c).leavesExact 1 t = owns (c : Thread nD τ) (ms1 t) fullShare ((dat V c).after 1 t) from by
    unfold Dat.leavesExact; rw [liveAt1 t], after1]
  by_cases h0 : t.val = 0
  · have hA : condA (grid0.coords t) := (hcondA t).mpr h0
    have hC : ¬condC (grid0.coords t) := fun h => by have := (hcondC t).mp h; omega
    rw [Dat.leavesExact_idle (dat V c) 2 t (idleAt2 t hC) (noFlush2 t hC)]
    rw [PhiS_castSucc V c t, PhiS_zero V c _ _ h0, PhiA_eq, acc_first V c t h0]
    iintro ⟨⟨⟨HS, Hr⟩, Hg⟩, Ho, ⟨%d0, H0⟩, ⟨%d1, H1⟩, ⟨%d2, H2⟩⟩
    iapply (kernelRun_A c (grid0.coords t) _ _ _ _ _ _ _ _ hA hC (iblk V c 0 t) (iblk V c 1 t) ((dat V c).before 2 t d2) Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 63
    · have hA : ¬condA (grid0.coords t) := fun h => h0 ((hcondA t).mp h)
      have hC : condC (grid0.coords t) := (hcondC t).mpr h1
      rw [show (dat V c).leavesExact 2 t = owns (c : Thread nD τ) (ms2 t) fullShare ((dat V c).after 2 t) from by
        unfold Dat.leavesExact; rw [liveAt2 t hC], after_out]
      rw [PhiS_castSucc V c t, PhiS_pos V c _ _ h0, acc_later V c t h0]
      iintro ⟨⟨⟨HS, Hr⟩, Hg⟩, Ho, ⟨%d0, H0⟩, ⟨%d1, H1⟩, ⟨%d2, H2⟩⟩
      iapply (kernelRun_C c (grid0.coords t) _ _ _ _ _ _ _ _ hA hC (iblk V c 0 t) (iblk V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hA : ¬condA (grid0.coords t) := fun h => h0 ((hcondA t).mp h)
      have hC : ¬condC (grid0.coords t) := fun h => h1 ((hcondC t).mp h)
      rw [Dat.leavesExact_idle (dat V c) 2 t (idleAt2 t hC) (noFlush2 t hC)]
      rw [PhiS_castSucc V c t, PhiS_pos V c _ _ h0, acc_later V c t h0]
      iintro ⟨⟨⟨HS, Hr⟩, Hg⟩, Ho, ⟨%d0, H0⟩, ⟨%d1, H1⟩, ⟨%d2, H2⟩⟩
      iapply (kernelRun_B c (grid0.coords t) _ _ _ _ _ _ _ _ hA hC (iblk V c 0 t) (iblk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation (c : Dev nD) : Pipeline.BodyObligation (dat (F := F) V c) (defs₀ (F := F)) Variants.none () Set.univ := fun t => by
  rw [bigSep_W0, bigSep_W0]
  exact sound_body V c t

end Cert.KernelIdeal.Part

end
-- ==== Proof.KlBody.lean ====
import proofs.«400394_j48352741818804_1_alg».proof.Proof.Gen.KernelIdeal.Launch
import proofs.«400394_j48352741818804_1_alg».proof.Proof.Gen.KernelIdeal.Skeleton
import proofs.«400394_j48352741818804_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Kl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch operand of the second region: a whole scoped buffer of one word. -/
abbrev scM : Memref sig .tc .vmem S1x1 .f32 := Memref.whole cc1_scratch0

/-- The scoped buffers of the core that the second region neither stages nor uses (the first region's staging
    buffers and scratch), each at some contents, around a resource `S` for the region's own scratch. -/
abbrev restAround (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ S)

/-- The launch's resource for the region with the region's own scratch named: the same buffers, the scratch as a memref
    owned at some contents. -/
theorem PhiA_eq (c : Dev nD) :
    (Pipeline.ΦA spec1 c : sProp 𝕄)
      = iprop(restAround c iprop(∃ d, owns (c : Thread nD τ) scM fullShare d) ∗ (∃ r, prngReg c r)) := by
  unfold Pipeline.ΦA; rw [scopedRest1_eq]; simp only [scM, owns_whole]; try rfl

/-! ## The body's branch conditions -/

/-- The condition of the body's first `scf.if` (the reset of the scratch word), from the grid coordinate. -/
abbrev cond0 (i : grid1.Coords) : Prop :=
  (Scalar.cmpi .ne (Scalar.extui (Scalar.cmpi .eq (BitVec.ofNat 32 (i 0).val) 0#32)) 0#32) = 1#1
/-- It holds at the first point only. -/
theorem hcond0 : ∀ t : Fin cfg1.N, cond0 (grid1.coords t) ↔ t.val = 0 :=
  (by decide +kernel : ∀ t : Fin grid1.N, cond0 (grid1.coords t) ↔ t.val = 0)

/-- The condition of the body's second `scf.if` (the copy of the scratch word into the output block). -/
abbrev cond1 (i : grid1.Coords) : Prop := k1_cond2 i = 1#1
/-- It holds at the last point only. -/
theorem hcond1 : ∀ t : Fin cfg1.N, cond1 (grid1.coords t) ↔ t.val = 15 :=
  (by decide +kernel : ∀ t : Fin grid1.N, cond1 (grid1.coords t) ↔ t.val = 15)

/-! ## Where the output window is idle -/

/-- Off the last point the output window is idle: the body stores nothing into it. -/
theorem idleAt4 : ∀ t : Fin cfg1.N, ¬cond1 (grid1.coords t) → cfg1.idle 4 (grid1.coords t) = true := by decide +kernel
/-- Off the last point its block is not written back. -/
theorem noFlush4 : ∀ t : Fin cfg1.N, ¬cond1 (grid1.coords t) → (cfg1.win 4).flush t = false := by decide +kernel
/-- At the last point it is live. -/
theorem liveAt4 : ∀ t : Fin cfg1.N, cond1 (grid1.coords t) → cfg1.idle 4 (grid1.coords t) = false := by decide +kernel

/-- The input windows are never idle. -/
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl

/-! ## The staging memrefs at a point -/

abbrev ms0 (t : Fin cfg1.N) : Memref sig .tc .vmem S2x16384 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2x16384 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S16384 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1 .f32 := win1_4.stage (cfg1.slots t 4)
abbrev hs4 (t : Fin cfg1.N) : (ms4 t).IsWhole := hstage1_4 ((cfg1.slots t 4).cast nbuf1_4)

/-- The whole-shape rectangle of the one-word scratch, as the body's loads and stores spell it. -/
abbrev r11 : Rect S1x1 := Rect.unit (s := S1x1) ![0, 0] S1x1.size inb_S1x1_S1x1_0_0

theorem zero11 : (![0, 0] : Fin S1x1.rank → Nat) = fun _ => 0 := by
  funext a; fin_cases a <;> rfl

theorem zero2 : (![0, 0] : Fin S2x16384.rank → Nat) = fun _ => 0 := by
  funext a; fin_cases a <;> rfl

theorem zero1 : (![0] : Fin S16384.rank → Nat) = fun _ => 0 := by
  funext a; fin_cases a; rfl
set_option maxHeartbeats 1000000 in
/-- THE FIRST POINT (the reset taken, the copy not). On whole memrefs — the inputs at `x·`, the output's buffer at `xi`
    (handed back untouched), the scratch at anything — the body runs to the continuation holding the scratch at the point's
    term added to zero. -/
theorem run_A (c : Dev nD) (i : grid1.Coords)
    (arg1 : Memref sig .tc .vmem S2x16384 .f32) (harg1 : arg1.IsWhole) (arg2 : Memref sig .tc .vmem S2x16384 .f32) (harg2 : arg2.IsWhole)
    (arg3 : Memref sig .tc .vmem S16384 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : cond0 i) (hc1 : ¬cond1 i)
    (x0 x1 : Vec F S2x16384 .f32) (x2 : Vec F S16384 .f32) (x3 xi : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi
            ∗ owns (c : Thread nD τ) arg6 fullShare (k1_pay2 x0 x1 x3 x2 (k1_pay1 (F := F)))) -∗ K ⟨⟩))
      ⊢ wp frame (wpE (defs₀ (F := F)) Variants.none c none) E (cc1__kl_kernel i arg1 harg1 arg2 harg2 arg3 harg3 arg4 harg4 arg5 harg5 arg6 harg6) K := by
  simp only [cc1__kl_kernel_eq_skeleton]; unfold cc1__kl_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS
  ipureintro
  sl_unfold_words
  rw [View.read_writes_eq_canon _ _ _ (fun y => ⟨_, List.Mem.head _, View.mem_set_unit_zero zero11 inb_S1x1_S1x1_0_0 y⟩),
    View.canon_cons_unit_zero zero11]
  simp only [View.readAt_eq_ld, harg1.read_unread, harg2.read_unread, harg3.read_unread, harg4.read_unread,
    View.ld_unit_zero (S := S1x1) zero11, View.ld_unit_zero (S := S2x16384) zero2, View.ld_unit_zero (S := S16384) zero1,
    View.readCov_unit_zero (S := S1x1) _ zero11]

set_option maxHeartbeats 1000000 in
/-- A MIDDLE POINT (neither `scf.if` taken). On whole memrefs — the four inputs at contents `x·`, the output's buffer at
    `xi` (handed back untouched), the scratch at what the point before left (`xs`) — the body runs to the continuation
    holding the inputs and the output's buffer as they were and the scratch at the point's term added to `xs`. -/
theorem run_B (c : Dev nD) (i : grid1.Coords)
    (arg1 : Memref sig .tc .vmem S2x16384 .f32) (harg1 : arg1.IsWhole) (arg2 : Memref sig .tc .vmem S2x16384 .f32) (harg2 : arg2.IsWhole)
    (arg3 : Memref sig .tc .vmem S16384 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond0 i) (hc1 : ¬cond1 i)
    (x0 x1 : Vec F S2x16384 .f32) (x2 : Vec F S16384 .f32) (x3 xi xs : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi
            ∗ owns (c : Thread nD τ) arg6 fullShare (k1_pay2 x0 x1 x3 x2 xs)) -∗ K ⟨⟩))
      ⊢ wp frame (wpE (defs₀ (F := F)) Variants.none c none) E (cc1__kl_kernel i arg1 harg1 arg2 harg2 arg3 harg3 arg4 harg4 arg5 harg5 arg6 harg6) K := by
  simp only [cc1__kl_kernel_eq_skeleton]; unfold cc1__kl_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS
  ipureintro
  rw [View.read_writes_eq_canon _ _ _ (fun y => ⟨_, List.mem_singleton_self _, View.mem_set_unit_zero zero11 inb_S1x1_S1x1_0_0 y⟩),
    View.canon_unit_zero zero11]
  simp only [View.readAt_eq_ld, harg1.read_unread, harg2.read_unread, harg3.read_unread, harg4.read_unread, harg6.read_unread,
    View.ld_unit_zero (S := S1x1) zero11, View.ld_unit_zero (S := S2x16384) zero2, View.ld_unit_zero (S := S16384) zero1]

set_option maxHeartbeats 1000000 in
/-- THE LAST POINT (the reset not taken, the copy taken). On whole memrefs — the inputs at `x·`, the output's buffer at
    anything, the scratch at what the point before left (`xs`) — the body runs to the continuation holding the scratch
    and the output's buffer both at the point's term added to `xs`. -/
theorem run_C (c : Dev nD) (i : grid1.Coords)
    (arg1 : Memref sig .tc .vmem S2x16384 .f32) (harg1 : arg1.IsWhole) (arg2 : Memref sig .tc .vmem S2x16384 .f32) (harg2 : arg2.IsWhole)
    (arg3 : Memref sig .tc .vmem S16384 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond0 i) (hc1 : cond1 i)
    (x0 x1 : Vec F S2x16384 .f32) (x2 : Vec F S16384 .f32) (x3 xs : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay2 x0 x1 x3 x2 xs)
            ∗ owns (c : Thread nD τ) arg6 fullShare (k1_pay2 x0 x1 x3 x2 xs)) -∗ K ⟨⟩))
      ⊢ wp frame (wpE (defs₀ (F := F)) Variants.none c none) E (cc1__kl_kernel i arg1 harg1 arg2 harg2 arg3 harg3 arg4 harg4 arg5 harg5 arg6 harg6) K := by
  simp only [cc1__kl_kernel_eq_skeleton]; unfold cc1__kl_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg1.eq_unread hf0; obtain rfl := harg2.eq_unread hf1; obtain rfl := harg3.eq_unread hf2
  obtain rfl := harg4.eq_unread hf3; obtain rfl := harg6.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (fun y => ⟨_, List.mem_singleton_self _, View.mem_set_unit_zero zero11 inb_S1x1_S1x1_0_0 y⟩),
      View.canon_unit_zero zero11]
    simp only [View.readAt_eq_ld, harg1.read_unread, harg2.read_unread, harg3.read_unread, harg4.read_unread, harg6.read_unread,
      View.ld_unit_zero (S := S1x1) zero11, View.ld_unit_zero (S := S2x16384) zero2, View.ld_unit_zero (S := S16384) zero1,
      View.readCov_unit_zero (S := S1x1) _ zero11]
  iexists _; isplitr
  swap; · iexact HS
  ipureintro
  sl_unfold_words
  rw [View.read_writes_eq_canon _ _ _ (fun y => ⟨_, List.mem_singleton_self _, View.mem_set_unit_zero zero11 inb_S1x1_S1x1_0_0 y⟩),
    View.canon_unit_zero zero11]
  simp only [View.readAt_eq_ld, harg1.read_unread, harg2.read_unread, harg3.read_unread, harg4.read_unread, harg6.read_unread,
    View.ld_unit_zero (S := S1x1) zero11, View.ld_unit_zero (S := S2x16384) zero2, View.ld_unit_zero (S := S16384) zero1]

end Cert.KernelIdeal.Kl

end
-- ==== Proof.KlData.lean ====
import proofs.«400394_j48352741818804_1_alg».proof.Proof.KlBody

set_option maxRecDepth 16384

noncomputable section

namespace Cert.KernelIdeal.Kl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: the scratch word after the body at point `n`. At the first point the word is reset to zero and the
    point's term added; at every later point the point's term is added to what the point before left. -/
def acc (c : Dev nD) : (n : ℕ) → n < cfg1.N → Vec F S1x1 .f32
  | 0, h => k1_pay2 (iblk V c 0 ⟨0, h⟩) (iblk V c 1 ⟨0, h⟩) (iblk V c 3 ⟨0, h⟩) (iblk V c 2 ⟨0, h⟩) (k1_pay1 (F := F))
  | n + 1, h => k1_pay2 (iblk V c 0 ⟨n + 1, h⟩) (iblk V c 1 ⟨n + 1, h⟩) (iblk V c 3 ⟨n + 1, h⟩) (iblk V c 2 ⟨n + 1, h⟩) (acc c n (Nat.lt_of_succ_lt h))

/-- The recursion's first equation: at the first point the point's term is added to zero. -/
theorem acc_zero (c : Dev nD) (h : 0 < cfg1.N) :
    acc V c 0 h = k1_pay2 (iblk V c 0 ⟨0, h⟩) (iblk V c 1 ⟨0, h⟩) (iblk V c 3 ⟨0, h⟩) (iblk V c 2 ⟨0, h⟩) (k1_pay1 (F := F)) := rfl

/-- The recursion's step: the point's term is added to what the point before left. -/
theorem acc_succ (c : Dev nD) (n : ℕ) (h : n + 1 < cfg1.N) :
    acc V c (n + 1) h = k1_pay2 (iblk V c 0 ⟨n + 1, h⟩) (iblk V c 1 ⟨n + 1, h⟩) (iblk V c 3 ⟨n + 1, h⟩) (iblk V c 2 ⟨n + 1, h⟩) (acc V c n (Nat.lt_of_succ_lt h)) := rfl

/-- The region invariant before position `n`: before the first point every scoped buffer that is no staging buffer of
    the region at some contents; afterwards the scratch at what the point before left in it, the others at some contents;
    the generator register at some state throughout. -/
def PhiS (c : Dev nD) : (n : ℕ) → n ≤ cfg1.N → sProp 𝕄
  | 0, _ => Pipeline.ΦA spec1 c
  | n + 1, hn => iprop(restAround c (owns (c : Thread nD τ) scM fullShare (acc V c n hn)) ∗ (∃ r, prngReg c r))

/-- The proof data of the region on core `c`: the arrays as the region finds them; after the body each input window's
    buffer at its block, the output's at the accumulated word (consulted at the last point only, where it is written back). -/
def dat (c : Dev nD) : Pipeline.Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => acc V c t.val t.isLt
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The output window's buffer after the body: the accumulated word. -/
theorem after_out (c : Dev nD) (t : Fin cfg1.N) : (dat V c).after 4 t = acc V c t.val t.isLt := by dsimp only [dat]

/-- What the body leaves, window by window (the proof data's `match` reduced). -/
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]

/-- Each input window's current staging buffer holds its block at every point, fetched there or not: where a window is
    not fetched its block index has not moved, and the body left the block in place. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The accumulated word at the first point: the point's term added to zero. -/
theorem acc_first (c : Dev nD) (t : Fin cfg1.N) (h : t.val = 0) :
    acc V c t.val t.isLt = k1_pay2 (iblk V c 0 t) (iblk V c 1 t) (iblk V c 3 t) (iblk V c 2 t) (k1_pay1 (F := F)) := by
  obtain ⟨n, hn⟩ := t
  cases n with
  | zero => exact rfl
  | succ n => exact absurd h (Nat.succ_ne_zero n)

/-- The accumulated word at a later point: the point's term added to what the point before left. -/
theorem acc_later (c : Dev nD) (t : Fin cfg1.N) (h : t.val ≠ 0) :
    acc V c t.val t.isLt = k1_pay2 (iblk V c 0 t) (iblk V c 1 t) (iblk V c 3 t) (iblk V c 2 t)
      (acc V c (t.val - 1) (Nat.lt_of_le_of_lt (Nat.sub_le _ _) t.isLt)) := by
  obtain ⟨n, hn⟩ := t
  cases n with
  | zero => exact absurd rfl h
  | succ n => exact rfl

/-- The invariant before the first point, after a point, before a later point, and at a point's start. -/
theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restAround c (owns (c : Thread nD τ) scM fullShare (acc V c n hn)) ∗ (∃ r, prngReg c r)) := rfl

theorem PhiS_pos (c : Dev nD) (n : ℕ) (h : n ≤ cfg1.N) (hz : n ≠ 0) :
    PhiS V c n h = iprop(restAround c (owns (c : Thread nD τ) scM fullShare (acc V c (n - 1) (by omega))) ∗ (∃ r, prngReg c r)) := by
  cases n with
  | zero => exact absurd rfl hz
  | succ n => rfl

theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' buffers hold their blocks; the grid position says which of the three control cases
    the point is in; the invariant hands the body the scratch at what the point before left (at anything at the first
    point) and takes it back at this point's accumulated word; off the last point the output's buffer goes back untouched,
    at the last point it holds the accumulated word. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms0 t) fullShare ((dat V c).after 0 t) from by
    unfold Dat.leavesExact; rw [liveAt0 t], after0]
  rw [show (dat V c).leavesExact 1 t = owns (c : Thread nD τ) (ms1 t) fullShare ((dat V c).after 1 t) from by
    unfold Dat.leavesExact; rw [liveAt1 t], after1]
  rw [show (dat V c).leavesExact 2 t = owns (c : Thread nD τ) (ms2 t) fullShare ((dat V c).after 2 t) from by
    unfold Dat.leavesExact; rw [liveAt2 t], after2]
  rw [show (dat V c).leavesExact 3 t = owns (c : Thread nD τ) (ms3 t) fullShare ((dat V c).after 3 t) from by
    unfold Dat.leavesExact; rw [liveAt3 t], after3]
  by_cases h0 : t.val = 0
  · have h1 : ¬t.val = 15 := by omega
    have hc0 : cond0 (grid1.coords t) := (hcond0 t).mpr h0
    have hc1 : ¬cond1 (grid1.coords t) := fun h => h1 ((hcond1 t).mp h)
    rw [Dat.leavesExact_idle (dat V c) 4 t (idleAt4 t hc1) (noFlush4 t hc1)]
    rw [acc_first V c t h0]
    rw [PhiS_castSucc V c t, PhiS_zero V c _ _ h0, PhiA_eq]
    iintro ⟨⟨⟨R1, R2, R3, R4, R5, R6, HS⟩, Hg⟩, Ho, ⟨%d0, H0⟩, ⟨%d1, H1⟩, ⟨%d2, H2⟩, ⟨%d3, H3⟩, ⟨%d4, H4⟩⟩
    iapply (run_A c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [R1 R2 R3 R4 R5 R6 HS Hg]
    · isplitr [Hg]
      · isplitl [R1]; · iexact R1
        isplitl [R2]; · iexact R2
        isplitl [R3]; · iexact R3
        isplitl [R4]; · iexact R4
        isplitl [R5]; · iexact R5
        isplitl [R6]; · iexact R6
        iexact HS
      iexact Hg
    isplitl [Ho]; · iexact Ho
    isplitl [H0]; · iexact H0
    isplitl [H1]; · iexact H1
    isplitl [H2]; · iexact H2
    isplitl [H3]; · iexact H3
    iexists _; iexact H4
  · by_cases h1 : t.val = 15
    · have hc0 : ¬cond0 (grid1.coords t) := fun h => h0 ((hcond0 t).mp h)
      have hc1 : cond1 (grid1.coords t) := (hcond1 t).mpr h1
      rw [show (dat V c).leavesExact 4 t = owns (c : Thread nD τ) (ms4 t) fullShare ((dat V c).after 4 t) from by
        unfold Dat.leavesExact; rw [liveAt4 t hc1], after_out]
      rw [acc_later V c t h0]
      rw [PhiS_castSucc V c t, PhiS_pos V c _ _ h0]
      iintro ⟨⟨⟨R1, R2, R3, R4, R5, R6, HS⟩, Hg⟩, Ho, ⟨%d0, H0⟩, ⟨%d1, H1⟩, ⟨%d2, H2⟩, ⟨%d3, H3⟩, ⟨%d4, H4⟩⟩
      iapply (run_C c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      isplitl [H2]; · iexact H2
      isplitl [H3]; · iexact H3
      iexact H4
    · have hc0 : ¬cond0 (grid1.coords t) := fun h => h0 ((hcond0 t).mp h)
      have hc1 : ¬cond1 (grid1.coords t) := fun h => h1 ((hcond1 t).mp h)
      rw [Dat.leavesExact_idle (dat V c) 4 t (idleAt4 t hc1) (noFlush4 t hc1)]
      rw [acc_later V c t h0]
      rw [PhiS_castSucc V c t, PhiS_pos V c _ _ h0]
      iintro ⟨⟨⟨R1, R2, R3, R4, R5, R6, HS⟩, Hg⟩, Ho, ⟨%d0, H0⟩, ⟨%d1, H1⟩, ⟨%d2, H2⟩, ⟨%d3, H3⟩, ⟨%d4, H4⟩⟩
      iapply (run_B c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's resource back: the scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, R6, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Region

end Cert.KernelIdeal.Kl

end
-- ==== Proof.MainRun.lean ====
/-
  The run of the whole program over its two kernel regions.

  Between two items of the program every buffer outside the kernels' own storage holds known contents: the launch
  memory, then what region 0 leaves in its one-by-one result (the running sum of the pair weights after the last
  grid point), then each stretch of host operations applied, then what region 1 leaves in its result (the running
  sum of the listed pairs' terms after its last point). Region 0 reads ONE array, the points, through two windows:
  each window holds it at half of the whole share, split when the region is entered and joined when it is left.
  Every execution terminates; the result buffer ends at the last host operation's value of region 1's result and
  the argument arrays end as launched.
-/
import proofs.«400394_j48352741818804_1_alg».proof.Proof.RegionsValue
import proofs.«400394_j48352741818804_1_alg».proof.Proof.PartData
import proofs.«400394_j48352741818804_1_alg».proof.Proof.KlData
import Idealize.ShloMosaic.Lib.Pipeline.RegionsLoop
import Idealize.ShloMosaic.Lib.Pipeline.Kit

set_option maxRecDepth 16384

noncomputable section

namespace Cert.KernelIdeal.MainRun

open Cert.KernelIdeal Cert.KernelIdeal.Gen Cert.KernelIdeal.GenV
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' entries and what the regions leave -/

/-- Region 0 is entered at the launch memory. -/
abbrev Ve0 : (c : Dev nD) → (b : Ref sig .tc) → Buf (Elt F) ((c : Thread nD τ).loc b) := fun c b => GenV.V0 m c b

/-- What region 0 leaves in its result array: its write-backs folded over the entry contents. -/
def o1 (c : Dev nD) : Buf (Elt F) ((c : Thread nD τ).loc main_v0) := (Part.dat (Ve0 m) c).arrAt 2 cfg0.N

/-- The contents after region 0. -/
abbrev W1 (c : Dev nD) : Valuation τ sig (Elt F) := Function.update (GenV.V0 m c) main_v0 (o1 m c)
/-- The contents at region 1's entry: the four host stretches applied. -/
abbrev W5 (c : Dev nD) : Valuation τ sig (Elt F) :=
  StableHlo.after hostOps1_3 (StableHlo.after hostOps1_2 (StableHlo.after hostOps1_1 (StableHlo.after hostOps1 (W1 m c))))
/-- The same read at the core's references. -/
abbrev Ve5 : (c : Dev nD) → (b : Ref sig .tc) → Buf (Elt F) ((c : Thread nD τ).loc b) := fun c b => W5 m c b

/-- What region 1 leaves in its result array. -/
def o6 (c : Dev nD) : Buf (Elt F) ((c : Thread nD τ).loc main_v8) := (Kl.dat (Ve5 m) c).arrAt 4 cfg1.N

/-- What the regions leave, as the table the boundary contents are written over. -/
def outs : GenV.Outs (F := F) := fun n r c =>
  if h1 : n = 1 ∧ r = main_v0 then h1.2 ▸ o1 m c
  else if h6 : n = 6 ∧ r = main_v8 then h6.2 ▸ o6 m c
  else m ((c : Thread nD τ).loc r)

theorem outs_1 (c : Dev nD) : outs m 1 main_v0 c = o1 m c := by
  unfold outs; rw [dif_pos ⟨rfl, rfl⟩]

theorem outs_6 (c : Dev nD) : outs m 6 main_v8 c = o6 m c := by
  unfold outs; rw [dif_neg (by decide), dif_pos ⟨rfl, rfl⟩]

theorem V1_eq (c : Dev nD) : GenV.V1 m (outs m) c = W1 m c := by
  show Function.update (GenV.V0 m c) main_v0 (outs m 1 main_v0 c) = _
  rw [outs_1]

theorem V5_eq (c : Dev nD) : GenV.V5 m (outs m) c = W5 m c := by
  show StableHlo.after hostOps1_3 (StableHlo.after hostOps1_2 (StableHlo.after hostOps1_1 (StableHlo.after hostOps1 (GenV.V1 m (outs m) c)))) = _
  rw [V1_eq]

/-! ## The proof data family and what rides beside the buffers -/

/-- Each region's proof data at its entry contents. -/
def pdats : (p : Fin 2) → (c : Dev nD) → Dat τ (Elt F) Unit ℕ (UR sig nD τ) ℕ (cfgs p) c
  | ⟨0, _⟩ => fun c => Part.dat (Ve0 m) c
  | ⟨1, _⟩ => fun c => Kl.dat (Ve5 m) c

/-- No core owes another anything: no level is assigned. -/
abbrev L : GSem nD τ sig → Finset Unit := fun _ => ∅
abbrev lv : GSem nD τ sig → Unit → ℕ := fun _ _ => 0

/-- Beside the buffers: the generator register at some state, and the core owing nothing. -/
abbrev Rr (c : Dev nD) : sProp 𝕄 := iprop((∃ r, prngReg c r) ∗ ∃ W, owes (c : Thread nD τ) (0 : CellTallies nD τ sig Unit) W)

/-! ## Region 0: one array behind two windows -/

/-- ENTRY. The core's buffers outside the kernels' storage, at the entry contents, are region 0's arrays — the
    points array at the left half share for window 0 and at the right half share for window 1, the result array
    whole — and the rest. -/
theorem entry0 (V : (c : Dev nD) → (b : Ref sig .tc) → Buf (Elt F) ((c : Thread nD τ).loc b)) (c : Dev nD) :
    (unscopedBufs c (V c) : sProp 𝕄) ⊢ iprop((Part.dat V c).arrays ((Part.dat V c).arrAt · 0) ∗ Pipeline.unscopedRest spec0 c (V c)) := by
  rw [Pipeline.unscopedBufs_split₀ cfgs (0 : Fin 2) winFacts₀0.arr_unscoped c (V c)]
  refine sep_mono ?_ .rfl
  unfold Pipeline.arrBufs Dat.arrays
  rw [show Finset.univ.image (Pipeline.arrRef (cfgs (0 : Fin 2)).spec) = {main_arg3, main_v0} from by decide,
    bigSep_insert (by decide), bigSep_singleton, bigSep_W0]
  rw [(arr_whole0 0).set_eq_univ, (arr_whole0 2).set_eq_univ]
  show iprop((((c : Thread nD τ).loc main_arg3) ↦{fullShare} V c main_arg3) ∗ (((c : Thread nD τ).loc main_v0) ↦{fullShare} V c main_v0)) ⊢ _
  iintro ⟨H3, H0⟩
  ihave H := (pointsTo_share (PosShare.mem_left_op_right fullShare)).1 $$ H3
  icases H with ⟨Hl, Hr⟩
  isplitl [Hl]; · iexact Hl
  isplitl [Hr]; · iexact Hr
  iexact H0

/-- EXIT. The arrays at what the region leaves — the points array's two halves at the entry contents, the result
    array at its written-back contents — and the rest make the core's buffers at the exit contents. -/
theorem exit0 (V V' : (c : Dev nD) → (b : Ref sig .tc) → Buf (Elt F) ((c : Thread nD τ).loc b)) (c : Dev nD)
    (hout : (Part.dat V c).arrAt 2 cfg0.N = V' c main_v0) (hrest : ∀ b : Ref sig .tc, b ≠ main_v0 → V' c b = V c b) :
    iprop((Part.dat V c).arrays ((Part.dat V c).arrAt · cfg0.N) ∗ Pipeline.unscopedRest spec0 c (V c)) ⊢ (unscopedBufs c (V' c) : sProp 𝕄) := by
  rw [Pipeline.unscopedBufs_split₀ cfgs (0 : Fin 2) winFacts₀0.arr_unscoped c (V' c)]
  refine sep_mono ?_ (Entails.of_eq ?_)
  · unfold Pipeline.arrBufs Dat.arrays
    rw [show Finset.univ.image (Pipeline.arrRef (cfgs (0 : Fin 2)).spec) = {main_arg3, main_v0} from by decide,
      bigSep_insert (by decide), bigSep_singleton, bigSep_W0]
    rw [(arr_whole0 0).set_eq_univ, (arr_whole0 2).set_eq_univ]
    show _ ⊢ iprop((((c : Thread nD τ).loc main_arg3) ↦{fullShare} V' c main_arg3) ∗ (((c : Thread nD τ).loc main_v0) ↦{fullShare} V' c main_v0))
    dsimp only
    rw [(Part.dat V c).arrAt_in 0 rfl, (Part.dat V c).arrAt_in 1 rfl, Part.A_eq, Part.A_eq, hout,
      hrest main_arg3 (by decide)]
    iintro ⟨Hl, Hr, H0⟩
    isplitl [Hl Hr]
    · iapply (pointsTo_share (PosShare.mem_left_op_right fullShare)).2
      isplitl [Hl]; · iexact Hl
      iexact Hr
    iexact H0
  · unfold Pipeline.unscopedRest
    exact bigSep_congr fun b hb => by
      rw [hrest b (fun h => (Finset.mem_sdiff.mp hb).2 (Finset.mem_image.mpr ⟨2, Finset.mem_univ _, h ▸ rfl⟩))]

/-! ## The regions as segments -/

/-- What region 0 leaves in its result array is the contents after it there. -/
theorem hF0 (c : Dev nD) : (Part.dat (Ve0 m) c).arrAt 2 cfg0.N = GenV.V1 m (outs m) c main_v0 := by
  rw [V1_eq]
  show _ = Function.update (GenV.V0 m c) main_v0 (o1 m c) main_v0
  rw [Function.update_self]; rfl

set_option backward.isDefEq.respectTransparency.types false in
/-- REGION 0 over the thread state: entered at the launch contents, left with its result array at the running sum
    after the last point; the generator register into the kernel's invariant and out; nothing owed. -/
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (Part.body_obligation (Ve0 m) c).loose
  hwaits := Pipeline.hwaits_of_owed_zero _ _ _ _ L lv 0 fun _ _ => rfl
  pre c := iprop(StableHlo.held (c : Thread nD τ) (Pipeline.ucRefs τ sig) (GenV.V0 m c) ∗ Rr c)
  post c := iprop(StableHlo.held (c : Thread nD τ) (Pipeline.ucRefs τ sig) (GenV.V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Part.hin (Ve0 m) c)
    unfold Pipeline.ΦA
    iintro ⟨Hp, -, Hr⟩
    isplitl [Hr]; · iexact Hr
    iexact Hp
  hout c := by
    rw [Pipeline.ownSems0_none]
    refine BIBase.Entails.trans (Part.hout (Ve0 m) c) ?_
    unfold Pipeline.ΦA
    iintro ⟨Hr, Hp⟩
    isplitl [Hp]; · iexact Hp
    isplitr; · iempintro
    iexact Hr
  hexit c := by
    have hjoin := exit0 (Ve0 m) (fun c b => GenV.V1 m (outs m) c b) c (hF0 m c)
      (fun b hb => GenV.V1_of m (outs m) c b (by rw [List.mem_singleton]; exact hb))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- After region 1 its result array holds what it leaves, -/
theorem hF1 (c : Dev nD) (w : Fin cfg1.W) : (Kl.dat (Ve5 m) c).arrAt w cfg1.N = GenV.V6 m (outs m) c (Pipeline.arrRef spec1 w) := by
  match w with
  | ⟨0, _⟩ => exact ((Kl.dat (Ve5 m) c).arrAt_in 0 rfl _).trans ((Kl.A_eq (Ve5 m) c 0).trans (((GenV.V6_of m (outs m) c main_v5 (by decide)).trans (congrFun (V5_eq m c) _)).symm))
  | ⟨1, _⟩ => exact ((Kl.dat (Ve5 m) c).arrAt_in 1 rfl _).trans ((Kl.A_eq (Ve5 m) c 1).trans (((GenV.V6_of m (outs m) c main_v6 (by decide)).trans (congrFun (V5_eq m c) _)).symm))
  | ⟨2, _⟩ => exact ((Kl.dat (Ve5 m) c).arrAt_in 2 rfl _).trans ((Kl.A_eq (Ve5 m) c 2).trans (((GenV.V6_of m (outs m) c main_arg0 (by decide)).trans (congrFun (V5_eq m c) _)).symm))
  | ⟨3, _⟩ => exact ((Kl.dat (Ve5 m) c).arrAt_in 3 rfl _).trans ((Kl.A_eq (Ve5 m) c 3).trans (((GenV.V6_of m (outs m) c main_v7 (by decide)).trans (congrFun (V5_eq m c) _)).symm))
  | ⟨4, _⟩ =>
    show _ = Function.update (GenV.V5 m (outs m) c) main_v8 (outs m 6 main_v8 c) main_v8
    rw [Function.update_self, outs_6]; rfl

/-- and every other buffer what it held at the region's entry. -/
theorem hrest1 (c : Dev nD) : ∀ b, b ∉ Finset.univ.image (Pipeline.arrRef spec1) → GenV.V6 m (outs m) c b = Ve5 m c b :=
  fun b hb => (GenV.V6_of m (outs m) c b (by
    rw [List.mem_singleton]; rintro rfl; exact hb (Finset.mem_image.mpr ⟨4, Finset.mem_univ _, rfl⟩))).trans (congrFun (V5_eq m c) _)

set_option backward.isDefEq.respectTransparency.types false in
/-- REGION 1 over the thread state: entered at the contents after the four host stretches, left with its result
    array at the running sum of the listed pairs' terms after the last point. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Kl.body_obligation (Ve5 m) c).loose
  hwaits := Pipeline.hwaits_of_owed_zero _ _ _ _ L lv 1 fun _ _ => rfl
  pre c := iprop(StableHlo.held (c : Thread nD τ) (Pipeline.ucRefs τ sig) (GenV.V5 m (outs m) c) ∗ Rr c)
  post c := iprop(StableHlo.held (c : Thread nD τ) (Pipeline.ucRefs τ sig) (GenV.V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Ve5 m c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Kl.hin (Ve5 m) c)
    unfold Pipeline.ΦA
    iintro ⟨Hp, -, Hr⟩
    isplitl [Hr]; · iexact Hr
    iexact Hp
  hout c := by
    rw [Pipeline.ownSems0_none]
    refine BIBase.Entails.trans (Kl.hout (Ve5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve5 m c) (fun b => GenV.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN. From any memory with zero counters every weakly fair execution of the program terminates, nothing
    faulting; the result buffer ends at the last boundary's contents and every argument array as launched. -/
theorem run_value : θ_run defs (onTc (τ := τ) (main (F := F))) ⟨m, fun _ => 0, ρ⟩ (fun r => ∀ c : Dev nD,
      r.2.mem ((c.tc : Thread nD τ).loc main_v9) = GenV.V7 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GenV.run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.KernelIdeal.MainRun

end
-- ==== Proof.PartBodyBits.lean ====
import proofs.«400394_j48352741818804_1_alg».proof.Proof.Gen.Kernel.Launch
import proofs.«400394_j48352741818804_1_alg».proof.Proof.Gen.Kernel.Skeleton
import proofs.«400394_j48352741818804_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Part

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point

The partition kernel runs on an 8 x 8 grid of tile pairs. Its first conditional (taken at the pair (0, 0)) clears
the running sum; its second (taken at the pair (7, 7)) copies the running sum into the output block. -/

/-- The first conditional's condition: both tile coordinates are zero. -/
abbrev condA (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point of the row-major order and nowhere else. -/
theorem hcondA : ∀ t : Fin cfg0.N, condA (grid0.coords t) ↔ t.val = 0 :=
  (by decide +kernel : ∀ t : Fin grid0.N, condA (grid0.coords t) ↔ t.val = 0)

/-- The second conditional's condition: both tile coordinates are seven. -/
abbrev condC (i : grid0.Coords) : Prop := k0_cond2 i = 1#1
/-- It holds at the last point and nowhere else. -/
theorem hcondC : ∀ t : Fin cfg0.N, condC (grid0.coords t) ↔ t.val = 63 :=
  (by decide +kernel : ∀ t : Fin grid0.N, condC (grid0.coords t) ↔ t.val = 63)

/-! ## Where the windows are idle -/

/-- The two input windows are never idle. -/
theorem liveAt0 : ∀ t : Fin cfg0.N, cfg0.idle 0 (grid0.coords t) = false := by decide +kernel
theorem liveAt1 : ∀ t : Fin cfg0.N, cfg0.idle 1 (grid0.coords t) = false := by decide +kernel
/-- Away from the last point the output window is idle: nothing is stored into it, -/
theorem idleAt2 : ∀ t : Fin cfg0.N, ¬condC (grid0.coords t) → cfg0.idle 2 (grid0.coords t) = true := by decide +kernel
/-- and its block is not written back there. -/
theorem noFlush2 : ∀ t : Fin cfg0.N, ¬condC (grid0.coords t) → (cfg0.win 2).flush t = false := by decide +kernel
/-- At the last point the output window is live. -/
theorem liveAt2 : ∀ t : Fin cfg0.N, condC (grid0.coords t) → cfg0.idle 2 (grid0.coords t) = false := by decide +kernel

/-! ## The memrefs the body is called with -/

/-- Each window's current staging memref at point `t`, and its wholeness. -/
abbrev ms0 (t : Fin cfg0.N) : Memref sig .tc .vmem S1024x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The running sum: a one-element buffer the kernel carries from point to point. -/
abbrev scM : Memref sig .tc .vmem S1x1 .f32 := Memref.whole cc0_scratch0

/-! ## The invariant's shape -/

/-- The nine scoped buffers of the other call, each whole at some contents: this region never touches them. -/
abbrev restNine (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- What the region is entered with: the running sum's buffer at some contents, the nine other scoped buffers at
    some contents, the generator register at some state. -/
theorem PhiA_eq (c : Dev nD) :
    (Pipeline.ΦA spec0 c : sProp 𝕄)
      = iprop(iprop((∃ d, owns (c : Thread nD τ) scM fullShare d) ∗ restNine c) ∗ (∃ r, prngReg c r)) := by
  unfold Pipeline.ΦA; rw [scopedRest0_eq]; simp only [scM, owns_whole]; try rfl

/-! ## The body's run, case by case -/

/-- The zero offsets of a whole-shape access, however spelt. -/
theorem hz : (![0, 0] : Fin 2 → Nat) = fun _ => 0 := funext fun a => by fin_cases a <;> rfl

set_option maxHeartbeats 1000000 in
/-- THE FIRST POINT (the first conditional taken, the second not). On whole memrefs — the two tiles at `x0`, `x1`, the
    idle output block at `xi`, the running sum's buffer at anything — the body clears the running sum and runs to the
    continuation holding the tiles and the output block as they were and the running sum at zero plus the tile pair's sum. -/
theorem kernelRun_A (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1x1 .f32) (harg4 : arg4.IsWhole) (arg5 : Memref sig .tc .vmem S1x1 .f32) (harg5 : arg5.IsWhole) (hcA : condA i) (hcC : ¬condC i)
    (x0 x1 : Vec F S1024x2 .f32) (xi : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay1 (k0_pay3 x0 x1 (k0_pay2 (F := F))))) -∗ K ⟨⟩))
      ⊢ wp frame (wpE (defs₀ (F := F)) Variants.none c none) E (cc0__part_kernel i arg2 harg2 arg3 harg3 arg4 harg4 arg5 harg5) K := by
  simp only [cc0__part_kernel_eq_skeleton]; unfold cc0__part_kernel_skel
  simp only [k0_part1_eq_skeleton]
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hcA | exact hcC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero (S := S1x1) hz inb_S1x1_S1x1_0_0 y⟩)]
  sl_unfold_words
  rw [View.canon_cons_unit_zero (S := S1x1) hz, View.readCov_unit_zero (S := S1x1) _ hz]
  simp only [View.readAt_eq_ld, harg2.read_unread, harg3.read_unread, View.ld_unit_zero (S := S1024x2) hz]

set_option maxHeartbeats 1000000 in
/-- A MIDDLE POINT (neither conditional taken). On whole memrefs — the two tiles at `x0`, `x1`, the idle output block at
    `xi`, the running sum at `xs` — the body runs to the continuation holding the tiles and the output block as they
    were and the running sum at `xs` plus the tile pair's sum. -/
theorem kernelRun_B (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1x1 .f32) (harg4 : arg4.IsWhole) (arg5 : Memref sig .tc .vmem S1x1 .f32) (harg5 : arg5.IsWhole) (hcA : ¬condA i) (hcC : ¬condC i)
    (x0 x1 : Vec F S1024x2 .f32) (xi : Vec F S1x1 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay1 (k0_pay3 x0 x1 xs))) -∗ K ⟨⟩))
      ⊢ wp frame (wpE (defs₀ (F := F)) Variants.none c none) E (cc0__part_kernel i arg2 harg2 arg3 harg3 arg4 harg4 arg5 harg5) K := by
  simp only [cc0__part_kernel_eq_skeleton]; unfold cc0__part_kernel_skel
  simp only [k0_part1_eq_skeleton]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hcA | exact hcC)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons.mpr (Or.inl rfl), View.mem_set_unit_zero (S := S1x1) hz inb_S1x1_S1x1_0_0 y⟩)]
  sl_unfold_words
  rw [View.canon_unit_zero hz]
  simp only [View.readAt_eq_ld, harg2.read_unread, harg3.read_unread, harg5.read_unread, View.ld_unit_zero (S := S1024x2) hz, View.ld_unit_zero (S := S1x1) hz]

set_option maxHeartbeats 1000000 in
/-- THE LAST POINT (the first conditional not taken, the second taken). On whole memrefs — the two tiles at `x0`, `x1`,
    the output block at anything, the running sum at `xs` — the body adds the tile pair's sum to the running sum and
    copies it into the output block: both end at `xs` plus the tile pair's sum. -/
theorem kernelRun_C (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1x1 .f32) (harg4 : arg4.IsWhole) (arg5 : Memref sig .tc .vmem S1x1 .f32) (harg5 : arg5.IsWhole) (hcA : ¬condA i) (hcC : condC i)
    (x0 x1 : Vec F S1024x2 .f32) (xs : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay1 (k0_pay3 x0 x1 xs)) ∗ owns (c : Thread nD τ) arg5 fullShare (k0_pay1 (k0_pay3 x0 x1 xs))) -∗ K ⟨⟩))
      ⊢ wp frame (wpE (defs₀ (F := F)) Variants.none c none) E (cc0__part_kernel i arg2 harg2 arg3 harg3 arg4 harg4 arg5 harg5) K := by
  simp only [cc0__part_kernel_eq_skeleton]; unfold cc0__part_kernel_skel
  simp only [k0_part1_eq_skeleton]
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [View.read_writes_eq_canon _ _ _ (fun y => ⟨_, List.mem_cons.mpr (Or.inl rfl), View.mem_set_unit_zero (S := S1x1) hz inb_S1x1_S1x1_0_0 y⟩)]
    sl_unfold_words
    rw [View.canon_unit_zero hz, View.readCov_unit_zero (S := S1x1) _ hz]
    simp only [View.readAt_eq_ld, harg2.read_unread, harg3.read_unread, harg5.read_unread, View.ld_unit_zero (S := S1024x2) hz, View.ld_unit_zero (S := S1x1) hz]
  iexists _; isplitr
  swap; · iexact HS
  ipureintro
  sl_unfold_words
  rw [View.read_writes_eq_canon _ _ _ (fun y => ⟨_, List.mem_cons.mpr (Or.inl rfl), View.mem_set_unit_zero (S := S1x1) hz inb_S1x1_S1x1_0_0 y⟩)]
  rw [View.canon_unit_zero hz]
  simp only [View.readAt_eq_ld, harg2.read_unread, harg3.read_unread, harg5.read_unread, View.ld_unit_zero (S := S1024x2) hz, View.ld_unit_zero (S := S1x1) hz]

end Cert.Kernel.Part

end
-- ==== Proof.PartDataBits.lean ====
import proofs.«400394_j48352741818804_1_alg».proof.Proof.PartBodyBits

set_option maxRecDepth 16384

noncomputable section

namespace Cert.Kernel.Part

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. Windows 0 and 1 read the SAME
    array of 8192 points in the plane: window 0 its row tile, window 1 its column tile. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The running sum -/

/-- The running sum after point `n`: at the first point the tile pair's sum of 1 / (1 + squared distance) added to
    zero, at every later point the tile pair's sum added to what the point before left. -/
def acc (c : Dev nD) : (n : ℕ) → n < cfg0.N → Vec F S1x1 .f32
  | 0, h => k0_pay1 (k0_pay3 (iblk V c 0 ⟨0, h⟩) (iblk V c 1 ⟨0, h⟩) (k0_pay2 (F := F)))
  | n + 1, h => k0_pay1 (k0_pay3 (iblk V c 0 ⟨n + 1, h⟩) (iblk V c 1 ⟨n + 1, h⟩) (acc c n (Nat.lt_of_succ_lt h)))

theorem acc_zero (c : Dev nD) (h : 0 < cfg0.N) :
    acc V c 0 h = k0_pay1 (k0_pay3 (iblk V c 0 ⟨0, h⟩) (iblk V c 1 ⟨0, h⟩) (k0_pay2 (F := F))) := rfl

theorem acc_succ (c : Dev nD) (n : ℕ) (h : n + 1 < cfg0.N) :
    acc V c (n + 1) h = k0_pay1 (k0_pay3 (iblk V c 0 ⟨n + 1, h⟩) (iblk V c 1 ⟨n + 1, h⟩) (acc V c n (Nat.lt_of_succ_lt h))) := rfl

/-! ## The invariant -/

/-- Before position `n`: at the region's entry what the launch hands over; afterwards the running sum's buffer at what
    the point before left, the nine other scoped buffers and the generator register at anything. -/
def PhiS (c : Dev nD) : (n : ℕ) → n ≤ cfg0.N → sProp 𝕄
  | 0, _ => Pipeline.ΦA spec0 c
  | n + 1, hn => iprop(iprop(owns (c : Thread nD τ) scM fullShare (acc V c n hn) ∗ restNine c) ∗ (∃ r, prngReg c r))

/-! ## The proof data -/

/-- The proof data of the region on core `c`: the arrays as the region finds them; after the body at point `t` each
    input's buffer at its block and the output's at the running sum (read only at the last point: elsewhere the window
    is idle and not written back); the invariant above; windows 0 and 1 each hold their common array at a half share;
    nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q := fun w => match w with
    | ⟨0, _⟩ => PosShare.left fullShare
    | ⟨1, _⟩ => PosShare.right fullShare
    | ⟨2, _⟩ => fullShare
  owed _ := 0

theorem A_eq (c : Dev nD) (w : Fin cfg0.W) : (dat V c).A w = V c (Pipeline.arrRef spec0 w) := by
  dsimp only [dat]

theorem after_out (c : Dev nD) (t : Fin cfg0.N) : (dat V c).after 2 t = acc V c t.val t.isLt := by dsimp only [dat]

theorem PhiS_zero (c : Dev nD) (n : ℕ) (h : n ≤ cfg0.N) (hz : n = 0) : PhiS V c n h = Pipeline.ΦA spec0 c := by
  subst hz; rfl

/-- After point `n`: the running sum's buffer at that point's sum. -/
theorem PhiS_succ (c : Dev nD) (n : ℕ) (hn : n < cfg0.N) :
    PhiS V c (n + 1) hn = iprop(iprop(owns (c : Thread nD τ) scM fullShare (acc V c n hn) ∗ restNine c) ∗ (∃ r, prngReg c r)) := rfl

/-- Before a point that is not the first: the running sum's buffer at what the point before left. -/
theorem PhiS_pos (c : Dev nD) (n : ℕ) (h : n ≤ cfg0.N) (hz : n ≠ 0) :
    PhiS V c n h = iprop(iprop(owns (c : Thread nD τ) scM fullShare (acc V c (n - 1) (by omega)) ∗ restNine c) ∗ (∃ r, prngReg c r)) := by
  cases n with
  | zero => exact absurd rfl hz
  | succ n => rfl

/-- The invariant at a point's start, restated at the point's position. -/
theorem PhiS_castSucc (c : Dev nD) (t : Fin cfg0.N) :
    (dat V c).Φ t.castSucc = PhiS V c t.val (Nat.le_of_lt t.isLt) := by
  dsimp only [dat]; simp only [Fin.coe_castSucc]

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the running sum's value is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

theorem hout (c : Dev nD) : (dat V c).Φ (Fin.last cfg0.N) ⊢ Pipeline.ΦA spec0 c :=
  Phi_out V c _ (by rw [Fin.val_last]; have : cfg0.N = 64 := N_0; omega)

/-! ## What the body finds in the input windows -/

theorem after0 (c : Dev nD) (t : Fin cfg0.N) : (dat V c).after 0 t = iblk V c 0 t := by dsimp only [dat]
theorem after1 (c : Dev nD) (t : Fin cfg0.N) : (dat V c).after 1 t = iblk V c 1 t := by dsimp only [dat]

/-- The row tile's staging buffer holds its block at every point, fetched there or not: it is fetched only when the row
    tile changes, and between fetches the block index does not move. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- The column tile's staging buffer holds its block at every point. -/
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The running sum, point by point -/

/-- At the first point: zero plus the tile pair's sum. -/
theorem acc_first (c : Dev nD) (t : Fin cfg0.N) (h0 : t.val = 0) :
    acc V c t.val t.isLt = k0_pay1 (k0_pay3 (iblk V c 0 t) (iblk V c 1 t) (k0_pay2 (F := F))) := by
  obtain ⟨n, hn⟩ := t
  cases n with
  | zero => rfl
  | succ n => exact absurd h0 (Nat.succ_ne_zero n)

/-- At a later point: what the point before left plus the tile pair's sum. -/
theorem acc_later (c : Dev nD) (t : Fin cfg0.N) (h0 : t.val ≠ 0) :
    acc V c t.val t.isLt = k0_pay1 (k0_pay3 (iblk V c 0 t) (iblk V c 1 t) (acc V c (t.val - 1) (Nat.lt_of_le_of_lt (Nat.sub_le _ _) t.isLt))) := by
  obtain ⟨n, hn⟩ := t
  cases n with
  | zero => exact absurd rfl h0
  | succ n => rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The two tiles' memrefs hold their blocks; the position says which of the three cases the
    point is in. At the first point the running sum's buffer comes at anything and is cleared; at a later point it comes
    at what the point before left. Away from the last point the output block is handed back as it was found; at the last
    point it leaves at the running sum. The nine buffers of the other call and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [liveAt0 t], after0]
  rw [show (dat V c).leavesExact 1 t = owns (c : Thread nD τ) (ms1 t) fullShare ((dat V c).after 1 t) from by
    unfold Dat.leavesExact; rw [liveAt1 t], after1]
  by_cases h0 : t.val = 0
  · have hA : condA (grid0.coords t) := (hcondA t).mpr h0
    have hC : ¬condC (grid0.coords t) := fun h => by have := (hcondC t).mp h; omega
    rw [Dat.leavesExact_idle (dat V c) 2 t (idleAt2 t hC) (noFlush2 t hC)]
    rw [PhiS_castSucc V c t, PhiS_zero V c _ _ h0, PhiA_eq, acc_first V c t h0]
    iintro ⟨⟨⟨HS, Hr⟩, Hg⟩, Ho, ⟨%d0, H0⟩, ⟨%d1, H1⟩, ⟨%d2, H2⟩⟩
    iapply (kernelRun_A c (grid0.coords t) _ _ _ _ _ _ _ _ hA hC (iblk V c 0 t) (iblk V c 1 t) ((dat V c).before 2 t d2) Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 63
    · have hA : ¬condA (grid0.coords t) := fun h => h0 ((hcondA t).mp h)
      have hC : condC (grid0.coords t) := (hcondC t).mpr h1
      rw [show (dat V c).leavesExact 2 t = owns (c : Thread nD τ) (ms2 t) fullShare ((dat V c).after 2 t) from by
        unfold Dat.leavesExact; rw [liveAt2 t hC], after_out]
      rw [PhiS_castSucc V c t, PhiS_pos V c _ _ h0, acc_later V c t h0]
      iintro ⟨⟨⟨HS, Hr⟩, Hg⟩, Ho, ⟨%d0, H0⟩, ⟨%d1, H1⟩, ⟨%d2, H2⟩⟩
      iapply (kernelRun_C c (grid0.coords t) _ _ _ _ _ _ _ _ hA hC (iblk V c 0 t) (iblk V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hA : ¬condA (grid0.coords t) := fun h => h0 ((hcondA t).mp h)
      have hC : ¬condC (grid0.coords t) := fun h => h1 ((hcondC t).mp h)
      rw [Dat.leavesExact_idle (dat V c) 2 t (idleAt2 t hC) (noFlush2 t hC)]
      rw [PhiS_castSucc V c t, PhiS_pos V c _ _ h0, acc_later V c t h0]
      iintro ⟨⟨⟨HS, Hr⟩, Hg⟩, Ho, ⟨%d0, H0⟩, ⟨%d1, H1⟩, ⟨%d2, H2⟩⟩
      iapply (kernelRun_B c (grid0.coords t) _ _ _ _ _ _ _ _ hA hC (iblk V c 0 t) (iblk V c 1 t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation (c : Dev nD) : Pipeline.BodyObligation (dat (F := F) V c) (defs₀ (F := F)) Variants.none () Set.univ := fun t => by
  rw [bigSep_W0, bigSep_W0]
  exact sound_body V c t

end Cert.Kernel.Part

end
-- ==== Proof.KlBodyBits.lean ====
import proofs.«400394_j48352741818804_1_alg».proof.Proof.Gen.Kernel.Launch
import proofs.«400394_j48352741818804_1_alg».proof.Proof.Gen.Kernel.Skeleton
import proofs.«400394_j48352741818804_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Kl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch operand of the second region: a whole scoped buffer of one word. -/
abbrev scM : Memref sig .tc .vmem S1x1 .f32 := Memref.whole cc1_scratch0

/-- The scoped buffers of the core that the second region neither stages nor uses (the first region's staging
    buffers and scratch), each at some contents, around a resource `S` for the region's own scratch. -/
abbrev restAround (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ S)

/-- The launch's resource for the region with the region's own scratch named: the same buffers, the scratch as a memref
    owned at some contents. -/
theorem PhiA_eq (c : Dev nD) :
    (Pipeline.ΦA spec1 c : sProp 𝕄)
      = iprop(restAround c iprop(∃ d, owns (c : Thread nD τ) scM fullShare d) ∗ (∃ r, prngReg c r)) := by
  unfold Pipeline.ΦA; rw [scopedRest1_eq]; simp only [scM, owns_whole]; try rfl

/-! ## The body's branch conditions -/

/-- The condition of the body's first `scf.if` (the reset of the scratch word), from the grid coordinate. -/
abbrev cond0 (i : grid1.Coords) : Prop :=
  (Scalar.cmpi .ne (Scalar.extui (Scalar.cmpi .eq (BitVec.ofNat 32 (i 0).val) 0#32)) 0#32) = 1#1
/-- It holds at the first point only. -/
theorem hcond0 : ∀ t : Fin cfg1.N, cond0 (grid1.coords t) ↔ t.val = 0 :=
  (by decide +kernel : ∀ t : Fin grid1.N, cond0 (grid1.coords t) ↔ t.val = 0)

/-- The condition of the body's second `scf.if` (the copy of the scratch word into the output block). -/
abbrev cond1 (i : grid1.Coords) : Prop := k1_cond2 i = 1#1
/-- It holds at the last point only. -/
theorem hcond1 : ∀ t : Fin cfg1.N, cond1 (grid1.coords t) ↔ t.val = 15 :=
  (by decide +kernel : ∀ t : Fin grid1.N, cond1 (grid1.coords t) ↔ t.val = 15)

/-! ## Where the output window is idle -/

/-- Off the last point the output window is idle: the body stores nothing into it. -/
theorem idleAt4 : ∀ t : Fin cfg1.N, ¬cond1 (grid1.coords t) → cfg1.idle 4 (grid1.coords t) = true := by decide +kernel
/-- Off the last point its block is not written back. -/
theorem noFlush4 : ∀ t : Fin cfg1.N, ¬cond1 (grid1.coords t) → (cfg1.win 4).flush t = false := by decide +kernel
/-- At the last point it is live. -/
theorem liveAt4 : ∀ t : Fin cfg1.N, cond1 (grid1.coords t) → cfg1.idle 4 (grid1.coords t) = false := by decide +kernel

/-- The input windows are never idle. -/
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl

/-! ## The staging memrefs at a point -/

abbrev ms0 (t : Fin cfg1.N) : Memref sig .tc .vmem S2x16384 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2x16384 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S16384 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1 .f32 := win1_4.stage (cfg1.slots t 4)
abbrev hs4 (t : Fin cfg1.N) : (ms4 t).IsWhole := hstage1_4 ((cfg1.slots t 4).cast nbuf1_4)

/-- The whole-shape rectangle of the one-word scratch, as the body's loads and stores spell it. -/
abbrev r11 : Rect S1x1 := Rect.unit (s := S1x1) ![0, 0] S1x1.size inb_S1x1_S1x1_0_0

theorem zero11 : (![0, 0] : Fin S1x1.rank → Nat) = fun _ => 0 := by
  funext a; fin_cases a <;> rfl

theorem zero2 : (![0, 0] : Fin S2x16384.rank → Nat) = fun _ => 0 := by
  funext a; fin_cases a <;> rfl

theorem zero1 : (![0] : Fin S16384.rank → Nat) = fun _ => 0 := by
  funext a; fin_cases a; rfl
set_option maxHeartbeats 1000000 in
/-- THE FIRST POINT (the reset taken, the copy not). On whole memrefs — the inputs at `x·`, the output's buffer at `xi`
    (handed back untouched), the scratch at anything — the body runs to the continuation holding the scratch at the point's
    term added to zero. -/
theorem run_A (c : Dev nD) (i : grid1.Coords)
    (arg1 : Memref sig .tc .vmem S2x16384 .f32) (harg1 : arg1.IsWhole) (arg2 : Memref sig .tc .vmem S2x16384 .f32) (harg2 : arg2.IsWhole)
    (arg3 : Memref sig .tc .vmem S16384 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : cond0 i) (hc1 : ¬cond1 i)
    (x0 x1 : Vec F S2x16384 .f32) (x2 : Vec F S16384 .f32) (x3 xi : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi
            ∗ owns (c : Thread nD τ) arg6 fullShare (k1_pay2 x0 x1 x3 x2 (k1_pay1 (F := F)))) -∗ K ⟨⟩))
      ⊢ wp frame (wpE (defs₀ (F := F)) Variants.none c none) E (cc1__kl_kernel i arg1 harg1 arg2 harg2 arg3 harg3 arg4 harg4 arg5 harg5 arg6 harg6) K := by
  simp only [cc1__kl_kernel_eq_skeleton]; unfold cc1__kl_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS
  ipureintro
  sl_unfold_words
  rw [View.read_writes_eq_canon _ _ _ (fun y => ⟨_, List.Mem.head _, View.mem_set_unit_zero zero11 inb_S1x1_S1x1_0_0 y⟩),
    View.canon_cons_unit_zero zero11]
  simp only [View.readAt_eq_ld, harg1.read_unread, harg2.read_unread, harg3.read_unread, harg4.read_unread,
    View.ld_unit_zero (S := S1x1) zero11, View.ld_unit_zero (S := S2x16384) zero2, View.ld_unit_zero (S := S16384) zero1,
    View.readCov_unit_zero (S := S1x1) _ zero11]

set_option maxHeartbeats 1000000 in
/-- A MIDDLE POINT (neither `scf.if` taken). On whole memrefs — the four inputs at contents `x·`, the output's buffer at
    `xi` (handed back untouched), the scratch at what the point before left (`xs`) — the body runs to the continuation
    holding the inputs and the output's buffer as they were and the scratch at the point's term added to `xs`. -/
theorem run_B (c : Dev nD) (i : grid1.Coords)
    (arg1 : Memref sig .tc .vmem S2x16384 .f32) (harg1 : arg1.IsWhole) (arg2 : Memref sig .tc .vmem S2x16384 .f32) (harg2 : arg2.IsWhole)
    (arg3 : Memref sig .tc .vmem S16384 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond0 i) (hc1 : ¬cond1 i)
    (x0 x1 : Vec F S2x16384 .f32) (x2 : Vec F S16384 .f32) (x3 xi xs : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi
            ∗ owns (c : Thread nD τ) arg6 fullShare (k1_pay2 x0 x1 x3 x2 xs)) -∗ K ⟨⟩))
      ⊢ wp frame (wpE (defs₀ (F := F)) Variants.none c none) E (cc1__kl_kernel i arg1 harg1 arg2 harg2 arg3 harg3 arg4 harg4 arg5 harg5 arg6 harg6) K := by
  simp only [cc1__kl_kernel_eq_skeleton]; unfold cc1__kl_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact HS
  ipureintro
  rw [View.read_writes_eq_canon _ _ _ (fun y => ⟨_, List.mem_singleton_self _, View.mem_set_unit_zero zero11 inb_S1x1_S1x1_0_0 y⟩),
    View.canon_unit_zero zero11]
  simp only [View.readAt_eq_ld, harg1.read_unread, harg2.read_unread, harg3.read_unread, harg4.read_unread, harg6.read_unread,
    View.ld_unit_zero (S := S1x1) zero11, View.ld_unit_zero (S := S2x16384) zero2, View.ld_unit_zero (S := S16384) zero1]

set_option maxHeartbeats 1000000 in
/-- THE LAST POINT (the reset not taken, the copy taken). On whole memrefs — the inputs at `x·`, the output's buffer at
    anything, the scratch at what the point before left (`xs`) — the body runs to the continuation holding the scratch
    and the output's buffer both at the point's term added to `xs`. -/
theorem run_C (c : Dev nD) (i : grid1.Coords)
    (arg1 : Memref sig .tc .vmem S2x16384 .f32) (harg1 : arg1.IsWhole) (arg2 : Memref sig .tc .vmem S2x16384 .f32) (harg2 : arg2.IsWhole)
    (arg3 : Memref sig .tc .vmem S16384 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hc0 : ¬cond0 i) (hc1 : cond1 i)
    (x0 x1 : Vec F S2x16384 .f32) (x2 : Vec F S16384 .f32) (x3 xs : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k1_pay2 x0 x1 x3 x2 xs)
            ∗ owns (c : Thread nD τ) arg6 fullShare (k1_pay2 x0 x1 x3 x2 xs)) -∗ K ⟨⟩))
      ⊢ wp frame (wpE (defs₀ (F := F)) Variants.none c none) E (cc1__kl_kernel i arg1 harg1 arg2 harg2 arg3 harg3 arg4 harg4 arg5 harg5 arg6 harg6) K := by
  simp only [cc1__kl_kernel_eq_skeleton]; unfold cc1__kl_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg1.eq_unread hf0; obtain rfl := harg2.eq_unread hf1; obtain rfl := harg3.eq_unread hf2
  obtain rfl := harg4.eq_unread hf3; obtain rfl := harg6.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (fun y => ⟨_, List.mem_singleton_self _, View.mem_set_unit_zero zero11 inb_S1x1_S1x1_0_0 y⟩),
      View.canon_unit_zero zero11]
    simp only [View.readAt_eq_ld, harg1.read_unread, harg2.read_unread, harg3.read_unread, harg4.read_unread, harg6.read_unread,
      View.ld_unit_zero (S := S1x1) zero11, View.ld_unit_zero (S := S2x16384) zero2, View.ld_unit_zero (S := S16384) zero1,
      View.readCov_unit_zero (S := S1x1) _ zero11]
  iexists _; isplitr
  swap; · iexact HS
  ipureintro
  sl_unfold_words
  rw [View.read_writes_eq_canon _ _ _ (fun y => ⟨_, List.mem_singleton_self _, View.mem_set_unit_zero zero11 inb_S1x1_S1x1_0_0 y⟩),
    View.canon_unit_zero zero11]
  simp only [View.readAt_eq_ld, harg1.read_unread, harg2.read_unread, harg3.read_unread, harg4.read_unread, harg6.read_unread,
    View.ld_unit_zero (S := S1x1) zero11, View.ld_unit_zero (S := S2x16384) zero2, View.ld_unit_zero (S := S16384) zero1]

end Cert.Kernel.Kl

end
-- ==== Proof.KlDataBits.lean ====
import proofs.«400394_j48352741818804_1_alg».proof.Proof.KlBodyBits

set_option maxRecDepth 16384

noncomputable section

namespace Cert.Kernel.Kl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION: the scratch word after the body at point `n`. At the first point the word is reset to zero and the
    point's term added; at every later point the point's term is added to what the point before left. -/
def acc (c : Dev nD) : (n : ℕ) → n < cfg1.N → Vec F S1x1 .f32
  | 0, h => k1_pay2 (iblk V c 0 ⟨0, h⟩) (iblk V c 1 ⟨0, h⟩) (iblk V c 3 ⟨0, h⟩) (iblk V c 2 ⟨0, h⟩) (k1_pay1 (F := F))
  | n + 1, h => k1_pay2 (iblk V c 0 ⟨n + 1, h⟩) (iblk V c 1 ⟨n + 1, h⟩) (iblk V c 3 ⟨n + 1, h⟩) (iblk V c 2 ⟨n + 1, h⟩) (acc c n (Nat.lt_of_succ_lt h))

/-- The recursion's first equation: at the first point the point's term is added to zero. -/
theorem acc_zero (c : Dev nD) (h : 0 < cfg1.N) :
    acc V c 0 h = k1_pay2 (iblk V c 0 ⟨0, h⟩) (iblk V c 1 ⟨0, h⟩) (iblk V c 3 ⟨0, h⟩) (iblk V c 2 ⟨0, h⟩) (k1_pay1 (F := F)) := rfl

/-- The recursion's step: the point's term is added to what the point before left. -/
theorem acc_succ (c : Dev nD) (n : ℕ) (h : n + 1 < cfg1.N) :
    acc V c (n + 1) h = k1_pay2 (iblk V c 0 ⟨n + 1, h⟩) (iblk V c 1 ⟨n + 1, h⟩) (iblk V c 3 ⟨n + 1, h⟩) (iblk V c 2 ⟨n + 1, h⟩) (acc V c n (Nat.lt_of_succ_lt h)) := rfl

/-- The region invariant before position `n`: before the first point every scoped buffer that is no staging buffer of
    the region at some contents; afterwards the scratch at what the point before left in it, the others at some contents;
    the generator register at some state throughout. -/
def PhiS (c : Dev nD) : (n : ℕ) → n ≤ cfg1.N → sProp 𝕄
  | 0, _ => Pipeline.ΦA spec1 c
  | n + 1, hn => iprop(restAround c (owns (c : Thread nD τ) scM fullShare (acc V c n hn)) ∗ (∃ r, prngReg c r))

/-- The proof data of the region on core `c`: the arrays as the region finds them; after the body each input window's
    buffer at its block, the output's at the accumulated word (consulted at the last point only, where it is written back). -/
def dat (c : Dev nD) : Pipeline.Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => acc V c t.val t.isLt
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The output window's buffer after the body: the accumulated word. -/
theorem after_out (c : Dev nD) (t : Fin cfg1.N) : (dat V c).after 4 t = acc V c t.val t.isLt := by dsimp only [dat]

/-- What the body leaves, window by window (the proof data's `match` reduced). -/
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]

/-- Each input window's current staging buffer holds its block at every point, fetched there or not: where a window is
    not fetched its block index has not moved, and the body left the block in place. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The accumulated word at the first point: the point's term added to zero. -/
theorem acc_first (c : Dev nD) (t : Fin cfg1.N) (h : t.val = 0) :
    acc V c t.val t.isLt = k1_pay2 (iblk V c 0 t) (iblk V c 1 t) (iblk V c 3 t) (iblk V c 2 t) (k1_pay1 (F := F)) := by
  obtain ⟨n, hn⟩ := t
  cases n with
  | zero => exact rfl
  | succ n => exact absurd h (Nat.succ_ne_zero n)

/-- The accumulated word at a later point: the point's term added to what the point before left. -/
theorem acc_later (c : Dev nD) (t : Fin cfg1.N) (h : t.val ≠ 0) :
    acc V c t.val t.isLt = k1_pay2 (iblk V c 0 t) (iblk V c 1 t) (iblk V c 3 t) (iblk V c 2 t)
      (acc V c (t.val - 1) (Nat.lt_of_le_of_lt (Nat.sub_le _ _) t.isLt)) := by
  obtain ⟨n, hn⟩ := t
  cases n with
  | zero => exact absurd rfl h
  | succ n => exact rfl

/-- The invariant before the first point, after a point, before a later point, and at a point's start. -/
theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restAround c (owns (c : Thread nD τ) scM fullShare (acc V c n hn)) ∗ (∃ r, prngReg c r)) := rfl

theorem PhiS_pos (c : Dev nD) (n : ℕ) (h : n ≤ cfg1.N) (hz : n ≠ 0) :
    PhiS V c n h = iprop(restAround c (owns (c : Thread nD τ) scM fullShare (acc V c (n - 1) (by omega))) ∗ (∃ r, prngReg c r)) := by
  cases n with
  | zero => exact absurd rfl hz
  | succ n => rfl

theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' buffers hold their blocks; the grid position says which of the three control cases
    the point is in; the invariant hands the body the scratch at what the point before left (at anything at the first
    point) and takes it back at this point's accumulated word; off the last point the output's buffer goes back untouched,
    at the last point it holds the accumulated word. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms0 t) fullShare ((dat V c).after 0 t) from by
    unfold Dat.leavesExact; rw [liveAt0 t], after0]
  rw [show (dat V c).leavesExact 1 t = owns (c : Thread nD τ) (ms1 t) fullShare ((dat V c).after 1 t) from by
    unfold Dat.leavesExact; rw [liveAt1 t], after1]
  rw [show (dat V c).leavesExact 2 t = owns (c : Thread nD τ) (ms2 t) fullShare ((dat V c).after 2 t) from by
    unfold Dat.leavesExact; rw [liveAt2 t], after2]
  rw [show (dat V c).leavesExact 3 t = owns (c : Thread nD τ) (ms3 t) fullShare ((dat V c).after 3 t) from by
    unfold Dat.leavesExact; rw [liveAt3 t], after3]
  by_cases h0 : t.val = 0
  · have h1 : ¬t.val = 15 := by omega
    have hc0 : cond0 (grid1.coords t) := (hcond0 t).mpr h0
    have hc1 : ¬cond1 (grid1.coords t) := fun h => h1 ((hcond1 t).mp h)
    rw [Dat.leavesExact_idle (dat V c) 4 t (idleAt4 t hc1) (noFlush4 t hc1)]
    rw [acc_first V c t h0]
    rw [PhiS_castSucc V c t, PhiS_zero V c _ _ h0, PhiA_eq]
    iintro ⟨⟨⟨R1, R2, R3, R4, R5, R6, HS⟩, Hg⟩, Ho, ⟨%d0, H0⟩, ⟨%d1, H1⟩, ⟨%d2, H2⟩, ⟨%d3, H3⟩, ⟨%d4, H4⟩⟩
    iapply (run_A c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [R1 R2 R3 R4 R5 R6 HS Hg]
    · isplitr [Hg]
      · isplitl [R1]; · iexact R1
        isplitl [R2]; · iexact R2
        isplitl [R3]; · iexact R3
        isplitl [R4]; · iexact R4
        isplitl [R5]; · iexact R5
        isplitl [R6]; · iexact R6
        iexact HS
      iexact Hg
    isplitl [Ho]; · iexact Ho
    isplitl [H0]; · iexact H0
    isplitl [H1]; · iexact H1
    isplitl [H2]; · iexact H2
    isplitl [H3]; · iexact H3
    iexists _; iexact H4
  · by_cases h1 : t.val = 15
    · have hc0 : ¬cond0 (grid1.coords t) := fun h => h0 ((hcond0 t).mp h)
      have hc1 : cond1 (grid1.coords t) := (hcond1 t).mpr h1
      rw [show (dat V c).leavesExact 4 t = owns (c : Thread nD τ) (ms4 t) fullShare ((dat V c).after 4 t) from by
        unfold Dat.leavesExact; rw [liveAt4 t hc1], after_out]
      rw [acc_later V c t h0]
      rw [PhiS_castSucc V c t, PhiS_pos V c _ _ h0]
      iintro ⟨⟨⟨R1, R2, R3, R4, R5, R6, HS⟩, Hg⟩, Ho, ⟨%d0, H0⟩, ⟨%d1, H1⟩, ⟨%d2, H2⟩, ⟨%d3, H3⟩, ⟨%d4, H4⟩⟩
      iapply (run_C c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      isplitl [H2]; · iexact H2
      isplitl [H3]; · iexact H3
      iexact H4
    · have hc0 : ¬cond0 (grid1.coords t) := fun h => h0 ((hcond0 t).mp h)
      have hc1 : ¬cond1 (grid1.coords t) := fun h => h1 ((hcond1 t).mp h)
      rw [Dat.leavesExact_idle (dat V c) 4 t (idleAt4 t hc1) (noFlush4 t hc1)]
      rw [acc_later V c t h0]
      rw [PhiS_castSucc V c t, PhiS_pos V c _ _ h0]
      iintro ⟨⟨⟨R1, R2, R3, R4, R5, R6, HS⟩, Hg⟩, Ho, ⟨%d0, H0⟩, ⟨%d1, H1⟩, ⟨%d2, H2⟩, ⟨%d3, H3⟩, ⟨%d4, H4⟩⟩
      iapply (run_B c (grid1.coords t) (ms0 t) (hs0 t) (ms1 t) (hs1 t) (ms2 t) (hs2 t) (ms3 t) (hs3 t) (ms4 t) (hs4 t) scM (Memref.isWhole_whole _) hc0 hc1 (iblk V c 0 t) (iblk V c 1 t) (iblk V c 2 t) (iblk V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's resource back: the scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, R6, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Region

end Cert.Kernel.Kl

end
-- ==== Proof.MainRunBits.lean ====
/-
  The run of the whole program over its two kernel regions.

  Between two items of the program every buffer outside the kernels' own storage holds known contents: the launch
  memory, then what region 0 leaves in its one-by-one result (the running sum of the pair weights after the last
  grid point), then each stretch of host operations applied, then what region 1 leaves in its result (the running
  sum of the listed pairs' terms after its last point). Region 0 reads ONE array, the points, through two windows:
  each window holds it at half of the whole share, split when the region is entered and joined when it is left.
  Every execution terminates; the result buffer ends at the last host operation's value of region 1's result and
  the argument arrays end as launched.
-/
import proofs.«400394_j48352741818804_1_alg».proof.Proof.RegionsValueBits
import proofs.«400394_j48352741818804_1_alg».proof.Proof.PartDataBits
import proofs.«400394_j48352741818804_1_alg».proof.Proof.KlDataBits
import Idealize.ShloMosaic.Lib.Pipeline.RegionsLoop
import Idealize.ShloMosaic.Lib.Pipeline.Kit

set_option maxRecDepth 16384

noncomputable section

namespace Cert.Kernel.MainRun

open Cert.Kernel Cert.Kernel.Gen Cert.Kernel.GenV
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' entries and what the regions leave -/

/-- Region 0 is entered at the launch memory. -/
abbrev Ve0 : (c : Dev nD) → (b : Ref sig .tc) → Buf (Elt F) ((c : Thread nD τ).loc b) := fun c b => GenV.V0 m c b

/-- What region 0 leaves in its result array: its write-backs folded over the entry contents. -/
def o1 (c : Dev nD) : Buf (Elt F) ((c : Thread nD τ).loc main_v0) := (Part.dat (Ve0 m) c).arrAt 2 cfg0.N

/-- The contents after region 0. -/
abbrev W1 (c : Dev nD) : Valuation τ sig (Elt F) := Function.update (GenV.V0 m c) main_v0 (o1 m c)
/-- The contents at region 1's entry: the four host stretches applied. -/
abbrev W5 (c : Dev nD) : Valuation τ sig (Elt F) :=
  StableHlo.after hostOps1_3 (StableHlo.after hostOps1_2 (StableHlo.after hostOps1_1 (StableHlo.after hostOps1 (W1 m c))))
/-- The same read at the core's references. -/
abbrev Ve5 : (c : Dev nD) → (b : Ref sig .tc) → Buf (Elt F) ((c : Thread nD τ).loc b) := fun c b => W5 m c b

/-- What region 1 leaves in its result array. -/
def o6 (c : Dev nD) : Buf (Elt F) ((c : Thread nD τ).loc main_v8) := (Kl.dat (Ve5 m) c).arrAt 4 cfg1.N

/-- What the regions leave, as the table the boundary contents are written over. -/
def outs : GenV.Outs (F := F) := fun n r c =>
  if h1 : n = 1 ∧ r = main_v0 then h1.2 ▸ o1 m c
  else if h6 : n = 6 ∧ r = main_v8 then h6.2 ▸ o6 m c
  else m ((c : Thread nD τ).loc r)

theorem outs_1 (c : Dev nD) : outs m 1 main_v0 c = o1 m c := by
  unfold outs; rw [dif_pos ⟨rfl, rfl⟩]

theorem outs_6 (c : Dev nD) : outs m 6 main_v8 c = o6 m c := by
  unfold outs; rw [dif_neg (by decide), dif_pos ⟨rfl, rfl⟩]

theorem V1_eq (c : Dev nD) : GenV.V1 m (outs m) c = W1 m c := by
  show Function.update (GenV.V0 m c) main_v0 (outs m 1 main_v0 c) = _
  rw [outs_1]

theorem V5_eq (c : Dev nD) : GenV.V5 m (outs m) c = W5 m c := by
  show StableHlo.after hostOps1_3 (StableHlo.after hostOps1_2 (StableHlo.after hostOps1_1 (StableHlo.after hostOps1 (GenV.V1 m (outs m) c)))) = _
  rw [V1_eq]

/-! ## The proof data family and what rides beside the buffers -/

/-- Each region's proof data at its entry contents. -/
def pdats : (p : Fin 2) → (c : Dev nD) → Dat τ (Elt F) Unit ℕ (UR sig nD τ) ℕ (cfgs p) c
  | ⟨0, _⟩ => fun c => Part.dat (Ve0 m) c
  | ⟨1, _⟩ => fun c => Kl.dat (Ve5 m) c

/-- No core owes another anything: no level is assigned. -/
abbrev L : GSem nD τ sig → Finset Unit := fun _ => ∅
abbrev lv : GSem nD τ sig → Unit → ℕ := fun _ _ => 0

/-- Beside the buffers: the generator register at some state, and the core owing nothing. -/
abbrev Rr (c : Dev nD) : sProp 𝕄 := iprop((∃ r, prngReg c r) ∗ ∃ W, owes (c : Thread nD τ) (0 : CellTallies nD τ sig Unit) W)

/-! ## Region 0: one array behind two windows -/

/-- ENTRY. The core's buffers outside the kernels' storage, at the entry contents, are region 0's arrays — the
    points array at the left half share for window 0 and at the right half share for window 1, the result array
    whole — and the rest. -/
theorem entry0 (V : (c : Dev nD) → (b : Ref sig .tc) → Buf (Elt F) ((c : Thread nD τ).loc b)) (c : Dev nD) :
    (unscopedBufs c (V c) : sProp 𝕄) ⊢ iprop((Part.dat V c).arrays ((Part.dat V c).arrAt · 0) ∗ Pipeline.unscopedRest spec0 c (V c)) := by
  rw [Pipeline.unscopedBufs_split₀ cfgs (0 : Fin 2) winFacts₀0.arr_unscoped c (V c)]
  refine sep_mono ?_ .rfl
  unfold Pipeline.arrBufs Dat.arrays
  rw [show Finset.univ.image (Pipeline.arrRef (cfgs (0 : Fin 2)).spec) = {main_arg3, main_v0} from by decide,
    bigSep_insert (by decide), bigSep_singleton, bigSep_W0]
  rw [(arr_whole0 0).set_eq_univ, (arr_whole0 2).set_eq_univ]
  show iprop((((c : Thread nD τ).loc main_arg3) ↦{fullShare} V c main_arg3) ∗ (((c : Thread nD τ).loc main_v0) ↦{fullShare} V c main_v0)) ⊢ _
  iintro ⟨H3, H0⟩
  ihave H := (pointsTo_share (PosShare.mem_left_op_right fullShare)).1 $$ H3
  icases H with ⟨Hl, Hr⟩
  isplitl [Hl]; · iexact Hl
  isplitl [Hr]; · iexact Hr
  iexact H0

/-- EXIT. The arrays at what the region leaves — the points array's two halves at the entry contents, the result
    array at its written-back contents — and the rest make the core's buffers at the exit contents. -/
theorem exit0 (V V' : (c : Dev nD) → (b : Ref sig .tc) → Buf (Elt F) ((c : Thread nD τ).loc b)) (c : Dev nD)
    (hout : (Part.dat V c).arrAt 2 cfg0.N = V' c main_v0) (hrest : ∀ b : Ref sig .tc, b ≠ main_v0 → V' c b = V c b) :
    iprop((Part.dat V c).arrays ((Part.dat V c).arrAt · cfg0.N) ∗ Pipeline.unscopedRest spec0 c (V c)) ⊢ (unscopedBufs c (V' c) : sProp 𝕄) := by
  rw [Pipeline.unscopedBufs_split₀ cfgs (0 : Fin 2) winFacts₀0.arr_unscoped c (V' c)]
  refine sep_mono ?_ (Entails.of_eq ?_)
  · unfold Pipeline.arrBufs Dat.arrays
    rw [show Finset.univ.image (Pipeline.arrRef (cfgs (0 : Fin 2)).spec) = {main_arg3, main_v0} from by decide,
      bigSep_insert (by decide), bigSep_singleton, bigSep_W0]
    rw [(arr_whole0 0).set_eq_univ, (arr_whole0 2).set_eq_univ]
    show _ ⊢ iprop((((c : Thread nD τ).loc main_arg3) ↦{fullShare} V' c main_arg3) ∗ (((c : Thread nD τ).loc main_v0) ↦{fullShare} V' c main_v0))
    dsimp only
    rw [(Part.dat V c).arrAt_in 0 rfl, (Part.dat V c).arrAt_in 1 rfl, Part.A_eq, Part.A_eq, hout,
      hrest main_arg3 (by decide)]
    iintro ⟨Hl, Hr, H0⟩
    isplitl [Hl Hr]
    · iapply (pointsTo_share (PosShare.mem_left_op_right fullShare)).2
      isplitl [Hl]; · iexact Hl
      iexact Hr
    iexact H0
  · unfold Pipeline.unscopedRest
    exact bigSep_congr fun b hb => by
      rw [hrest b (fun h => (Finset.mem_sdiff.mp hb).2 (Finset.mem_image.mpr ⟨2, Finset.mem_univ _, h ▸ rfl⟩))]

/-! ## The regions as segments -/

/-- What region 0 leaves in its result array is the contents after it there. -/
theorem hF0 (c : Dev nD) : (Part.dat (Ve0 m) c).arrAt 2 cfg0.N = GenV.V1 m (outs m) c main_v0 := by
  rw [V1_eq]
  show _ = Function.update (GenV.V0 m c) main_v0 (o1 m c) main_v0
  rw [Function.update_self]; rfl

set_option backward.isDefEq.respectTransparency.types false in
/-- REGION 0 over the thread state: entered at the launch contents, left with its result array at the running sum
    after the last point; the generator register into the kernel's invariant and out; nothing owed. -/
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (Part.body_obligation (Ve0 m) c).loose
  hwaits := Pipeline.hwaits_of_owed_zero _ _ _ _ L lv 0 fun _ _ => rfl
  pre c := iprop(StableHlo.held (c : Thread nD τ) (Pipeline.ucRefs τ sig) (GenV.V0 m c) ∗ Rr c)
  post c := iprop(StableHlo.held (c : Thread nD τ) (Pipeline.ucRefs τ sig) (GenV.V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Part.hin (Ve0 m) c)
    unfold Pipeline.ΦA
    iintro ⟨Hp, -, Hr⟩
    isplitl [Hr]; · iexact Hr
    iexact Hp
  hout c := by
    rw [Pipeline.ownSems0_none]
    refine BIBase.Entails.trans (Part.hout (Ve0 m) c) ?_
    unfold Pipeline.ΦA
    iintro ⟨Hr, Hp⟩
    isplitl [Hp]; · iexact Hp
    isplitr; · iempintro
    iexact Hr
  hexit c := by
    have hjoin := exit0 (Ve0 m) (fun c b => GenV.V1 m (outs m) c b) c (hF0 m c)
      (fun b hb => GenV.V1_of m (outs m) c b (by rw [List.mem_singleton]; exact hb))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- After region 1 its result array holds what it leaves, -/
theorem hF1 (c : Dev nD) (w : Fin cfg1.W) : (Kl.dat (Ve5 m) c).arrAt w cfg1.N = GenV.V6 m (outs m) c (Pipeline.arrRef spec1 w) := by
  match w with
  | ⟨0, _⟩ => exact ((Kl.dat (Ve5 m) c).arrAt_in 0 rfl _).trans ((Kl.A_eq (Ve5 m) c 0).trans (((GenV.V6_of m (outs m) c main_v5 (by decide)).trans (congrFun (V5_eq m c) _)).symm))
  | ⟨1, _⟩ => exact ((Kl.dat (Ve5 m) c).arrAt_in 1 rfl _).trans ((Kl.A_eq (Ve5 m) c 1).trans (((GenV.V6_of m (outs m) c main_v6 (by decide)).trans (congrFun (V5_eq m c) _)).symm))
  | ⟨2, _⟩ => exact ((Kl.dat (Ve5 m) c).arrAt_in 2 rfl _).trans ((Kl.A_eq (Ve5 m) c 2).trans (((GenV.V6_of m (outs m) c main_arg0 (by decide)).trans (congrFun (V5_eq m c) _)).symm))
  | ⟨3, _⟩ => exact ((Kl.dat (Ve5 m) c).arrAt_in 3 rfl _).trans ((Kl.A_eq (Ve5 m) c 3).trans (((GenV.V6_of m (outs m) c main_v7 (by decide)).trans (congrFun (V5_eq m c) _)).symm))
  | ⟨4, _⟩ =>
    show _ = Function.update (GenV.V5 m (outs m) c) main_v8 (outs m 6 main_v8 c) main_v8
    rw [Function.update_self, outs_6]; rfl

/-- and every other buffer what it held at the region's entry. -/
theorem hrest1 (c : Dev nD) : ∀ b, b ∉ Finset.univ.image (Pipeline.arrRef spec1) → GenV.V6 m (outs m) c b = Ve5 m c b :=
  fun b hb => (GenV.V6_of m (outs m) c b (by
    rw [List.mem_singleton]; rintro rfl; exact hb (Finset.mem_image.mpr ⟨4, Finset.mem_univ _, rfl⟩))).trans (congrFun (V5_eq m c) _)

set_option backward.isDefEq.respectTransparency.types false in
/-- REGION 1 over the thread state: entered at the contents after the four host stretches, left with its result
    array at the running sum of the listed pairs' terms after the last point. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Kl.body_obligation (Ve5 m) c).loose
  hwaits := Pipeline.hwaits_of_owed_zero _ _ _ _ L lv 1 fun _ _ => rfl
  pre c := iprop(StableHlo.held (c : Thread nD τ) (Pipeline.ucRefs τ sig) (GenV.V5 m (outs m) c) ∗ Rr c)
  post c := iprop(StableHlo.held (c : Thread nD τ) (Pipeline.ucRefs τ sig) (GenV.V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Ve5 m c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Kl.hin (Ve5 m) c)
    unfold Pipeline.ΦA
    iintro ⟨Hp, -, Hr⟩
    isplitl [Hr]; · iexact Hr
    iexact Hp
  hout c := by
    rw [Pipeline.ownSems0_none]
    refine BIBase.Entails.trans (Kl.hout (Ve5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve5 m c) (fun b => GenV.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN. From any memory with zero counters every weakly fair execution of the program terminates, nothing
    faulting; the result buffer ends at the last boundary's contents and every argument array as launched. -/
theorem run_value : θ_run defs (onTc (τ := τ) (main (F := F))) ⟨m, fun _ => 0, ρ⟩ (fun r => ∀ c : Dev nD,
      r.2.mem ((c.tc : Thread nD τ).loc main_v9) = GenV.V7 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GenV.run_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl) (reg1 m) (fun c => .rfl) (fun c => .rfl)

end Cert.Kernel.MainRun

end
-- ==== Proof.LossSpec.lean ====
/-
  The value both programs compute, as one function of the argument arrays over the extended reals.

  Points are rows of an [8192, 2] array x. The Student-t weight of an ordered pair of points (a, b) is
  1 / (1 + (|a|² + |b|² − 2 a·b)); the partition value is the sum of the weights over ALL ordered pairs, less the
  number of points (each diagonal pair weighs one). For each of the 262144 listed pairs e, with probability p e and
  the two gathered rows ri e, rj e, the pair's term is p · (log p − log ((1 / (d₀² + d₁² + 2)) / partition)),
  d = ri e − rj e, and the loss is the sum of the terms. Float literals stay the extended reals their words denote.
-/
import Idealize.ShloMosaic.PureOps.Ideal
import Idealize.ShloMosaic.Lib.ValueIdx

noncomputable section

open scoped BigOperators

namespace Cert.Loss

open Idealize.ShloMosaic Idealize.ShloMosaic.ValueIdx

/-- The points: 8192 rows of two coordinates. -/
abbrev SPts : Shape := ⟨2, ![8192, 2]⟩
/-- One value per listed pair. -/
abbrev SPairs : Shape := ⟨1, ![262144]⟩
/-- One gathered row per listed pair. -/
abbrev SRows : Shape := ⟨2, ![262144, 2]⟩

/-- The literal one. -/
abbrev one : EReal := Ideal.ofBits .f32 0x3F800000#32
/-- The literal two. -/
abbrev two : EReal := Ideal.ofBits .f32 0x40000000#32
/-- The literal 8192, the number of points. -/
abbrev npts : EReal := Ideal.ofBits .f32 0x46000000#32

/-- The Student-t weight of two planar points, from their coordinates: 1 / (1 + (|a|² + |b|² − 2 a·b)). -/
def weight (a0 a1 b0 b1 : EReal) : EReal :=
  Ideal.div one (one + (((a0 * a0 + a1 * a1) + (b0 * b0 + b1 * b1)) - two * (a0 * b0 + a1 * b1)))

/-- The weight of the ordered pair of rows a, b of x. -/
def weightAt (x : SPts.Idx → EReal) (a b : Fin 8192) : EReal :=
  weight (x (ix2 a (0 : Fin 2))) (x (ix2 a (1 : Fin 2))) (x (ix2 b (0 : Fin 2))) (x (ix2 b (1 : Fin 2)))

/-- The sum of the weights over all ordered pairs of points. -/
def weightSum (x : SPts.Idx → EReal) : EReal := ∑ a : Fin 8192, ∑ b : Fin 8192, weightAt x a b

/-- The partition value: that sum less the number of points. -/
def partition (x : SPts.Idx → EReal) : EReal := weightSum x - npts

/-- One listed pair's term: p · (log p − log ((1 / (d₀² + d₁² + 2)) / part)), d the difference of its two rows. -/
def term (part p a0 a1 b0 b1 : EReal) : EReal :=
  p * (Ideal.log p - Ideal.log (Ideal.div (Ideal.div one (((a0 - b0) * (a0 - b0) + (a1 - b1) * (a1 - b1)) + two)) part))

/-- The term of listed pair e, from the probabilities and the two arrays of gathered rows. -/
def termAt (part : EReal) (p : SPairs.Idx → EReal) (ri rj : SRows.Idx → EReal) (e : Fin 262144) : EReal :=
  term part (p (ix1 e)) (ri (ix2 e (0 : Fin 2))) (ri (ix2 e (1 : Fin 2))) (rj (ix2 e (0 : Fin 2))) (rj (ix2 e (1 : Fin 2)))

/-- The loss: the sum of the listed pairs' terms at the points' partition value. -/
def loss (x : SPts.Idx → EReal) (p : SPairs.Idx → EReal) (ri rj : SRows.Idx → EReal) : EReal :=
  ∑ e : Fin 262144, termAt (partition x) p ri rj e

end Cert.Loss

end
-- ==== Proof.PayloadValue.lean ====
/-
  The two kernels' payloads read over the extended reals.

  The partition kernel's step adds to the running sum the sum, over a 1024 x 1024 tile of ordered pairs of points, of
  the pair's Student-t weight; the divergence kernel's step adds to the running sum the sum, over a block of 16384
  listed pairs, of the pair's term. Each payload is one pure term over the loaded blocks: an index is pushed through
  the elementwise operations, each layout operation (a column slice, a column transposed to a row, a column or a row
  broadcast over a tile, a unit axis added or dropped) is read at an index written by coordinates, and the reduction
  into a single cell is the total sum over the tile, re-indexed by the two tile coordinates.
-/
import proofs.«400394_j48352741818804_1_alg».proof.Proof.Gen.KernelIdeal.Skeleton
import proofs.«400394_j48352741818804_1_alg».proof.Proof.LossSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PayValue

open Cert.KernelIdeal Cert.KernelIdeal.Gen Cert.Loss
open Idealize.ShloMosaic Idealize.ShloMosaic.ValueIdx

/-! ## Layout operations of these payloads, read at an index written by coordinates -/

section Layout
variable {α : Type}

/-- A column `c` cut out of an `[a, b]` array reads, at `(p, 0)`, the array at `(p, c)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) (c : Fin b) (hc : c.val = o) :
    extractStridedSlice ⟨2, ![a, 1]⟩ ![0, o] X h (ix2 p u) = X (ix2 p c) :=
  slice2_axis1_apply o X h p u c (by have := u.isLt; omega)

/-- A row `r` cut out of an `[a, b]` array reads, at `(0, e)`, the array at `(r, e)`. -/
theorem sliceRow_apply {a b : ℕ} (o : ℕ) (X : (⟨2, ![a, b]⟩ : Shape).Idx → α)
    (h : (⟨2, ![a, b]⟩ : Shape).Slices ![o, 0] ⟨2, ![1, b]⟩) (u : Fin 1) (e : Fin b) (r : Fin a) (hr : r.val = o) :
    extractStridedSlice ⟨2, ![1, b]⟩ ![o, 0] X h (ix2 u e) = X (ix2 r e) :=
  slice2_axis0_apply o X h u e r (by have := u.isLt; omega)

/-- A column `[a, 1]` broadcast to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The element of a `[1, 1]` array at the position `(0, 0)`. -/
theorem extractAt_00 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- A sum over the indices of a `[1, a, b]` array is the double sum over the last two coordinates. -/
theorem sum_idx3_unit {M : Type*} [AddCommMonoid M] {a b : ℕ} (f : (⟨3, ![1, a, b]⟩ : Shape).Idx → M) :
    ∑ i, f i = ∑ p : Fin a, ∑ q : Fin b, f (ix3 (0 : Fin 1) p q) := by
  let e : (⟨3, ![1, a, b]⟩ : Shape).Idx ≃ Fin a × Fin b :=
    { toFun := fun i => (i 1, i 2)
      invFun := fun pq => ix3 (0 : Fin 1) pq.1 pq.2
      left_inv := fun i => by
        funext ax
        match ax with
        | ⟨0, _⟩ =>
          have h1 : (i 0).val < 1 := (i 0).isLt
          exact Fin.ext (show (0 : ℕ) = (i 0).val by omega)
        | ⟨1, _⟩ => rfl
        | ⟨2, _⟩ => rfl
      right_inv := fun _ => rfl }
  rw [← Equiv.sum_comp e.symm f, Fintype.sum_prod_type]
  rfl

end Layout

/-! ## Elementwise logarithm, and the two reductions -/

/-- A logarithm at an index is the logarithm of the element. -/
theorem log_apply {s : Shape} {φ : FTy} (a : FVec Ideal s φ) (i : s.Idx) : log a i = Ideal.log (a i) := rfl

/-- The sum of a `[1, 1024, 1024]` tile into one cell is the double sum over the tile. -/
theorem reduce_tile (src : FVec Ideal S1x1024x1024 .f32) (acc : BitVec 32) (h : S1x1024x1024.Reduces [1, 2] S1)
    (hφ : FKind.Formats .f32) (hacc : acc = FKind.add.neutral .f32 hφ) (j : S1.Idx) :
    multiReduction .add [1, 2] S1 src acc h hφ hacc j = ∑ p : Fin 1024, ∑ q : Fin 1024, src (ix3 (0 : Fin 1) p q) :=
  (Ideal.multiReduction_add_total src acc h (fun b => by
    match b with
    | ⟨0, _⟩ => rfl) hφ hacc j).trans (sum_idx3_unit src)

/-- The sum of a `[1, 16384]` row into one cell is the sum over the row. -/
theorem reduce_row (src : FVec Ideal S1x16384 .f32) (acc : BitVec 32) (h : S1x16384.Reduces [1] S1)
    (hφ : FKind.Formats .f32) (hacc : acc = FKind.add.neutral .f32 hφ) (j : S1.Idx) :
    multiReduction .add [1] S1 src acc h hφ hacc j = ∑ e : Fin 16384, src (ix2 (0 : Fin 1) e) :=
  (Ideal.multiReduction_add_total src acc h (fun b => by
    match b with
    | ⟨0, _⟩ => rfl) hφ hacc j).trans ((sum_idx2 src).trans (Fin.sum_univ_one _))

/-! ## The columns of a two-column block and the rows of a two-row block -/

section Cols
variable {α : Type}

/-- Column 0 of an `[a, 2]` block at `(p, 0)`. -/
theorem col0_apply {a : ℕ} (X : (⟨2, ![a, 2]⟩ : Shape).Idx → α) (h : (⟨2, ![a, 2]⟩ : Shape).Slices ![0, 0] ⟨2, ![a, 1]⟩)
    (p : Fin a) (u : Fin 1) : extractStridedSlice ⟨2, ![a, 1]⟩ ![0, 0] X h (ix2 p u) = X (ix2 p (0 : Fin 2)) :=
  sliceCol_apply 0 X h p u 0 rfl

/-- Column 1 of an `[a, 2]` block at `(p, 0)`. -/
theorem col1_apply {a : ℕ} (X : (⟨2, ![a, 2]⟩ : Shape).Idx → α) (h : (⟨2, ![a, 2]⟩ : Shape).Slices ![0, 1] ⟨2, ![a, 1]⟩)
    (p : Fin a) (u : Fin 1) : extractStridedSlice ⟨2, ![a, 1]⟩ ![0, 1] X h (ix2 p u) = X (ix2 p (1 : Fin 2)) :=
  sliceCol_apply 1 X h p u 1 rfl

/-- Row 0 of a `[2, b]` block at `(0, e)`. -/
theorem row0_apply {b : ℕ} (X : (⟨2, ![2, b]⟩ : Shape).Idx → α) (h : (⟨2, ![2, b]⟩ : Shape).Slices ![0, 0] ⟨2, ![1, b]⟩)
    (u : Fin 1) (e : Fin b) : extractStridedSlice ⟨2, ![1, b]⟩ ![0, 0] X h (ix2 u e) = X (ix2 (0 : Fin 2) e) :=
  sliceRow_apply 0 X h u e 0 rfl

/-- Row 1 of a `[2, b]` block at `(0, e)`. -/
theorem row1_apply {b : ℕ} (X : (⟨2, ![2, b]⟩ : Shape).Idx → α) (h : (⟨2, ![2, b]⟩ : Shape).Slices ![1, 0] ⟨2, ![1, b]⟩)
    (u : Fin 1) (e : Fin b) : extractStridedSlice ⟨2, ![1, b]⟩ ![1, 0] X h (ix2 u e) = X (ix2 (1 : Fin 2) e) :=
  sliceRow_apply 1 X h u e 1 rfl

end Cols

/-! ## The payloads -/

/-- The partition kernel's clearing store writes zero. -/
theorem pay2_zero (i : S1x1.Idx) : k0_pay2 (F := Ideal) i = 0 := by
  simp only [k0_pay2, shapeCast_self, broadcast_apply]
  exact Ideal.ofBits_zero_f32

/-- The divergence kernel's clearing store writes zero. -/
theorem kl_pay1_zero (i : S1x1.Idx) : k1_pay1 (F := Ideal) i = 0 := by
  simp only [k1_pay1, shapeCast_self, broadcast_apply]
  exact Ideal.ofBits_zero_f32

/-- One step of the partition kernel: the running sum plus the tile's sum of weights. -/
theorem part_step (x0 x1 : Vec Ideal S1024x2 .f32) (s : Vec Ideal S1x1 .f32) (i : S1x1.Idx) :
    k0_pay1 (k0_pay3 x0 x1 s) i = s i + ∑ p : Fin 1024, ∑ q : Fin 1024,
      Cert.Loss.weight (x0 (ix2 p (0 : Fin 2))) (x0 (ix2 p (1 : Fin 2))) (x1 (ix2 q (0 : Fin 2))) (x1 (ix2 q (1 : Fin 2))) := by
  simp only [k0_pay1, k0_pay3, shapeCast_self]
  rw [addf_apply, broadcast_apply]
  refine congrArg (s i + ·) ?_
  refine (reduce_tile _ 0x00000000#32 _ (.inl rfl) rfl _).trans ?_
  refine Finset.sum_congr rfl fun p _ => Finset.sum_congr rfl fun q _ => ?_
  rw [shapeCast_ab_1ab_apply]
  simp only [divf_apply, addf_apply, subf_apply, mulf_apply, broadcast_apply, broadcastTo_a1_ab_apply,
    broadcastTo_1b_ab_apply, col0_apply, col1_apply]
  rw [transpose_ix2_apply, transpose_ix2_apply, transpose_ix2_apply]
  simp only [addf_apply, mulf_apply, col0_apply, col1_apply]
  rfl

/-- One step of the divergence kernel: the running sum plus the block's sum of terms. -/
theorem kl_step (v3 v5 : Vec Ideal S2x16384 .f32) (v18 : Vec Ideal S1x1 .f32) (v22 : Vec Ideal S16384 .f32)
    (v31 : Vec Ideal S1x1 .f32) (i : S1x1.Idx) :
    k1_pay2 v3 v5 v18 v22 v31 i = v31 i + ∑ e : Fin 16384,
      Cert.Loss.term (v18 (ix2 (0 : Fin 1) (0 : Fin 1))) (v22 (ix1 e)) (v3 (ix2 (0 : Fin 2) e)) (v3 (ix2 (1 : Fin 2) e))
        (v5 (ix2 (0 : Fin 2) e)) (v5 (ix2 (1 : Fin 2) e)) := by
  simp only [k1_pay2, shapeCast_self]
  rw [addf_apply, broadcast_apply]
  refine congrArg (v31 i + ·) ?_
  rw [extractAt_00]
  refine (reduce_row _ 0x00000000#32 _ (.inl rfl) rfl _).trans ?_
  refine Finset.sum_congr rfl fun e _ => ?_
  rw [shapeCast_a_1a_apply]
  simp only [mulf_apply, subf_apply, log_apply, divf_apply, addf_apply, broadcast_apply, shapeCast_1a_a_apply,
    row0_apply, row1_apply, extractAt_00]
  rfl

end Cert.KernelIdeal.PayValue

end
-- ==== Proof.LossSums.lean ====
/-
  Sums over the extended reals regrouped: the 8192 × 8192 ordered pairs of points as 64 tiles of 1024 × 1024,
  the 262144 listed pairs as 16 chunks of 16384, and a running total that starts from a given value and adds one
  summand per step. The extended reals are an additive commutative monoid, so no finiteness enters. The literals
  one and two are the extended reals 1 and 2.
-/
import proofs.«400394_j48352741818804_1_alg».proof.Proof.LossSpec
import Mathlib.Algebra.BigOperators.Fin
import Mathlib.Algebra.BigOperators.Intervals
import Mathlib.Algebra.BigOperators.Group.Finset.Basic
import Mathlib.Logic.Equiv.Fin.Basic

noncomputable section

open scoped BigOperators

namespace Cert.Loss

open Idealize.ShloMosaic

/-! ### The literals -/

/-- The word 0x3F800000 has sign 0, exponent field 127 and fraction 0: it denotes 2²³ · 2⁻²³ = 1. -/
theorem one_eq : one = 1 := by
  show Ideal.ofBits .f32 0x3F800000#32 = 1
  simp [Ideal.ofBits, Ideal.ieee, -EReal.coe_mul]; norm_num

/-- The word 0x40000000 has sign 0, exponent field 128 and fraction 0: it denotes 2²³ · 2⁻²² = 2. -/
theorem two_eq : two = 2 := by
  have h2 : ((2 : ℝ) : EReal) = 2 := by
    rw [← one_add_one_eq_two (R := ℝ), EReal.coe_add, EReal.coe_one, one_add_one_eq_two]
  show Ideal.ofBits .f32 0x40000000#32 = 2
  simp [Ideal.ofBits, Ideal.ieee, -EReal.coe_mul]; norm_num
  exact h2

theorem one_add_one : one + one = two := by
  rw [one_eq, two_eq, one_add_one_eq_two]

/-- The squared norms of a pair arrive each with a one added and a zero in front; together the ones are the two. -/
theorem pair_norm (a b : EReal) : (0 : EReal) + ((one + a) + (one + b)) = (a + b) + two := by
  rw [zero_add, add_add_add_comm, one_add_one, add_comm]

/-! ### Blocks -/

/-- A sum over the first N·B naturals, taken as N consecutive blocks of B: the index k·B + e runs over each
    natural below N·B exactly once as (k, e) runs over the pairs. -/
theorem block_sum (g : ℕ → EReal) (N B : ℕ) {M : ℕ} (hM : N * B = M) :
    ∑ k : Fin N, ∑ e : Fin B, g (k.val * B + e.val) = ∑ e : Fin M, g e.val := by
  subst hM
  rw [← (finProdFinEquiv (m := N) (n := B)).sum_comp (fun e => g e.val), Fintype.sum_prod_type]
  refine Finset.sum_congr rfl fun k _ => Finset.sum_congr rfl fun e _ => ?_
  congr 1
  simp only [finProdFinEquiv_apply_val]
  ring

/-- The 16 chunks of 16384 listed pairs are the 262144 listed pairs. -/
theorem chunk_sum (g : ℕ → EReal) :
    ∑ k : Fin 16, ∑ e : Fin 16384, g (k.val * 16384 + e.val) = ∑ e : Fin 262144, g e.val :=
  block_sum g 16 16384 (by norm_num)

/-- The 64 tiles, numbered row by row over an 8 × 8 grid, of 1024 × 1024 ordered pairs each are the
    8192 × 8192 ordered pairs: tile t holds the rows of block t / 8 against the rows of block t % 8. -/
theorem tile_sum (f : ℕ → ℕ → EReal) :
    ∑ t : Fin 64, ∑ p : Fin 1024, ∑ q : Fin 1024, f (t.val / 8 * 1024 + p.val) (t.val % 8 * 1024 + q.val)
      = ∑ a : Fin 8192, ∑ b : Fin 8192, f a.val b.val := by
  -- the tile number t = 8 i + j, j < 8, has t / 8 = i and t % 8 = j
  have grid : ∀ G : ℕ → ℕ → EReal,
      ∑ t : Fin 64, G (t.val / 8) (t.val % 8) = ∑ i : Fin 8, ∑ j : Fin 8, G i.val j.val := by
    intro G
    calc ∑ t : Fin 64, G (t.val / 8) (t.val % 8)
        = ∑ i : Fin 8, ∑ j : Fin 8, G ((i.val * 8 + j.val) / 8) ((i.val * 8 + j.val) % 8) :=
          (block_sum (fun t => G (t / 8) (t % 8)) 8 8 (by norm_num)).symm
      _ = ∑ i : Fin 8, ∑ j : Fin 8, G i.val j.val := by
          refine Finset.sum_congr rfl fun i _ => Finset.sum_congr rfl fun j _ => ?_
          have hj := j.isLt
          congr 1 <;> omega
  calc ∑ t : Fin 64, ∑ p : Fin 1024, ∑ q : Fin 1024, f (t.val / 8 * 1024 + p.val) (t.val % 8 * 1024 + q.val)
      = ∑ i : Fin 8, ∑ j : Fin 8, ∑ p : Fin 1024, ∑ q : Fin 1024,
          f (i.val * 1024 + p.val) (j.val * 1024 + q.val) :=
        grid (fun i j => ∑ p : Fin 1024, ∑ q : Fin 1024, f (i * 1024 + p.val) (j * 1024 + q.val))
    _ = ∑ i : Fin 8, ∑ p : Fin 1024, ∑ j : Fin 8, ∑ q : Fin 1024,
          f (i.val * 1024 + p.val) (j.val * 1024 + q.val) :=
        Finset.sum_congr rfl fun i _ => Finset.sum_comm
    _ = ∑ i : Fin 8, ∑ p : Fin 1024, ∑ b : Fin 8192, f (i.val * 1024 + p.val) b.val :=
        Finset.sum_congr rfl fun i _ => Finset.sum_congr rfl fun p _ =>
          block_sum (fun b => f (i.val * 1024 + p.val) b) 8 1024 (by norm_num)
    _ = ∑ a : Fin 8192, ∑ b : Fin 8192, f a.val b.val :=
        block_sum (fun a => ∑ b : Fin 8192, f a b.val) 8 1024 (by norm_num)

/-! ### A running total -/

/-- A total that starts as z plus the first summand and adds the next summand at each step is, after step n,
    z plus the first n + 1 summands. -/
theorem fold_sum (a f : ℕ → EReal) (z : EReal) (h0 : a 0 = z + f 0) (hs : ∀ n, a (n + 1) = a n + f (n + 1))
    (n : ℕ) : a n = z + ∑ k ∈ Finset.range (n + 1), f k := by
  induction n with
  | zero => rw [h0, Finset.sum_range_one]
  | succ n ih => rw [hs n, ih, add_assoc, ← Finset.sum_range_succ]

theorem sum_range_fin (f : ℕ → EReal) (N : ℕ) : ∑ k ∈ Finset.range N, f k = ∑ k : Fin N, f k.val :=
  Finset.sum_range f

end Cert.Loss

end
-- ==== Proof.PartValue.lean ====
/-
  The partition kernel's value. Over the 64 points of its 8 × 8 grid the kernel carries a running sum: at point t
  it adds the sum, over the 1024 × 1024 pairs (p, q), of the Student-t weight of row (t / 8) · 1024 + p against
  row (t % 8) · 1024 + q of the points array. After the last point the running sum is the sum of the weights over
  all 8192 × 8192 ordered pairs of points.
-/
import proofs.«400394_j48352741818804_1_alg».proof.Proof.PartData
import proofs.«400394_j48352741818804_1_alg».proof.Proof.PayloadValue
import proofs.«400394_j48352741818804_1_alg».proof.Proof.LossSums
import proofs.«400394_j48352741818804_1_alg».proof.Proof.LossSpec
import Idealize.ShloMosaic.Lib.ValueIdx
import Idealize.ShloMosaic.Lib.Pipeline.Value

set_option maxRecDepth 16384

noncomputable section

open scoped BigOperators

namespace Cert.KernelIdeal.PartVal

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The points array read at natural numbers -/

/-- Coordinate d of row a of the points array; past the last row, zero (never read). -/
def row (x : S8192x2.Idx → EReal) (d : Fin 2) (a : ℕ) : EReal :=
  if h : a < 8192 then x (ix2 (⟨a, h⟩ : Fin 8192) d) else 0

/-- The weight of the ordered pair of rows a, b. -/
def pairW (x : S8192x2.Idx → EReal) (a b : ℕ) : EReal :=
  Cert.Loss.weight (row x 0 a) (row x 1 a) (row x 0 b) (row x 1 b)

/-- The sum of the weights over tile t: row block t / 8 against row block t % 8. -/
def tile (x : S8192x2.Idx → EReal) (t : ℕ) : EReal :=
  ∑ p : Fin 1024, ∑ q : Fin 1024, pairW x (t / 8 * 1024 + p.val) (t % 8 * 1024 + q.val)

/-! ## The two windows' blocks as rows of the array -/

theorem hN : cfg0.N = 64 := by decide

/-- Window 0's block index at point t is (t / 8, 0); -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- window 1's is (t % 8, 0). -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- Window 0's block at point t is rows (t / 8) · 1024 … of the array. -/
theorem iblk0_apply (c : Dev nD) (t : Fin cfg0.N) (y : S1024x2.Idx) (k : S8192x2.Idx)
    (hk0 : (k 0).val = t.val / 8 * 1024 + (y 0).val) (hk1 : (k 1).val = (y 1).val) :
    (Part.iblk V c 0 t : Vec Ideal S1024x2 .f32) y = (V c main_arg3 : S8192x2.Idx → EReal) k := by
  have hi := idx0 t
  unfold Part.iblk
  rw [View.read_apply]
  show V c main_arg3 _ = V c main_arg3 _
  congr 1
  funext a
  apply Fin.ext
  match a with
  | ⟨0, _⟩ => show win0_0.index t 0 * 1024 + 1 * (y 0).val = (k 0).val; rw [hi.1, hk0]; omega
  | ⟨1, _⟩ => show win0_0.index t 1 * 2 + 1 * (y 1).val = (k 1).val; rw [hi.2, hk1]; omega

/-- Window 1's block at point t is rows (t % 8) · 1024 … of the array. -/
theorem iblk1_apply (c : Dev nD) (t : Fin cfg0.N) (y : S1024x2.Idx) (k : S8192x2.Idx)
    (hk0 : (k 0).val = t.val % 8 * 1024 + (y 0).val) (hk1 : (k 1).val = (y 1).val) :
    (Part.iblk V c 1 t : Vec Ideal S1024x2 .f32) y = (V c main_arg3 : S8192x2.Idx → EReal) k := by
  have hi := idx1 t
  unfold Part.iblk
  rw [View.read_apply]
  show V c main_arg3 _ = V c main_arg3 _
  congr 1
  funext a
  apply Fin.ext
  match a with
  | ⟨0, _⟩ => show win0_1.index t 0 * 1024 + 1 * (y 0).val = (k 0).val; rw [hi.1, hk0]; omega
  | ⟨1, _⟩ => show win0_1.index t 1 * 2 + 1 * (y 1).val = (k 1).val; rw [hi.2, hk1]; omega

theorem iblk0_row (c : Dev nD) (t : Fin cfg0.N) (p : Fin 1024) (d : Fin 2) :
    (Part.iblk V c 0 t : Vec Ideal S1024x2 .f32) (ix2 p d) = row (V c main_arg3) d (t.val / 8 * 1024 + p.val) := by
  have ht : t.val < 64 := hN ▸ t.isLt
  have hb : t.val / 8 * 1024 + p.val < 8192 := by have := p.isLt; omega
  unfold row
  rw [dif_pos hb]
  exact iblk0_apply V c t (ix2 p d) (ix2 (⟨_, hb⟩ : Fin 8192) d) rfl rfl

theorem iblk1_row (c : Dev nD) (t : Fin cfg0.N) (q : Fin 1024) (d : Fin 2) :
    (Part.iblk V c 1 t : Vec Ideal S1024x2 .f32) (ix2 q d) = row (V c main_arg3) d (t.val % 8 * 1024 + q.val) := by
  have hb : t.val % 8 * 1024 + q.val < 8192 := by have := q.isLt; omega
  unfold row
  rw [dif_pos hb]
  exact iblk1_apply V c t (ix2 q d) (ix2 (⟨_, hb⟩ : Fin 8192) d) rfl rfl

/-! ## The running sum -/

section Steps

variable (hz : ∀ i : S1x1.Idx, k0_pay2 (F := Ideal) i = 0)
variable (hstep : ∀ (x0 x1 : Vec Ideal S1024x2 .f32) (s : Vec Ideal S1x1 .f32) (i : S1x1.Idx),
    k0_pay1 (k0_pay3 x0 x1 s) i = s i + ∑ p : Fin 1024, ∑ q : Fin 1024,
      Cert.Loss.weight (x0 (ix2 p (0 : Fin 2))) (x0 (ix2 p (1 : Fin 2))) (x1 (ix2 q (0 : Fin 2))) (x1 (ix2 q (1 : Fin 2))))

include hstep in
/-- One point's step adds that point's tile sum. -/
theorem step_tile (c : Dev nD) (t : Fin cfg0.N) (s : Vec Ideal S1x1 .f32) (i : S1x1.Idx) :
    k0_pay1 (k0_pay3 (Part.iblk V c 0 t) (Part.iblk V c 1 t) s) i = s i + tile (V c main_arg3) t.val := by
  refine (hstep (Part.iblk V c 0 t) (Part.iblk V c 1 t) s i).trans ?_
  unfold tile
  refine congrArg (fun r : EReal => s i + r) ?_
  refine Finset.sum_congr rfl fun p _ => Finset.sum_congr rfl fun q _ => ?_
  have e00 := iblk0_row V c t p (0 : Fin 2)
  have e01 := iblk0_row V c t p (1 : Fin 2)
  have e10 := iblk1_row V c t q (0 : Fin 2)
  have e11 := iblk1_row V c t q (1 : Fin 2)
  unfold pairW
  rw [e00, e01, e10, e11]

include hz hstep in
/-- After point n the running sum is the sum of the tiles 0 … n. -/
theorem acc_prefix (c : Dev nD) : ∀ (n : ℕ) (h : n < cfg0.N),
    Part.acc (F := Ideal) V c n h (ix2 (0 : Fin 1) (0 : Fin 1)) = ∑ k ∈ Finset.range (n + 1), tile (V c main_arg3) k
  | 0, h => by
    rw [Part.acc_zero, step_tile V hstep c ⟨0, h⟩, hz, zero_add, Finset.sum_range_one]
  | n + 1, h => by
    rw [Part.acc_succ, step_tile V hstep c ⟨n + 1, h⟩, acc_prefix c n (Nat.lt_of_succ_lt h),
      ← Finset.sum_range_succ]

end Steps

/-- All the tiles together are all the ordered pairs. -/
theorem tiles_total (x : S8192x2.Idx → EReal) :
    ∑ k ∈ Finset.range 64, tile x k = Cert.Loss.weightSum x := by
  rw [Cert.Loss.sum_range_fin]
  unfold tile
  rw [Cert.Loss.tile_sum (pairW x)]
  unfold Cert.Loss.weightSum Cert.Loss.weightAt pairW row
  refine Finset.sum_congr rfl fun a _ => Finset.sum_congr rfl fun b _ => ?_
  rw [dif_pos a.isLt, dif_pos a.isLt, dif_pos b.isLt, dif_pos b.isLt]

theorem acc_last_of (hz : ∀ i : S1x1.Idx, k0_pay2 (F := Ideal) i = 0)
    (hstep : ∀ (x0 x1 : Vec Ideal S1024x2 .f32) (s : Vec Ideal S1x1 .f32) (i : S1x1.Idx),
      k0_pay1 (k0_pay3 x0 x1 s) i = s i + ∑ p : Fin 1024, ∑ q : Fin 1024,
        Cert.Loss.weight (x0 (ix2 p (0 : Fin 2))) (x0 (ix2 p (1 : Fin 2))) (x1 (ix2 q (0 : Fin 2))) (x1 (ix2 q (1 : Fin 2))))
    (c : Dev nD) (h : 63 < cfg0.N) :
    Part.acc (F := Ideal) V c 63 h (ix2 (0 : Fin 1) (0 : Fin 1)) = Cert.Loss.weightSum (V c main_arg3) := by
  rw [acc_prefix V hz hstep c 63 h]
  exact tiles_total (V c main_arg3)

theorem acc_last (V : (c : Dev nD) → (b : Ref sig .tc) → Buf (Elt Ideal) ((c : Thread nD τ).loc b)) (c : Dev nD)
    (h : 63 < cfg0.N) :
    Part.acc (F := Ideal) V c 63 h (ix2 (0 : Fin 1) (0 : Fin 1)) = Cert.Loss.weightSum (V c main_arg3) :=
  acc_last_of V PayValue.pay2_zero PayValue.part_step c h

end Cert.KernelIdeal.PartVal

end
-- ==== Proof.PartOut.lean ====
/-
  What the partition kernel's result array holds after the region. The [1, 1] result array is a single block,
  written back once, at the last of the 64 points, with what the body left there: the running sum after that point.
-/
import proofs.«400394_j48352741818804_1_alg».proof.Proof.PartData
import Idealize.ShloMosaic.Lib.ValueIdx
import Idealize.ShloMosaic.Lib.Pipeline.Value

set_option maxRecDepth 16384

noncomputable section

namespace Cert.KernelIdeal.PartOut

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem hN : cfg0.N = 64 := by decide

/-- The result window's block index is (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The one write-back, at the last point, writes the running sum after that point: the block is the whole
    array, read at the same index. -/
theorem flushed_last (c : Dev nD) (h : 63 < cfg0.N) (t : Fin cfg0.N) (hf : (cfg0.win 2).flush t = true) :
    (Part.dat V c).flushed 2 t = ((cfg0.win 2).blk t).view.read (Elt F) (Part.acc V c 63 h) := by
  have h1 : t.val = 63 := by have := (flush0_2 t).mp hf; have := t.isLt; have := hN; omega
  obtain rfl : t = ⟨63, h⟩ := Fin.ext h1
  show (cfg0.win 2).cut (grid0.coords ⟨63, h⟩) ((Part.dat V c).after 2 ⟨63, h⟩) = _
  rw [Part.after_out]
  funext y
  rw [View.read_apply]
  refine congrArg (Part.acc V c 63 h) (funext fun a => Fin.ext ?_)
  match a with
  | ⟨0, _⟩ =>
    show (y 0).val = win0_2.index ⟨63, h⟩ 0 * 1 + 1 * (y 0).val
    rw [(idx2 ⟨63, h⟩).1]; omega
  | ⟨1, _⟩ =>
    show (y 1).val = win0_2.index ⟨63, h⟩ 1 * 1 + 1 * (y 1).val
    rw [(idx2 ⟨63, h⟩).2]; omega

theorem out_array (c : Dev nD) (h : 63 < cfg0.N) :
    (Part.dat V c).arrAt 2 cfg0.N = Part.acc V c 63 h :=
  (Part.dat V c).arrAt_eq_of_cover 2 (Part.acc V c 63 h) (flushed_last V c h) fun i =>
    ⟨⟨63, h⟩, (flush0_2 ⟨63, h⟩).mpr rfl, by
      show i ∈ ((View.whole main_v0).slice (win0_2.rect ⟨63, h⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨63, h⟩ 0 * 1 ≤ (i 0 : Nat) ∧ (i 0 : Nat) < win0_2.index ⟨63, h⟩ 0 * 1 + 1
        rw [(idx2 ⟨63, h⟩).1]; omega
      | ⟨1, _⟩ =>
        show win0_2.index ⟨63, h⟩ 1 * 1 ≤ (i 1 : Nat) ∧ (i 1 : Nat) < win0_2.index ⟨63, h⟩ 1 * 1 + 1
        rw [(idx2 ⟨63, h⟩).2]; omega⟩

theorem out_last (V : (c : Dev nD) → (b : Ref sig .tc) → Buf (Elt F) ((c : Thread nD τ).loc b)) (c : Dev nD)
    (h : 63 < cfg0.N) :
    (Part.dat V c).arrAt 2 cfg0.N (ix2 (0 : Fin 1) (0 : Fin 1)) = Part.acc V c 63 h (ix2 (0 : Fin 1) (0 : Fin 1)) :=
  congrFun (out_array V c h) (ix2 (0 : Fin 1) (0 : Fin 1))

end Cert.KernelIdeal.PartOut

end
-- ==== Proof.KlValue.lean ====
/-
  The divergence kernel's value over the extended reals.

  The kernel walks the 262144 listed pairs in 16 chunks of 16384. At each chunk its windows hold columns
  16384 t … 16384 t + 16383 of the two arrays of gathered rows and of the probabilities, and the one cell holding the
  partition value; the running sum after chunk t is the running sum before it plus the chunk's sum of terms, starting from
  zero. So after the last chunk the running sum is the sum of all the listed pairs' terms.
-/
import proofs.«400394_j48352741818804_1_alg».proof.Proof.KlData
import proofs.«400394_j48352741818804_1_alg».proof.Proof.PayloadValue
import proofs.«400394_j48352741818804_1_alg».proof.Proof.LossSums
import proofs.«400394_j48352741818804_1_alg».proof.Proof.LossSpec
import Idealize.ShloMosaic.Lib.ValueIdx
import Idealize.ShloMosaic.Lib.Pipeline.Value

set_option maxRecDepth 16384

noncomputable section

open scoped BigOperators

namespace Cert.KernelIdeal.KlVal

open Cert.KernelIdeal Cert.KernelIdeal.Gen Cert.Loss
open Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The windows' blocks as columns of their arrays -/

/-- The windows' block indices over the grid: chunk `t` along the pairs' axis, the one block elsewhere. -/
theorem idx_facts : ∀ t : Fin cfg1.N,
    (win1_0.index t (0 : Fin 2) = 0 ∧ win1_0.index t (1 : Fin 2) = t.val)
    ∧ (win1_1.index t (0 : Fin 2) = 0 ∧ win1_1.index t (1 : Fin 2) = t.val)
    ∧ win1_2.index t (0 : Fin 1) = t.val
    ∧ (win1_3.index t (0 : Fin 2) = 0 ∧ win1_3.index t (1 : Fin 2) = 0) :=
  (by decide +kernel : ∀ t : Fin grid1.N,
    (win1_0.index t (0 : Fin 2) = 0 ∧ win1_0.index t (1 : Fin 2) = t.val)
    ∧ (win1_1.index t (0 : Fin 2) = 0 ∧ win1_1.index t (1 : Fin 2) = t.val)
    ∧ win1_2.index t (0 : Fin 1) = t.val
    ∧ (win1_3.index t (0 : Fin 2) = 0 ∧ win1_3.index t (1 : Fin 2) = 0))

/-- Window 0's block at chunk `t` is columns `16384 t …` of the first array of gathered rows. -/
theorem iblk0_apply (c : Dev nD) (t : Fin cfg1.N) (x : S2x16384.Idx) (k : S2x262144.Idx)
    (hk0 : (k 0).val = (x 0).val) (hk1 : (k 1).val = t.val * 16384 + (x 1).val) :
    (Kl.iblk V c 0 t : Vec Ideal S2x16384 .f32) x = (V c main_v5 : S2x262144.Idx → EReal) k := by
  have hi := (idx_facts t).1
  unfold Kl.iblk
  rw [View.read_apply]
  show V c main_v5 _ = V c main_v5 _
  congr 1
  funext a
  apply Fin.ext
  match a with
  | ⟨0, _⟩ => show win1_0.index t 0 * 2 + 1 * (x 0).val = (k 0).val; rw [hi.1, hk0]; omega
  | ⟨1, _⟩ => show win1_0.index t 1 * 16384 + 1 * (x 1).val = (k 1).val; rw [hi.2, hk1]; omega

/-- Window 1's block at chunk `t` is columns `16384 t …` of the second array of gathered rows. -/
theorem iblk1_apply (c : Dev nD) (t : Fin cfg1.N) (x : S2x16384.Idx) (k : S2x262144.Idx)
    (hk0 : (k 0).val = (x 0).val) (hk1 : (k 1).val = t.val * 16384 + (x 1).val) :
    (Kl.iblk V c 1 t : Vec Ideal S2x16384 .f32) x = (V c main_v6 : S2x262144.Idx → EReal) k := by
  have hi := (idx_facts t).2.1
  unfold Kl.iblk
  rw [View.read_apply]
  show V c main_v6 _ = V c main_v6 _
  congr 1
  funext a
  apply Fin.ext
  match a with
  | ⟨0, _⟩ => show win1_1.index t 0 * 2 + 1 * (x 0).val = (k 0).val; rw [hi.1, hk0]; omega
  | ⟨1, _⟩ => show win1_1.index t 1 * 16384 + 1 * (x 1).val = (k 1).val; rw [hi.2, hk1]; omega

/-- Window 2's block at chunk `t` is entries `16384 t …` of the probabilities. -/
theorem iblk2_apply (c : Dev nD) (t : Fin cfg1.N) (x : S16384.Idx) (k : S262144.Idx)
    (hk : (k 0).val = t.val * 16384 + (x 0).val) :
    (Kl.iblk V c 2 t : Vec Ideal S16384 .f32) x = (V c main_arg0 : S262144.Idx → EReal) k := by
  have hi := (idx_facts t).2.2.1
  unfold Kl.iblk
  rw [View.read_apply]
  show V c main_arg0 _ = V c main_arg0 _
  congr 1
  funext a
  apply Fin.ext
  match a with
  | ⟨0, _⟩ => show win1_2.index t 0 * 16384 + 1 * (x 0).val = (k 0).val; rw [hi, hk]; omega

/-- Window 3's block at every chunk is the one cell holding the partition value. -/
theorem iblk3_apply (c : Dev nD) (t : Fin cfg1.N) (x : S1x1.Idx) (k : S1x1.Idx)
    (hk0 : (k 0).val = (x 0).val) (hk1 : (k 1).val = (x 1).val) :
    (Kl.iblk V c 3 t : Vec Ideal S1x1 .f32) x = (V c main_v7 : S1x1.Idx → EReal) k := by
  have hi := (idx_facts t).2.2.2
  unfold Kl.iblk
  rw [View.read_apply]
  show V c main_v7 _ = V c main_v7 _
  congr 1
  funext a
  apply Fin.ext
  match a with
  | ⟨0, _⟩ => show win1_3.index t 0 * 1 + 1 * (x 0).val = (k 0).val; rw [hi.1, hk0]; omega
  | ⟨1, _⟩ => show win1_3.index t 1 * 1 + 1 * (x 1).val = (k 1).val; rw [hi.2, hk1]; omega

/-! ## The running sum -/

/-- The term of listed pair number `n`, read off the arrays (zero past the last pair). -/
def pairTerm (c : Dev nD) (n : ℕ) : EReal :=
  if h : n < 262144 then
    Cert.Loss.term ((V c main_v7 : S1x1.Idx → EReal) (ix2 (0 : Fin 1) (0 : Fin 1))) ((V c main_arg0 : S262144.Idx → EReal) (ix1 ⟨n, h⟩))
      ((V c main_v5 : S2x262144.Idx → EReal) (ix2 (0 : Fin 2) ⟨n, h⟩)) ((V c main_v5 : S2x262144.Idx → EReal) (ix2 (1 : Fin 2) ⟨n, h⟩))
      ((V c main_v6 : S2x262144.Idx → EReal) (ix2 (0 : Fin 2) ⟨n, h⟩)) ((V c main_v6 : S2x262144.Idx → EReal) (ix2 (1 : Fin 2) ⟨n, h⟩))
  else 0

theorem pairTerm_of_lt (c : Dev nD) (n : ℕ) (h : n < 262144) :
    pairTerm V c n =
      Cert.Loss.term ((V c main_v7 : S1x1.Idx → EReal) (ix2 (0 : Fin 1) (0 : Fin 1))) ((V c main_arg0 : S262144.Idx → EReal) (ix1 ⟨n, h⟩))
        ((V c main_v5 : S2x262144.Idx → EReal) (ix2 (0 : Fin 2) ⟨n, h⟩)) ((V c main_v5 : S2x262144.Idx → EReal) (ix2 (1 : Fin 2) ⟨n, h⟩))
        ((V c main_v6 : S2x262144.Idx → EReal) (ix2 (0 : Fin 2) ⟨n, h⟩)) ((V c main_v6 : S2x262144.Idx → EReal) (ix2 (1 : Fin 2) ⟨n, h⟩)) :=
  dif_pos h

/-- One chunk: the body's store at chunk `t` is the running sum before it plus the chunk's terms. -/
theorem step_apply (c : Dev nD) (t : Fin cfg1.N) (s : Vec Ideal S1x1 .f32) :
    k1_pay2 (Kl.iblk V c 0 t) (Kl.iblk V c 1 t) (Kl.iblk V c 3 t) (Kl.iblk V c 2 t) s (ix2 (0 : Fin 1) (0 : Fin 1))
      = s (ix2 (0 : Fin 1) (0 : Fin 1)) + ∑ e : Fin 16384, pairTerm V c (t.val * 16384 + e.val) := by
  refine (PayValue.kl_step _ _ _ _ _ _).trans ?_
  refine congrArg (s (ix2 (0 : Fin 1) (0 : Fin 1)) + ·) (Finset.sum_congr rfl fun e _ => ?_)
  have hN : t.val < 16 := lt_of_lt_of_eq t.isLt N_1
  have hlt : t.val * 16384 + e.val < 262144 := by have := e.isLt; omega
  rw [pairTerm_of_lt V c _ hlt]
  rw [iblk3_apply V c t (ix2 (0 : Fin 1) (0 : Fin 1)) (ix2 (0 : Fin 1) (0 : Fin 1)) rfl rfl,
    iblk2_apply V c t (ix1 e) (ix1 ⟨_, hlt⟩) rfl,
    iblk0_apply V c t (ix2 (0 : Fin 2) e) (ix2 (0 : Fin 2) ⟨_, hlt⟩) rfl rfl,
    iblk0_apply V c t (ix2 (1 : Fin 2) e) (ix2 (1 : Fin 2) ⟨_, hlt⟩) rfl rfl,
    iblk1_apply V c t (ix2 (0 : Fin 2) e) (ix2 (0 : Fin 2) ⟨_, hlt⟩) rfl rfl,
    iblk1_apply V c t (ix2 (1 : Fin 2) e) (ix2 (1 : Fin 2) ⟨_, hlt⟩) rfl rfl]

/-- The same with the chunk given by its number. -/
theorem step_apply' (c : Dev nD) (n : ℕ) (h : n < cfg1.N) (s : Vec Ideal S1x1 .f32) :
    k1_pay2 (Kl.iblk V c 0 ⟨n, h⟩) (Kl.iblk V c 1 ⟨n, h⟩) (Kl.iblk V c 3 ⟨n, h⟩) (Kl.iblk V c 2 ⟨n, h⟩) s (ix2 (0 : Fin 1) (0 : Fin 1))
      = s (ix2 (0 : Fin 1) (0 : Fin 1)) + ∑ e : Fin 16384, pairTerm V c (n * 16384 + e.val) :=
  step_apply V c ⟨n, h⟩ s

/-- After chunk `n` the running sum is the sum of the first `n + 1` chunks' terms. -/
theorem acc_eq (c : Dev nD) : ∀ (n : ℕ) (h : n < cfg1.N),
    Kl.acc (F := Ideal) V c n h (ix2 (0 : Fin 1) (0 : Fin 1))
      = ∑ k ∈ Finset.range (n + 1), ∑ e : Fin 16384, pairTerm V c (k * 16384 + e.val)
  | 0, h => by
    refine (congrFun (Kl.acc_zero V c h) _).trans ?_
    refine (step_apply' V c 0 h _).trans ?_
    rw [PayValue.kl_pay1_zero, zero_add, Finset.sum_range_succ, Finset.sum_range_zero, zero_add]
  | n + 1, h => by
    refine (congrFun (Kl.acc_succ V c n h) _).trans ?_
    refine (step_apply' V c (n + 1) h _).trans ?_
    rw [acc_eq c n (Nat.lt_of_succ_lt h)]
    exact (Finset.sum_range_succ _ (n + 1)).symm

/-- After the last chunk the running sum is the sum of all the listed pairs' terms. -/
theorem acc_last (c : Dev nD) (h : 15 < cfg1.N) :
    Kl.acc (F := Ideal) V c 15 h (ix2 (0 : Fin 1) (0 : Fin 1)) = ∑ e : Fin 262144,
      Cert.Loss.term ((V c main_v7 : S1x1.Idx → EReal) (ix2 (0 : Fin 1) (0 : Fin 1))) ((V c main_arg0 : S262144.Idx → EReal) (ix1 e))
        ((V c main_v5 : S2x262144.Idx → EReal) (ix2 (0 : Fin 2) e)) ((V c main_v5 : S2x262144.Idx → EReal) (ix2 (1 : Fin 2) e))
        ((V c main_v6 : S2x262144.Idx → EReal) (ix2 (0 : Fin 2) e)) ((V c main_v6 : S2x262144.Idx → EReal) (ix2 (1 : Fin 2) e)) := by
  refine (acc_eq V c 15 h).trans ?_
  refine (sum_range_fin _ 16).trans ?_
  refine (chunk_sum (pairTerm V c)).trans ?_
  exact Finset.sum_congr rfl fun e _ => pairTerm_of_lt V c e.val e.isLt

end Cert.KernelIdeal.KlVal

end
-- ==== Proof.KlOut.lean ====
/-
  What the second region's result array holds after the region. The result is one word, a [1, 1] array that is a
  single block; the block is written back once, at the last of the sixteen points, with what the body left there:
  the running sum after the last point. No other point writes the array, and the one block is the whole array, so
  the array ends at that running sum.
-/
import proofs.«400394_j48352741818804_1_alg».proof.Proof.KlData
import Idealize.ShloMosaic.Lib.Pipeline.Value
import Idealize.ShloMosaic.Lib.ValueIdx

set_option maxRecDepth 16384

noncomputable section

namespace Cert.KernelIdeal.KlOut

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- The result's block index is (0, 0) at every point. -/
theorem index_out : ∀ t : Fin cfg1.N, win1_4.index t (0 : Fin 2) = 0 ∧ win1_4.index t (1 : Fin 2) = 0 :=
  (by decide +kernel : ∀ t : Fin grid1.N, _)

/-- The one point that writes the result back is the last. -/
theorem flush_last (t : Fin cfg1.N) (hf : (cfg1.win 4).flush t = true) : t.val = 15 := by
  have h16 : t.val < 16 := lt_of_lt_of_eq t.isLt (show cfg1.N = 16 from N_1)
  have := (flush1_4 t).mp hf
  omega

/-- What a flushing point writes back is its block of the running sum after the last point. -/
theorem flushed_out (c : Dev nD) (h : 15 < cfg1.N) (t : Fin cfg1.N) (hf : (cfg1.win 4).flush t = true) :
    (Kl.dat V c).flushed 4 t
      = ((cfg1.win 4).blk t).view.read (Elt F) (Kl.acc V c 15 h : Buf (Elt F) ((cfg1.win 4).arr.view.loc (c.tc : Thread nD τ))) := by
  have ht : t = ⟨15, h⟩ := Fin.ext (flush_last t hf)
  subst ht
  show (cfg1.win 4).cut (cfg1.grid.coords ⟨15, h⟩) ((Kl.dat V c).after 4 ⟨15, h⟩) = _
  rw [Kl.after_out]
  funext y
  show Kl.acc V c 15 h ((cfg1.win 4).xinj (cfg1.grid.coords ⟨15, h⟩) y)
    = Kl.acc V c 15 h (((cfg1.win 4).blk ⟨15, h⟩).view.emb y)
  obtain ⟨e0, e1⟩ := index_out ⟨15, h⟩
  refine congrArg (Kl.acc V c 15 h) (funext fun a => Fin.ext ?_)
  match a with
  | ⟨0, _⟩ => show (y 0).val = win1_4.index ⟨15, h⟩ (0 : Fin 2) * 1 + 1 * (y 0).val; omega
  | ⟨1, _⟩ => show (y 1).val = win1_4.index ⟨15, h⟩ (1 : Fin 2) * 1 + 1 * (y 1).val; omega

/-- The result's one block is the whole array: every index of the array is in every point's block. -/
theorem mem_blk_out (t : Fin cfg1.N) (i : S1x1.Idx) : i ∈ ((cfg1.win 4).blk t).view.set := by
  show i ∈ ((View.whole main_v8).slice (win1_4.rect t)).set
  rw [View.set_slice_whole, Rect.mem_set_unit]
  obtain ⟨e0, e1⟩ := index_out t
  intro a
  match a with
  | ⟨0, _⟩ =>
    show win1_4.index t (0 : Fin 2) * 1 ≤ (i 0).val ∧ (i 0).val < win1_4.index t (0 : Fin 2) * 1 + 1
    have hi : (i 0).val < 1 := (i 0).isLt
    omega
  | ⟨1, _⟩ =>
    show win1_4.index t (1 : Fin 2) * 1 ≤ (i 1).val ∧ (i 1).val < win1_4.index t (1 : Fin 2) * 1 + 1
    have hi : (i 1).val < 1 := (i 1).isLt
    omega

/-- After the region the result array holds the running sum after the last point. -/
theorem arr_last (c : Dev nD) (h : 15 < cfg1.N) :
    (Kl.dat V c).arrAt 4 cfg1.N
      = (Kl.acc V c 15 h : Buf (Elt F) ((cfg1.win 4).arr.view.loc (c.tc : Thread nD τ))) :=
  (Kl.dat V c).arrAt_eq_of_cover 4 _ (fun t hf => flushed_out V c h t hf)
    (fun i => ⟨⟨15, h⟩, (flush1_4 ⟨15, h⟩).mpr rfl, mem_blk_out ⟨15, h⟩ i⟩)

/-- Its one word is the running sum's word. -/
theorem out_last (c : Dev nD) (h : 15 < cfg1.N) :
    (Kl.dat V c).arrAt 4 cfg1.N (ix2 (0 : Fin 1) (0 : Fin 1)) = Kl.acc V c 15 h (ix2 (0 : Fin 1) (0 : Fin 1)) :=
  congrFun (arr_last V c h) (ix2 (0 : Fin 1) (0 : Fin 1))

end Cert.KernelIdeal.KlOut

end
-- ==== Proof.Rows.lean ====
/-
  The rows both programs gather. A row number below zero counts from the end: it is replaced by itself plus
  8192; the row of the points array at that number (the gather reads the number signed and clamps it into the
  array) is then read once per listed pair.
-/
import proofs.«400394_j48352741818804_1_alg».proof.Proof.LossSpec
import Idealize.ShloMosaic.PureOps

noncomputable section

namespace Cert.Loss

open Idealize.ShloMosaic Idealize.ShloMosaic.ValueIdx

/-- The row numbers as a column: one start index per listed pair. -/
abbrev SCol : Shape := ⟨2, ![262144, 1]⟩
/-- The scalar shape. -/
abbrev S0 : Shape := ⟨0, ![]⟩

theorem bcast_scalar_pairs : S0.BroadcastsInDim SPairs (![] : Fin 0 → Fin SPairs.rank) := by decide
theorem bcast_pairs_col : SPairs.BroadcastsInDim SCol (![0] : Fin 1 → Fin SCol.rank) := by decide

/-- Gathering whole rows of the points array at a column of row numbers. -/
def rowDims : GatherDims SPts SCol SRows where
  offsetDims := [1]
  collapsedSliceDims := [0]
  operandBatchingDims := []
  startIndicesBatchingDims := []
  startIndexMap := [0]
  indexVectorDim := 1
  sliceSizes := ![1, 2]
  wf := by decide

/-- A row number below zero counts from the end: i + 8192 where i < 0, else i. -/
def wrap (i : IVec SPairs 32) : IVec SPairs 32 :=
  select (cmpi .slt i (broadcastInDim SPairs ![] bcast_scalar_pairs (constantI S0 32 0#32)))
    (addi i (broadcastInDim SPairs ![] bcast_scalar_pairs (constantI S0 32 8192#32))) i

/-- The gathered rows: row (wrap i) e of x for each listed pair e. -/
def rows {α : Type} (x : SPts.Idx → α) (i : IVec SPairs 32) : SRows.Idx → α :=
  Host.gather rowDims x (broadcastInDim SCol ![0] bcast_pairs_col (wrap i))

end Cert.Loss

end
-- ==== Proof.TakeRows.lean ====
/-
  The row numbers the precondition admits, and the masked row gather under it.

  The precondition says of both arrays of row numbers that every entry lies in [-8192, 8192). A row number is wrapped
  (8192 is added where it is negative), so a wrapped row number lies in [0, 8191]. One program gathers the rows at the
  wrapped numbers and then replaces every row whose wrapped number is outside [0, 8191] by a fill value; the other gathers
  without that mask. Under the precondition the mask is one everywhere, the fill is never read, and the masked gather is
  the plain one.
-/
import proofs.«400394_j48352741818804_1_alg».proof.Proof.Rows
import proofs.«400394_j48352741818804_1_alg».proof.Pre_finite_inputs
import proofs.«400394_j48352741818804_1_alg».proof.Proof.Gen.Pre_finite_inputs
import Idealize.ShloMosaic.Lib.ReduceAll
import Idealize.ShloMosaic.Lib.StableHlo.Predicate
import Idealize.ShloMosaic.Lib.ValueIdx

noncomputable section

namespace Cert.Loss

open Idealize.ShloMosaic Idealize.ShloMosaic.ValueIdx

/-- The scalar shape has one index. -/
instance : Subsingleton S0.Idx := ⟨fun a b => funext fun d => d.elim0⟩

/-! ## The range the precondition states -/

/-- One word passing both signed tests, -8192 ≤ w and w < 8192 (the lower bound written as its two's complement),
    reads as an integer in [-8192, 8192). -/
theorem range_of_word (w : BitVec 32)
    (h : IntOp.andi (IntOp.cmpi .sge w 4294959104#32) (IntOp.cmpi .slt w 8192#32) = 1#1) :
    -8192 ≤ w.toInt ∧ w.toInt < 8192 := by
  obtain ⟨ha, hb⟩ := IntOp.andi_eq_one.1 h
  have ha' := IntOp.cmpi_sge.1 ha
  have hb' := IntOp.cmpi_slt.1 hb
  rw [show (4294959104#32 : BitVec 32).toInt = -8192 from by decide] at ha'
  rw [show (8192#32 : BitVec 32).toInt = 8192 from by decide] at hb'
  exact ⟨ha', hb'⟩

/-- The precondition is the conjunction of four tests, each an "and" over a whole array; the last two say that every
    entry of the two arrays of row numbers lies in [-8192, 8192). -/
theorem range_of_pre {F : FTy → Type} [FloatOps F] (p : FVec F ⟨1, ![262144]⟩ .f32) (i j : IVec ⟨1, ![262144]⟩ 32)
    (x : FVec F ⟨2, ![8192, 2]⟩ .f32) (h : Cert.Pre_finite_inputs.fn (F := F) p i j x = fun _ => 1#1) :
    (∀ e, -8192 ≤ (i e).toInt ∧ (i e).toInt < 8192) ∧ (∀ e, -8192 ≤ (j e).toInt ∧ (j e).toInt < 8192) := by
  have h' := congrFun h ix0
  dsimp only [Cert.Pre_finite_inputs.fn, Cert.Pre_finite_inputs.fn_part1] at h'
  obtain ⟨h123, hj⟩ := IntOp.andi_eq_one.1 h'
  obtain ⟨-, hi⟩ := IntOp.andi_eq_one.1 h123
  exact ⟨fun e => range_of_word (i e) (Host.reduce_andi_all _ _ _ _ _ hi e),
    fun e => range_of_word (j e) (Host.reduce_andi_all _ _ _ _ _ hj e)⟩

/-! ## A wrapped row number is a row of the array -/

/-- A row number in [-8192, 8192), wrapped (8192 added where it is negative), lies in [0, 8191]: a negative w gives
    w + 8192 in [0, 8191] with no overflow, a nonnegative one is below 8192 already. -/
theorem wrap_in_range (w : BitVec 32) (h : -8192 ≤ w.toInt ∧ w.toInt < 8192) :
    IntOp.cmpi .sge (Scalar.select (IntOp.cmpi .slt w 0#32) (IntOp.addi w 8192#32) w) 0#32 = 1#1 ∧
      IntOp.cmpi .sle (Scalar.select (IntOp.cmpi .slt w 0#32) (IntOp.addi w 8192#32) w) 8191#32 = 1#1 := by
  have h0 : (0#32 : BitVec 32).toInt = 0 := by decide
  have h1 : (8191#32 : BitVec 32).toInt = 8191 := by decide
  have h2 : (8192#32 : BitVec 32).toInt = 8192 := by decide
  rw [IntOp.cmpi_sge, IntOp.cmpi_sle, h0, h1]
  by_cases hc : IntOp.cmpi .slt w 0#32 = 1#1
  · have hneg := IntOp.cmpi_slt.1 hc
    rw [h0] at hneg
    have hv : Scalar.select (IntOp.cmpi .slt w 0#32) (IntOp.addi w 8192#32) w = w + 8192#32 := if_pos hc
    rw [hv, BitVec.toInt_add, h2, Int.bmod_eq_of_le (by omega) (by omega)]
    omega
  · have hnn : ¬ w.toInt < 0 := fun hlt => hc (IntOp.cmpi_slt.2 (by rw [h0]; exact hlt))
    have hv : Scalar.select (IntOp.cmpi .slt w 0#32) (IntOp.addi w 8192#32) w = w := if_neg hc
    rw [hv]
    omega

/-- The wrapped row numbers read at a listed pair. -/
theorem wrap_apply (i : IVec SPairs 32) (e : SPairs.Idx) :
    wrap i e = Scalar.select (IntOp.cmpi .slt (i e) 0#32) (IntOp.addi (i e) 8192#32) (i e) := rfl

/-! ## The mask is one everywhere -/

/-- A reduction by "and", from 1, of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ k, x k = 1#1) (hi : ∀ k, init k = 1#1) :
    Host.reduce IntOp.andi x init h hu j = 1#1 := by
  rw [Host.reduce_eq_foldl, hi]
  generalize (((List.finRange s.numel).map s.rowMajor.symm).filter fun k => h.drop k = j) = l
  induction l with
  | nil => rfl
  | cons a l ih => rw [List.foldl_cons, hx a]; exact ih

/-- The mask of the gather, one bit per listed pair: the column of wrapped row numbers tested against 0 from below and
    8191 from above, the two tests joined by "and" and reduced by "and" along the column's axis of extent one. Under
    the range of the row numbers it is one at every listed pair. -/
theorem take_mask_one (i : IVec SPairs 32)
    (hbc : SPairs.BroadcastsInDim SCol (![0] : Fin 1 → Fin SCol.rank))
    (hb0 : S0.BroadcastsInDim SCol (![] : Fin 0 → Fin SCol.rank))
    (hb1 : (⟨1, ![1]⟩ : Shape).BroadcastsInDim (⟨2, ![1, 1]⟩ : Shape) (![1] : Fin 1 → Fin 2))
    (hb2 : (⟨2, ![1, 1]⟩ : Shape).BroadcastsInDim SCol (![0, 1] : Fin 2 → Fin SCol.rank))
    (hr : SCol.ReducesTo [1] SPairs) (hu : 0 < S0.numel)
    (h : ∀ e, -8192 ≤ (i e).toInt ∧ (i e).toInt < 8192) (e : SPairs.Idx) :
    Host.reduce IntOp.andi
        (andi
          (cmpi .sge (broadcastInDim SCol ![0] hbc (wrap i)) (broadcastInDim SCol ![] hb0 (constantI S0 32 0#32)))
          (cmpi .sle (broadcastInDim SCol ![0] hbc (wrap i))
            (broadcastInDim SCol ![0, 1] hb2
              (broadcastInDim (⟨2, ![1, 1]⟩ : Shape) ![1] hb1 (constantI (⟨1, ![1]⟩ : Shape) 32 8191#32)))))
        (constantI S0 1 1#1) hr hu e = 1#1 := by
  refine reduce_andi_of_all _ _ hr hu e (fun k => ?_) (fun _ => rfl)
  show IntOp.andi (IntOp.cmpi .sge (wrap i _) 0#32) (IntOp.cmpi .sle (wrap i _) 8191#32) = 1#1
  rw [wrap_apply]
  exact IntOp.andi_eq_one.2 (wrap_in_range _ (h _))

/-! ## The masked gather is the plain one -/

/-- Selecting by that mask, spread along the rows, between any array of rows and any fill gives the array of rows. -/
theorem take_select_eq {α : Type} (g fill : SRows.Idx → α) (i : IVec SPairs 32)
    (hbc : SPairs.BroadcastsInDim SCol (![0] : Fin 1 → Fin SCol.rank))
    (hb0 : S0.BroadcastsInDim SCol (![] : Fin 0 → Fin SCol.rank))
    (hb1 : (⟨1, ![1]⟩ : Shape).BroadcastsInDim (⟨2, ![1, 1]⟩ : Shape) (![1] : Fin 1 → Fin 2))
    (hb2 : (⟨2, ![1, 1]⟩ : Shape).BroadcastsInDim SCol (![0, 1] : Fin 2 → Fin SCol.rank))
    (hr : SCol.ReducesTo [1] SPairs) (hu : 0 < S0.numel)
    (hbm : SPairs.BroadcastsInDim SRows (![0] : Fin 1 → Fin SRows.rank))
    (h : ∀ e, -8192 ≤ (i e).toInt ∧ (i e).toInt < 8192) :
    select (broadcastInDim SRows ![0] hbm
        (Host.reduce IntOp.andi
          (andi
            (cmpi .sge (broadcastInDim SCol ![0] hbc (wrap i)) (broadcastInDim SCol ![] hb0 (constantI S0 32 0#32)))
            (cmpi .sle (broadcastInDim SCol ![0] hbc (wrap i))
              (broadcastInDim SCol ![0, 1] hb2
                (broadcastInDim (⟨2, ![1, 1]⟩ : Shape) ![1] hb1 (constantI (⟨1, ![1]⟩ : Shape) 32 8191#32)))))
          (constantI S0 1 1#1) hr hu))
      g fill
    = g := by
  funext r
  rw [select_apply]
  have hm : broadcastInDim SRows ![0] hbm
        (Host.reduce IntOp.andi
          (andi
            (cmpi .sge (broadcastInDim SCol ![0] hbc (wrap i)) (broadcastInDim SCol ![] hb0 (constantI S0 32 0#32)))
            (cmpi .sle (broadcastInDim SCol ![0] hbc (wrap i))
              (broadcastInDim SCol ![0, 1] hb2
                (broadcastInDim (⟨2, ![1, 1]⟩ : Shape) ![1] hb1 (constantI (⟨1, ![1]⟩ : Shape) 32 8191#32)))))
          (constantI S0 1 1#1) hr hu) r = 1#1 :=
    take_mask_one i hbc hb0 hb1 hb2 hr hu h _
  rw [hm, select_one]

/-- The masked gather of the rows at the wrapped row numbers is the gathered rows. -/
theorem take_eq {α : Type} (x : SPts.Idx → α) (fill : SRows.Idx → α) (i : IVec SPairs 32)
    (hb0 : S0.BroadcastsInDim SCol (![] : Fin 0 → Fin SCol.rank))
    (hb1 : (⟨1, ![1]⟩ : Shape).BroadcastsInDim (⟨2, ![1, 1]⟩ : Shape) (![1] : Fin 1 → Fin 2))
    (hb2 : (⟨2, ![1, 1]⟩ : Shape).BroadcastsInDim SCol (![0, 1] : Fin 2 → Fin SCol.rank))
    (hr : SCol.ReducesTo [1] SPairs) (hu : 0 < S0.numel)
    (hbm : SPairs.BroadcastsInDim SRows (![0] : Fin 1 → Fin SRows.rank))
    (h : ∀ e, -8192 ≤ (i e).toInt ∧ (i e).toInt < 8192) :
    select (broadcastInDim SRows ![0] hbm
        (Host.reduce IntOp.andi
          (andi
            (cmpi .sge (broadcastInDim SCol ![0] bcast_pairs_col (wrap i))
              (broadcastInDim SCol ![] hb0 (constantI S0 32 0#32)))
            (cmpi .sle (broadcastInDim SCol ![0] bcast_pairs_col (wrap i))
              (broadcastInDim SCol ![0, 1] hb2
                (broadcastInDim (⟨2, ![1, 1]⟩ : Shape) ![1] hb1 (constantI (⟨1, ![1]⟩ : Shape) 32 8191#32)))))
          (constantI S0 1 1#1) hr hu))
      (Host.gather rowDims x (broadcastInDim SCol ![0] bcast_pairs_col (wrap i))) fill
    = rows x i :=
  take_select_eq _ fill i bcast_pairs_col hb0 hb1 hb2 hr hu hbm h

end Cert.Loss

end
-- ==== Proof.KernelHost.lean ====
/-
  The values the host operations of the program leave at the boundaries between its items.

  Between its two regions the program runs four stretches of host operations: a cast and a subtraction (the partition
  sum less the number of points), two calls of the masked take (one per array of row numbers), and two transposes and a
  cast. After the second region one cast makes the result a scalar. Each value is read off the stretch that writes it,
  over what the stretch finds; no stretch writes an argument. Under the range of the row numbers the masked take is the
  plain gather of the rows.
-/
import proofs.«400394_j48352741818804_1_alg».proof.Proof.RegionsValue
import proofs.«400394_j48352741818804_1_alg».proof.Proof.TakeRows
import proofs.«400394_j48352741818804_1_alg».proof.Proof.Rows
import proofs.«400394_j48352741818804_1_alg».proof.Proof.LossSpec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostVal

open Cert.KernelIdeal Cert.KernelIdeal.Gen
open Idealize.ShloMosaic Idealize.ShloMosaic.TcCoe Idealize.ShloMosaic.ValueIdx
open Idealize.SL.Sem Idealize.ShloMosaic.StableHlo
open Cert.Loss (SPts SPairs SRows SCol S0)

section AnyF
variable {F : FTy → Type} [FloatOps F]
variable (m : (ℓ : Loc nD τ sig) → Buf (Elt F) ℓ) (outs : GenV.Outs (F := F))

/-- A [1, 1] array has one index. -/
theorem idx11 (j : S1x1.Idx) : j = ix2 (0 : Fin 1) (0 : Fin 1) := by
  rw [eq_ix2 j]
  congr 1
  · exact Fin.ext (Nat.lt_one_iff.mp (idx2_lt0 j))
  · exact Fin.ext (Nat.lt_one_iff.mp (idx2_lt1 j))

/-- The result: the last host stretch casts the [1, 1] array the second region leaves to a scalar. -/
theorem v9_eq (c : Dev nD) :
    GenV.V7 m outs c main_v9 = fun _ => outs 6 main_v8 c (ix2 (0 : Fin 1) (0 : Fin 1)) := by
  show StableHlo.after hostOps2 (GenV.V6 m outs c) (Proc.devRef .tc main_v9) = _
  after_results
  funext i
  have e6 : GenV.V6 m outs c (Proc.devRef .tc main_v8) = outs 6 main_v8 c := Function.update_self ..
  show shapeCast S_ (GenV.V6 m outs c (Proc.devRef .tc main_v8)) Facts₀.shapeCasts_S1x1_S_ i = _
  rw [e6]
  exact congrArg (outs 6 main_v8 c) (idx11 _)

/-- No item before the second region writes the probabilities. -/
theorem arg0_eq (c : Dev nD) : GenV.V5 m outs c main_arg0 = m ((c : Thread nD τ).loc main_arg0) :=
  (GenV.V5_of m outs c main_arg0 (by decide)).trans <| (GenV.V4_of m outs c main_arg0 (by decide)).trans <|
    (GenV.V3_of m outs c main_arg0 (by decide)).trans <| (GenV.V2_of m outs c main_arg0 (by decide)).trans <|
    (GenV.V1_of m outs c main_arg0 (by decide)).trans rfl

/-- At launch the points are the launch memory's. -/
theorem arg3_eq (c : Dev nD) : GenV.V0 m c main_arg3 = m ((c : Thread nD τ).loc main_arg3) := rfl

/-- The masked take as the program composes it, over an array of points and an array of row numbers. -/
abbrev takeTerm (x : SPts.Idx → F .f32) (i : IVec SPairs 32) : SRows.Idx → F .f32 :=
  select (broadcastInDim S262144x2 ![0] Facts₀.bcast_S262144_S262144x2_0
      (Host.reduce IntOp.andi
        (andi
          (cmpi .sge (broadcastInDim S262144x1 ![0] Facts₀.bcast_S262144_S262144x1_0 (Cert.Loss.wrap i))
            (broadcastInDim S262144x1 ![] Facts₀.bcast_S_S262144x1 (constantI S_ 32 0#32)))
          (cmpi .sle (broadcastInDim S262144x1 ![0] Facts₀.bcast_S262144_S262144x1_0 (Cert.Loss.wrap i))
            (broadcastInDim S262144x1 ![0, 1] Facts₀.bcast_S1x1_S262144x1_0_1
              (broadcastInDim S1x1 ![1] Facts₀.bcast_S1_S1x1_1 (constantI S1 32 8191#32)))))
        (constantI S_ 1 1#1) Facts₀.reducesTo_S262144x1_S262144_d1 Facts₀.h_S_))
    (Host.gather gather_S8192x2_S262144x1_S262144x2_1_0_n_n_0_1_12 x
      (broadcastInDim S262144x1 ![0] Facts₀.bcast_S262144_S262144x1_0 (Cert.Loss.wrap i)))
    (broadcastInDim S262144x2 ![] Facts₀.bcast_S_S262144x2 (constant (F := F) S_ .f32 0x7FC00000#32))

/-- The first call of the take leaves the masked take of the points at the first array of row numbers: no item before it
    writes either argument. -/
theorem v3_eq (c : Dev nD) :
    GenV.V3 m outs c main_v3 = takeTerm (m ((c : Thread nD τ).loc main_arg3)) (m ((c : Thread nD τ).loc main_arg1)) := by
  show StableHlo.after hostOps1_1 (GenV.V2 m outs c) (Proc.devRef .tc main_v3) = _
  after_results_simp
  simp only [TRef.ofBuf, TRef.toBuf, cast_eq]
  rw [GenV.V1_of m outs c main_arg1 (by decide), GenV.V1_of m outs c main_arg3 (by decide)]
  rfl

/-- The second call leaves the masked take at the second array of row numbers. -/
theorem v4_eq (c : Dev nD) :
    GenV.V4 m outs c main_v4 = takeTerm (m ((c : Thread nD τ).loc main_arg3)) (m ((c : Thread nD τ).loc main_arg2)) := by
  show StableHlo.after hostOps1_2 (GenV.V3 m outs c) (Proc.devRef .tc main_v4) = _
  after_results_simp
  simp only [TRef.ofBuf, TRef.toBuf, cast_eq]
  rw [GenV.V1_of m outs c main_arg2 (by decide), GenV.V1_of m outs c main_arg3 (by decide)]
  rfl

/-- Under the range of the row numbers the masked take is the gathered rows. -/
theorem takeTerm_eq (x : SPts.Idx → F .f32) (i : IVec SPairs 32)
    (h : ∀ e, -8192 ≤ (i e).toInt ∧ (i e).toInt < 8192) : takeTerm x i = Cert.Loss.rows x i :=
  Cert.Loss.take_select_eq _ _ i Facts₀.bcast_S262144_S262144x1_0 Facts₀.bcast_S_S262144x1 Facts₀.bcast_S1_S1x1_1
    Facts₀.bcast_S1x1_S262144x1_0_1 Facts₀.reducesTo_S262144x1_S262144_d1 Facts₀.h_S_ Facts₀.bcast_S262144_S262144x2_0 h

/-- The first transpose of the last host stretch, over whatever the stretch finds. -/
theorem v5_transpose (c : Dev nD) :
    GenV.V5 m outs c main_v5
      = transpose S2x262144 [1, 0] (GenV.V4 m outs c (Proc.devRef .tc main_v3) : S262144x2.Idx → F .f32)
          Facts₀.transposes_S262144x2_S2x262144_1_0 := by
  show StableHlo.after hostOps1_3 (GenV.V4 m outs c) (Proc.devRef .tc main_v5) = _
  generalize GenV.V4 m outs c = W
  after_results

/-- Likewise for the second array of rows. -/
theorem v6_transpose (c : Dev nD) :
    GenV.V5 m outs c main_v6
      = transpose S2x262144 [1, 0] (GenV.V4 m outs c (Proc.devRef .tc main_v4) : S262144x2.Idx → F .f32)
          Facts₀.transposes_S262144x2_S2x262144_1_0 := by
  show StableHlo.after hostOps1_3 (GenV.V4 m outs c) (Proc.devRef .tc main_v6) = _
  generalize GenV.V4 m outs c = W
  after_results

/-- The second region's first window array: the gathered rows at the first array of row numbers, transposed. -/
theorem v5_eq (c : Dev nD)
    (hi : ∀ e, -8192 ≤ ((m ((c : Thread nD τ).loc main_arg1) : IVec SPairs 32) e).toInt
      ∧ ((m ((c : Thread nD τ).loc main_arg1) : IVec SPairs 32) e).toInt < 8192)
    (d : Fin 2) (e : Fin 262144) :
    GenV.V5 m outs c main_v5 (ix2 d e)
      = Cert.Loss.rows (m ((c : Thread nD τ).loc main_arg3)) (m ((c : Thread nD τ).loc main_arg1)) (ix2 e d) := by
  refine (congrFun (v5_transpose m outs c) (ix2 d e)).trans ?_
  refine (transpose_ix2_apply _ _ d e).trans ?_
  have e3 : (GenV.V4 m outs c (Proc.devRef .tc main_v3) : S262144x2.Idx → F .f32)
      = Cert.Loss.rows (m ((c : Thread nD τ).loc main_arg3)) (m ((c : Thread nD τ).loc main_arg1)) :=
    (GenV.V4_of m outs c main_v3 (by decide)).trans ((v3_eq m outs c).trans (takeTerm_eq _ _ hi))
  exact congrFun e3 (ix2 e d)

/-- The second region's second window array: the gathered rows at the second array of row numbers, transposed. -/
theorem v6_eq (c : Dev nD)
    (hj : ∀ e, -8192 ≤ ((m ((c : Thread nD τ).loc main_arg2) : IVec SPairs 32) e).toInt
      ∧ ((m ((c : Thread nD τ).loc main_arg2) : IVec SPairs 32) e).toInt < 8192)
    (d : Fin 2) (e : Fin 262144) :
    GenV.V5 m outs c main_v6 (ix2 d e)
      = Cert.Loss.rows (m ((c : Thread nD τ).loc main_arg3)) (m ((c : Thread nD τ).loc main_arg2)) (ix2 e d) := by
  refine (congrFun (v6_transpose m outs c) (ix2 d e)).trans ?_
  refine (transpose_ix2_apply _ _ d e).trans ?_
  have e4 : (GenV.V4 m outs c (Proc.devRef .tc main_v4) : S262144x2.Idx → F .f32)
      = Cert.Loss.rows (m ((c : Thread nD τ).loc main_arg3)) (m ((c : Thread nD τ).loc main_arg2)) :=
    (v4_eq m outs c).trans (takeTerm_eq _ _ hj)
  exact congrFun e4 (ix2 e d)

end AnyF

section AtIdeal
variable (m : (ℓ : Loc nD τ sig) → Buf (Elt Ideal) ℓ) (outs : GenV.Outs (F := Ideal))

/-- What the first region leaves in its output array, at its literal type. -/
abbrev out0 (c : Dev nD) : S1x1.Idx → EReal := outs 1 main_v0 c

/-- The second region's fourth window array: what the first region leaves, cast to a scalar, less the number of points, cast
    back to [1, 1]. The casts move the one entry; the constant's word is the number of points. -/
theorem v7_eq (c : Dev nD) :
    (GenV.V5 m outs c main_v7 : S1x1.Idx → EReal) (ix2 (0 : Fin 1) (0 : Fin 1))
      = out0 outs c (ix2 (0 : Fin 1) (0 : Fin 1)) - Cert.Loss.npts := by
  have e1 : GenV.V1 m outs c (Proc.devRef .tc main_v0) = outs 1 main_v0 c := Function.update_self ..
  show (StableHlo.after hostOps1_3 (GenV.V4 m outs c) (Proc.devRef .tc main_v7) : S1x1.Idx → EReal) (ix2 (0 : Fin 1) (0 : Fin 1)) = _
  after_results
  show (shapeCast S_ (GenV.V1 m outs c (Proc.devRef .tc main_v0) : S1x1.Idx → EReal) Facts₀.shapeCasts_S1x1_S_ _ : EReal)
    - Cert.Loss.npts = _
  rw [e1]
  exact congrArg (fun a : EReal => a - Cert.Loss.npts) (congrArg (outs 1 main_v0 c) (idx11 _))

end AtIdeal

end Cert.KernelIdeal.HostVal

end
-- ==== Proof.RefLoss.lean ====
/-
  The reference's value. The reference computes, from the points x, the squared norm of every row (a sum over the
  two coordinates that starts from zero), the matrix of inner products of the rows, and from these the squared
  distance |a|² + |b|² − 2 a·b of every ordered pair of points; the Student-t weights 1 / (1 + that) are summed
  over all ordered pairs, starting from zero, and the number of points is taken off: the partition value. For each
  listed pair it gathers the two rows, forms 1 / (0 + ((1 + d₀²) + (1 + d₁²))), divides by the partition value, and
  sums p · (log p − log of that) over the listed pairs, starting from zero. Index by index this is the loss of the
  specification: zero is neutral for the sum of extended reals, the two ones of a listed pair are the two, and the
  gathered rows are the specification's rows (the same gather at the same wrapped row numbers).
-/
import proofs.«400394_j48352741818804_1_alg».proof.Proof.Gen.ReferenceIdeal.Run
import proofs.«400394_j48352741818804_1_alg».proof.Proof.Gen.ReferenceIdeal.Read
import proofs.«400394_j48352741818804_1_alg».proof.Proof.LossSpec
import proofs.«400394_j48352741818804_1_alg».proof.Proof.Rows
import proofs.«400394_j48352741818804_1_alg».proof.Proof.LossSums
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ### Sums over a rank-one index set -/

/-- A rank-one index set is its coordinate's range, so a sum over it is the sum over the coordinate. -/
theorem sum_idx1 {M : Type*} [AddCommMonoid M] {n : Nat} (f : (⟨1, ![n]⟩ : Shape).Idx → M) :
    ∑ q, f q = ∑ e : Fin n, f (ix1 e) := by
  let E : (⟨1, ![n]⟩ : Shape).Idx ≃ Fin n :=
    ⟨fun q => q 0, fun e => ix1 e, fun q => (eq_ix1 q).symm, fun _ => rfl⟩
  rw [← Equiv.sum_comp E.symm f]
  rfl

/-! ### The partition value -/

/-- The squared norm of row a: the sum of the squares of its two coordinates, started from zero. -/
theorem sq_row (x : FVec Ideal S8192x2 .f32) (a : Fin 8192) :
    val_main_v1 (F := Ideal) x (ix1 a)
      = x (ix2 a (0 : Fin 2)) * x (ix2 a (0 : Fin 2)) + x (ix2 a (1 : Fin 2)) * x (ix2 a (1 : Fin 2)) := by
  have e0 : idx_main_v1 (ix1 a) 0 = ix2 a (0 : Fin 2) :=
    funext fun d => Fin.ext (by match d with | ⟨0, _⟩ => rfl | ⟨1, _⟩ => rfl)
  have e1 : idx_main_v1 (ix1 a) 1 = ix2 a (1 : Fin 2) :=
    funext fun d => Fin.ext (by match d with | ⟨0, _⟩ => rfl | ⟨1, _⟩ => rfl)
  rw [val_main_v1_apply, Fin.sum_univ_two, val_main_v0_apply, val_main_v0_apply, val_main_cst_apply, e0, e1]
  simp only [Ideal.ofBits_def, Ideal.ofBits_zero_f32, Ideal.mulf_def, zero_add]

/-- The reference's weight of the ordered pair (a, b) is the specification's. -/
theorem weight_at (x : FVec Ideal S8192x2 .f32) (a b : Fin 8192) :
    val_main_v15 (F := Ideal) x (ix2 a b) = Cert.Loss.weightAt x a b := by
  have ea : idx_main_v2 (idx_main_v4 (ix2 a b)) = ix1 a :=
    funext fun d => Fin.ext (by match d with | ⟨0, _⟩ => rfl)
  have eb : idx_main_v3 (idx_main_v5 (ix2 a b)) = ix1 b :=
    funext fun d => Fin.ext (by match d with | ⟨0, _⟩ => rfl)
  have l0 : lidx_main_v8 (ix2 a b) 0 = ix2 a (0 : Fin 2) :=
    funext fun d => Fin.ext (by match d with | ⟨0, _⟩ => rfl | ⟨1, _⟩ => rfl)
  have l1 : lidx_main_v8 (ix2 a b) 1 = ix2 a (1 : Fin 2) :=
    funext fun d => Fin.ext (by match d with | ⟨0, _⟩ => rfl | ⟨1, _⟩ => rfl)
  have r0 : idx_main_v7 (ridx_main_v8 (ix2 a b) 0) = ix2 b (0 : Fin 2) :=
    funext fun d => Fin.ext (by match d with | ⟨0, _⟩ => rfl | ⟨1, _⟩ => rfl)
  have r1 : idx_main_v7 (ridx_main_v8 (ix2 a b) 1) = ix2 b (1 : Fin 2) :=
    funext fun d => Fin.ext (by match d with | ⟨0, _⟩ => rfl | ⟨1, _⟩ => rfl)
  rw [val_main_v15_apply, val_main_v14_apply, val_main_cst_2_apply, val_main_v13_apply, val_main_v12_apply,
    val_main_cst_1_apply, val_main_v11_apply, val_main_v6_apply, val_main_v4_apply, val_main_v2_apply, val_main_v5_apply,
    val_main_v3_apply, ea, eb, sq_row, sq_row, val_main_v10_apply, val_main_v9_apply, val_main_cst_0_apply,
    val_main_v8_apply, Fin.sum_univ_two, val_main_v7_apply, val_main_v7_apply, l0, l1, r0, r1]
  simp only [Cert.Loss.weightAt, Cert.Loss.weight, Ideal.ofBits_def, Ideal.hostDivf_def, Ideal.addf_def, Ideal.subf_def,
    Ideal.mulf_def]

/-- The reference's partition value is the specification's. -/
theorem partition_eq (x : FVec Ideal S8192x2 .f32) (q : S_.Idx) :
    val_main_v17 (F := Ideal) x q = Cert.Loss.partition x := by
  rw [val_main_v17_apply, val_main_v16_apply, val_main_cst_3_apply, val_main_cst_4_apply,
    sum_idx2 (fun t => val_main_v15 (F := Ideal) x t)]
  simp only [weight_at, Cert.Loss.partition, Cert.Loss.weightSum, Ideal.ofBits_def, Ideal.ofBits_zero_f32, Ideal.subf_def,
    zero_add]

/-! ### The gathered rows -/

/-- The first gather reads the specification's rows at the first list of row numbers. -/
theorem rows_i (i : IVec S262144 32) (x : FVec Ideal S8192x2 .f32) :
    val_main_v24 (F := Ideal) i x = Cert.Loss.rows x i := rfl

/-- The second gather reads the specification's rows at the second list of row numbers. -/
theorem rows_j (j : IVec S262144 32) (x : FVec Ideal S8192x2 .f32) :
    val_main_v31 (F := Ideal) j x = Cert.Loss.rows x j := rfl

/-! ### The listed pairs' terms and the loss -/

/-- The reference's summand of listed pair e is the specification's term at the partition value. -/
theorem term_at (p : FVec Ideal S262144 .f32) (i j : IVec S262144 32) (x : FVec Ideal S8192x2 .f32) (e : Fin 262144) :
    val_main_v44 (F := Ideal) p i j x (ix1 e)
      = Cert.Loss.termAt (Cert.Loss.partition x) p (Cert.Loss.rows x i) (Cert.Loss.rows x j) e := by
  have e0 : idx_main_v36 (ix1 e) 0 = ix2 e (0 : Fin 2) :=
    funext fun d => Fin.ext (by match d with | ⟨0, _⟩ => rfl | ⟨1, _⟩ => rfl)
  have e1 : idx_main_v36 (ix1 e) 1 = ix2 e (1 : Fin 2) :=
    funext fun d => Fin.ext (by match d with | ⟨0, _⟩ => rfl | ⟨1, _⟩ => rfl)
  rw [val_main_v44_apply, val_main_v43_apply, val_main_v41_apply, val_main_v42_apply, val_main_v40_apply,
    val_main_v39_apply, partition_eq, val_main_v38_apply, val_main_v37_apply, val_main_cst_10_apply, val_main_v36_apply,
    val_main_cst_9_apply, Fin.sum_univ_two, e0, e1]
  simp only [val_main_v35_apply, val_main_v34_apply, val_main_cst_8_apply, val_main_v33_apply, val_main_v32_apply, rows_i,
    rows_j, Ideal.ofBits_def, Ideal.ofBits_zero_f32, Ideal.hostDivf_def, Ideal.hostUnary_log_def, Ideal.addf_def,
    Ideal.subf_def, Ideal.mulf_def]
  rw [Cert.Loss.pair_norm]
  rfl

/-- The reference's result is the loss of its arguments. -/
theorem result_eq (p : FVec Ideal S262144 .f32) (i j : IVec S262144 32) (x : FVec Ideal S8192x2 .f32) :
    val_main_v45 (F := Ideal) p i j x
      = fun _ => Cert.Loss.loss x p (Cert.Loss.rows x i) (Cert.Loss.rows x j) := by
  funext q
  rw [val_main_v45_apply, val_main_cst_11_apply, sum_idx1 (fun t => val_main_v44 (F := Ideal) p i j x t)]
  simp only [term_at, Cert.Loss.loss, Ideal.ofBits_def, Ideal.ofBits_zero_f32, zero_add]

/-- Every weakly fair execution of the reference ends with its result at the loss of the argument arrays, the
    arguments unchanged. -/
theorem run_loss (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v45)
        = (fun _ => Cert.Loss.loss (m ((c.tc : Thread nD τ).loc main_arg3)) (m ((c.tc : Thread nD τ).loc main_arg0))
            (Cert.Loss.rows (m ((c.tc : Thread nD τ).loc main_arg3)) (m ((c.tc : Thread nD τ).loc main_arg1)))
            (Cert.Loss.rows (m ((c.tc : Thread nD τ).loc main_arg3)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono
    (fun _ h c => ⟨(h c).1.trans ((val_main_v45_eq _ _ _ _).trans (result_eq _ _ _ _)), (h c).2⟩)
    (Cert.ReferenceIdeal.Value.run (F := Ideal) m ρ)

end Cert.ReferenceIdeal.RefValue

end
-- ==== Proof.Claims.lean ====
/-
  The claims, from the two programs' runs.

  The kernel program's result, under the precondition: the last host operation reshapes region 1's one-by-one
  result, which after the last grid point holds the sum over all listed pairs of p · (log p − log ((1 / (d₀² + d₁² + 2))
  / part)); there `part` is region 0's result less 8192, region 0's result after its last point being the sum of the
  Student-t weights over all ordered pairs of points, and the two row arrays are the gathered rows: the precondition
  keeps every row number in [−8192, 8192), where the kernel's range mask is all ones. The reference's run ends at the
  same function of arguments that agree. The three frames are the runs with the result dropped.
-/
import proofs.«400394_j48352741818804_1_alg».proof.Defs
import proofs.«400394_j48352741818804_1_alg».proof.Proof.MainRun
import proofs.«400394_j48352741818804_1_alg».proof.Proof.MainRunBits
import proofs.«400394_j48352741818804_1_alg».proof.Proof.PartValue
import proofs.«400394_j48352741818804_1_alg».proof.Proof.PartOut
import proofs.«400394_j48352741818804_1_alg».proof.Proof.KlValue
import proofs.«400394_j48352741818804_1_alg».proof.Proof.KlOut
import proofs.«400394_j48352741818804_1_alg».proof.Proof.KernelHost
import proofs.«400394_j48352741818804_1_alg».proof.Proof.TakeRows
import proofs.«400394_j48352741818804_1_alg».proof.Proof.RefLoss
import proofs.«400394_j48352741818804_1_alg».proof.Proof.Gen.Pre_finite_inputs

noncomputable section

namespace Cert.KernelIdeal.Result

open Cert.KernelIdeal Cert.KernelIdeal.Gen
open Idealize.ShloMosaic Idealize.ShloMosaic.TcCoe Idealize.ShloMosaic.ValueIdx Idealize.SL.Sem

/-- Under the precondition the kernel program's result is the loss of its arguments. -/
theorem result_eq (m : (ℓ : Loc nD τ sig) → Buf (Elt Ideal) ℓ) (hpre : Cert.Pre_KernelIdeal m) (c : Dev nD) :
    GenV.V7 m (MainRun.outs m) c main_v9
      = fun _ => Cert.Loss.loss (m ((c.tc : Thread nD τ).loc main_arg3)) (m ((c.tc : Thread nD τ).loc main_arg0))
          (Cert.Loss.rows (m ((c.tc : Thread nD τ).loc main_arg3)) (m ((c.tc : Thread nD τ).loc main_arg1)))
          (Cert.Loss.rows (m ((c.tc : Thread nD τ).loc main_arg3)) (m ((c.tc : Thread nD τ).loc main_arg2))) := by
  obtain ⟨hi, hj⟩ := Cert.Loss.range_of_pre _ _ _ _ (hpre c)
  have h15 : 15 < cfg1.N := by rw [show cfg1.N = 16 from N_1]; decide
  have h63 : 63 < cfg0.N := by rw [show cfg0.N = 64 from N_0]; decide
  have e7 : GenV.V5 m (MainRun.outs m) c main_v7 = MainRun.Ve5 m c main_v7 := congrFun (MainRun.V5_eq m c) _
  have e5 : GenV.V5 m (MainRun.outs m) c main_v5 = MainRun.Ve5 m c main_v5 := congrFun (MainRun.V5_eq m c) _
  have e6 : GenV.V5 m (MainRun.outs m) c main_v6 = MainRun.Ve5 m c main_v6 := congrFun (MainRun.V5_eq m c) _
  have e0 : GenV.V5 m (MainRun.outs m) c main_arg0 = MainRun.Ve5 m c main_arg0 := congrFun (MainRun.V5_eq m c) _
  -- region 0's result is the sum of the weights over all ordered pairs of points
  have hw : HostVal.out0 (MainRun.outs m) c (ix2 (0 : Fin 1) (0 : Fin 1))
      = Cert.Loss.weightSum (m ((c.tc : Thread nD τ).loc main_arg3)) := by
    unfold HostVal.out0
    rw [MainRun.outs_1]
    exact (PartOut.out_last (MainRun.Ve0 m) c h63).trans (PartVal.acc_last (MainRun.Ve0 m) c h63)
  -- the partition value region 1 reads
  have hpart : (MainRun.Ve5 m c main_v7 : S1x1.Idx → EReal) (ix2 (0 : Fin 1) (0 : Fin 1))
      = Cert.Loss.partition (m ((c.tc : Thread nD τ).loc main_arg3)) := by
    rw [← e7, HostVal.v7_eq, hw]
    rfl
  rw [HostVal.v9_eq]
  funext _
  rw [MainRun.outs_6]
  have hk : @Eq EReal (MainRun.o6 m c (ix2 (0 : Fin 1) (0 : Fin 1))) _ :=
    (show @Eq EReal (MainRun.o6 m c (ix2 (0 : Fin 1) (0 : Fin 1)))
        (Kl.acc (F := Ideal) (MainRun.Ve5 m) c 15 h15 (ix2 (0 : Fin 1) (0 : Fin 1))) from KlOut.out_last (MainRun.Ve5 m) c h15).trans
      (KlVal.acc_last (MainRun.Ve5 m) c h15)
  show @Eq EReal (MainRun.o6 m c (ix2 (0 : Fin 1) (0 : Fin 1))) _
  refine hk.trans ?_
  unfold Cert.Loss.loss
  refine Finset.sum_congr rfl fun e _ => ?_
  unfold Cert.Loss.termAt
  rw [hpart, ← e0, HostVal.arg0_eq, ← e5, ← e6, HostVal.v5_eq m _ c hi, HostVal.v5_eq m _ c hi, HostVal.v6_eq m _ c hj, HostVal.v6_eq m _ c hj]

end Cert.KernelIdeal.Result

namespace Cert.Proof.Claims

open Idealize.ShloMosaic Idealize.ShloMosaic.TcCoe Idealize.SL.Sem

/-- The word-level program runs and leaves its arguments unchanged: its run with the result dropped. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.MainRun.run_value (F := Bits) m ρ)

/-- The idealized program likewise. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.MainRun.run_value (F := Ideal) m ρ)

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Value.run (F := Ideal) m ρ)

/-- From memories agreeing on the arguments both programs end at the loss of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, (θ_run (Cert.KernelIdeal.defs (F := Ideal)) _ _).mono
      (fun _ h c => ⟨(h c).1.trans (Cert.KernelIdeal.Result.result_eq m hpre c), (h c).2⟩)
      (Cert.KernelIdeal.MainRun.run_value (F := Ideal) m ρ), ?_⟩
  refine (θ_run (Cert.ReferenceIdeal.defs (F := Ideal)) _ _).mono (fun _ h c => ⟨(h c).1.trans ?_, (h c).2⟩)
    (Cert.ReferenceIdeal.RefValue.run_loss m' ρ')
  rw [(hagree c).1, (hagree c).2.1, (hagree c).2.2.1, (hagree c).2.2.2]
  try rfl

end Cert.Proof.Claims

end
-- ==== Proof.lean ====
/-
  A pairwise Student-t divergence loss, as a two-kernel program against its array reference, equal over the extended
  reals.

  The points are 8192 rows of the plane. The first kernel adds, tile pair by tile pair over an 8 × 8 grid, the weights
  1 / (1 + (|a|² + |b|² − 2 a·b)) of ALL ordered pairs of points into a running sum it keeps between grid points, and
  writes the sum out at the last point; the host subtracts the number of points. For each of 262144 listed pairs the
  host gathers the two rows (a row number below zero counted from the end); the second kernel adds, chunk by chunk over
  16 grid points, p · (log p − log ((1 / (d₀² + d₁² + 2)) / part)) into its running sum and writes it out at the last
  point. The reference computes the same numbers on whole arrays: the weights by one matrix product, 1 / ((1 + d₀²) +
  (1 + d₁²)) per pair. Sums over the extended reals regroup freely, and 1 + 1 = 2 on the literals, so both end at
  one function of the arguments (Proof/LossSpec.lean). The kernel's gather replaces a row number outside the array by a
  fill that the reference's clamping gather does not produce; the precondition keeps every row number in
  [−8192, 8192), where the two gathers agree. The frames are the runs with the result dropped; the idealization
  rewrote nothing.
-/
import proofs.«400394_j48352741818804_1_alg».proof.Defs
import proofs.«400394_j48352741818804_1_alg».proof.Proof.Gen.Kernel
import proofs.«400394_j48352741818804_1_alg».proof.Proof.Gen.KernelIdeal
import proofs.«400394_j48352741818804_1_alg».proof.Proof.Gen.ReferenceIdeal
import proofs.«400394_j48352741818804_1_alg».proof.Proof.Gen.Pre_finite_inputs
import proofs.«400394_j48352741818804_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
